-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v10 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v10 main_v16
  main_v17

def fn {F : FTy → Type} [FloatOps F] (main_arg0 : FVec F S100000x128 .f32) (main_arg1 : IVec S1600000 32) (main_arg2 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S1600000 32 := broadcastInDim S1600000 ![] bcast_S_S1600000 main_c_0
  let main_v5 : IVec S1600000 1 := cmpi .sge main_arg1 main_v4
  let main_c_1 : IVec S_ 32 := constantI S_ 32 100000#32
  let main_v6 : IVec S1600000 32 := broadcastInDim S1600000 ![] bcast_S_S1600000 main_c_1
  let main_v7 : IVec S1600000 1 := cmpi .slt main_arg1 main_v6
  let main_v8 : IVec S1600000 1 := andi main_v5 main_v7
  let main_c_2 : IVec S_ 1 := constantI S_ 1 1#1
  let main_v9 : IVec S_ 1 := (fun x v => Host.reduce IntOp.andi x v reducesTo_S1600000_S_d0 h_S_) main_v8 main_c_2
  let main_v10 : IVec S_ 1 := andi main_v3 main_v9
  let main_c_3 : IVec S_ 32 := constantI S_ 32 0#32
  let main_v11 : IVec S1600000 32 := broadcastInDim S1600000 ![] bcast_S_S1600000 main_c_3
  let main_v12 : IVec S1600000 1 := cmpi .sge main_arg2 main_v11
  let main_c_4 : IVec S_ 32 := constantI S_ 32 100000#32
  let main_v13 : IVec S1600000 32 := broadcastInDim S1600000 ![] bcast_S_S1600000 main_c_4
  let main_v14 : IVec S1600000 1 := cmpi .slt main_arg2 main_v13
  let main_v15 : IVec S1600000 1 := andi main_v12 main_v14
  let main_c_5 : IVec S_ 1 := constantI S_ 1 1#1
  fn_part1 (F := F) main_v10 main_v15 main_c_5
-- ==== Kernel.lean ====
abbrev S100000x128 : Shape := ⟨2, ![100000, 128]⟩
abbrev S1600000 : Shape := ⟨1, ![1600000]⟩
abbrev S256 : Shape := ⟨1, ![256]⟩
abbrev S256x128 : Shape := ⟨2, ![256, 128]⟩
abbrev S_ : Shape := ⟨0, ![]⟩
abbrev S1 : Shape := ⟨1, ![1]⟩
abbrev S1x128 : Shape := ⟨2, ![1, 128]⟩
abbrev S1600000x1 : Shape := ⟨2, ![1600000, 1]⟩

abbrev nBuf : Space → Nat
  | .hbm => 5
  | .vmem => 5
  | .smem => 4
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000x1, .f32⟩
  | .local _ .vmem, ⟨0, _⟩ => ⟨S256, .f32⟩
  | .local _ .vmem, ⟨1, _⟩ => ⟨S256, .f32⟩
  | .local _ .vmem, ⟨2, _⟩ => ⟨S100000x128, .f32⟩
  | .local _ .vmem, ⟨3, _⟩ => ⟨S256x128, .f32⟩
  | .local _ .vmem, ⟨4, _⟩ => ⟨S256x128, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3125], ![false, false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_off1 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c0_i32_9 : BitVec 32 := 0#32
  let v12 : BitVec 32 := Scalar.addi v11 c0_i32_9
  let v13 : Index := Scalar.indexCast v12
  ![v13.toNat]
def k0_off2 (v14 : BitVec 32) : Fin 2 → Nat :=
  let v17 : Index := Scalar.indexCast v14
  let c0_10 : Index := 0#32
  ![v17.toNat, 0]

def k0_chk1 (v14 : BitVec 32) : Prop :=
  (∀ a, (k0_off2 v14) a + S1x128.size a ≤ S100000x128.size a)
instance k0_chk1.dec : ∀ (v14 : BitVec 32), Decidable (k0_chk1 v14) := fun v14 => decidable_of_iff' _ (Iff.of_eq (k0_chk1.eq_1 v14))
theorem k0_off2_inb : ∀ (v14 : BitVec 32) (k0_hw1 : k0_chk1 v14), ∀ a, (k0_off2 v14) a + S1x128.size a ≤ S100000x128.size a := fun v14 k0_hw1 => k0_hw1

def k0_off3 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c0_i32_9 : BitVec 32 := 0#32
  let v12 : BitVec 32 := Scalar.addi v11 c0_i32_9
  let v19 : Index := Scalar.indexCast v12
  let c0_11 : Index := 0#32
  ![v19.toNat, 0]
def k0_off4 (v16 : BitVec 32) : Fin 2 → Nat :=
  let v23 : Index := Scalar.indexCast v16
  let c0_12 : Index := 0#32
  ![v23.toNat, 0]

def k0_chk2 (v16 : BitVec 32) : Prop :=
  (∀ a, (k0_off4 v16) a + S1x128.size a ≤ S100000x128.size a)
instance k0_chk2.dec : ∀ (v16 : BitVec 32), Decidable (k0_chk2 v16) := fun v16 => decidable_of_iff' _ (Iff.of_eq (k0_chk2.eq_1 v16))
theorem k0_off4_inb : ∀ (v16 : BitVec 32) (k0_hw2 : k0_chk2 v16), ∀ a, (k0_off4 v16) a + S1x128.size a ≤ S100000x128.size a := fun v16 k0_hw2 => k0_hw2

def k0_off5 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c0_i32_9 : BitVec 32 := 0#32
  let v12 : BitVec 32 := Scalar.addi v11 c0_i32_9
  let v25 : Index := Scalar.indexCast v12
  let c0_13 : Index := 0#32
  ![v25.toNat, 0]
def k0_off6 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c1_i32_14 : BitVec 32 := 1#32
  let v29 : BitVec 32 := Scalar.addi v11 c1_i32_14
  let v30 : Index := Scalar.indexCast v29
  ![v30.toNat]
def k0_off7 (v31 : BitVec 32) : Fin 2 → Nat :=
  let v34 : Index := Scalar.indexCast v31
  let c0_15 : Index := 0#32
  ![v34.toNat, 0]

def k0_chk3 (v31 : BitVec 32) : Prop :=
  (∀ a, (k0_off7 v31) a + S1x128.size a ≤ S100000x128.size a)
instance k0_chk3.dec : ∀ (v31 : BitVec 32), Decidable (k0_chk3 v31) := fun v31 => decidable_of_iff' _ (Iff.of_eq (k0_chk3.eq_1 v31))
theorem k0_off7_inb : ∀ (v31 : BitVec 32) (k0_hw3 : k0_chk3 v31), ∀ a, (k0_off7 v31) a + S1x128.size a ≤ S100000x128.size a := fun v31 k0_hw3 => k0_hw3

def k0_off8 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c1_i32_14 : BitVec 32 := 1#32
  let v29 : BitVec 32 := Scalar.addi v11 c1_i32_14
  let v36 : Index := Scalar.indexCast v29
  let c0_16 : Index := 0#32
  ![v36.toNat, 0]
def k0_off9 (v33 : BitVec 32) : Fin 2 → Nat :=
  let v40 : Index := Scalar.indexCast v33
  let c0_17 : Index := 0#32
  ![v40.toNat, 0]

def k0_chk4 (v33 : BitVec 32) : Prop :=
  (∀ a, (k0_off9 v33) a + S1x128.size a ≤ S100000x128.size a)
instance k0_chk4.dec : ∀ (v33 : BitVec 32), Decidable (k0_chk4 v33) := fun v33 => decidable_of_iff' _ (Iff.of_eq (k0_chk4.eq_1 v33))
theorem k0_off9_inb : ∀ (v33 : BitVec 32) (k0_hw4 : k0_chk4 v33), ∀ a, (k0_off9 v33) a + S1x128.size a ≤ S100000x128.size a := fun v33 k0_hw4 => k0_hw4

def k0_off10 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c1_i32_14 : BitVec 32 := 1#32
  let v29 : BitVec 32 := Scalar.addi v11 c1_i32_14
  let v42 : Index := Scalar.indexCast v29
  let c0_18 : Index := 0#32
  ![v42.toNat, 0]
def k0_off11 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c2_i32 : BitVec 32 := 2#32
  let v46 : BitVec 32 := Scalar.addi v11 c2_i32
  let v47 : Index := Scalar.indexCast v46
  ![v47.toNat]
def k0_off12 (v48 : BitVec 32) : Fin 2 → Nat :=
  let v51 : Index := Scalar.indexCast v48
  let c0_19 : Index := 0#32
  ![v51.toNat, 0]

def k0_chk5 (v48 : BitVec 32) : Prop :=
  (∀ a, (k0_off12 v48) a + S1x128.size a ≤ S100000x128.size a)
instance k0_chk5.dec : ∀ (v48 : BitVec 32), Decidable (k0_chk5 v48) := fun v48 => decidable_of_iff' _ (Iff.of_eq (k0_chk5.eq_1 v48))
theorem k0_off12_inb : ∀ (v48 : BitVec 32) (k0_hw5 : k0_chk5 v48), ∀ a, (k0_off12 v48) a + S1x128.size a ≤ S100000x128.size a := fun v48 k0_hw5 => k0_hw5

def k0_off13 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c2_i32 : BitVec 32 := 2#32
  let v46 : BitVec 32 := Scalar.addi v11 c2_i32
  let v53 : Index := Scalar.indexCast v46
  let c0_20 : Index := 0#32
  ![v53.toNat, 0]
def k0_off14 (v50 : BitVec 32) : Fin 2 → Nat :=
  let v57 : Index := Scalar.indexCast v50
  let c0_21 : Index := 0#32
  ![v57.toNat, 0]

def k0_chk6 (v50 : BitVec 32) : Prop :=
  (∀ a, (k0_off14 v50) a + S1x128.size a ≤ S100000x128.size a)
instance k0_chk6.dec : ∀ (v50 : BitVec 32), Decidable (k0_chk6 v50) := fun v50 => decidable_of_iff' _ (Iff.of_eq (k0_chk6.eq_1 v50))
theorem k0_off14_inb : ∀ (v50 : BitVec 32) (k0_hw6 : k0_chk6 v50), ∀ a, (k0_off14 v50) a + S1x128.size a ≤ S100000x128.size a := fun v50 k0_hw6 => k0_hw6

def k0_off15 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c2_i32 : BitVec 32 := 2#32
  let v46 : BitVec 32 := Scalar.addi v11 c2_i32
  let v59 : Index := Scalar.indexCast v46
  let c0_22 : Index := 0#32
  ![v59.toNat, 0]
def k0_off16 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c3_i32 : BitVec 32 := 3#32
  let v63 : BitVec 32 := Scalar.addi v11 c3_i32
  let v64 : Index := Scalar.indexCast v63
  ![v64.toNat]
def k0_off17 (v65 : BitVec 32) : Fin 2 → Nat :=
  let v68 : Index := Scalar.indexCast v65
  let c0_23 : Index := 0#32
  ![v68.toNat, 0]

def k0_chk7 (v65 : BitVec 32) : Prop :=
  (∀ a, (k0_off17 v65) a + S1x128.size a ≤ S100000x128.size a)
instance k0_chk7.dec : ∀ (v65 : BitVec 32), Decidable (k0_chk7 v65) := fun v65 => decidable_of_iff' _ (Iff.of_eq (k0_chk7.eq_1 v65))
theorem k0_off17_inb : ∀ (v65 : BitVec 32) (k0_hw7 : k0_chk7 v65), ∀ a, (k0_off17 v65) a + S1x128.size a ≤ S100000x128.size a := fun v65 k0_hw7 => k0_hw7

def k0_off18 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c3_i32 : BitVec 32 := 3#32
  let v63 : BitVec 32 := Scalar.addi v11 c3_i32
  let v70 : Index := Scalar.indexCast v63
  let c0_24 : Index := 0#32
  ![v70.toNat, 0]
def k0_off19 (v67 : BitVec 32) : Fin 2 → Nat :=
  let v74 : Index := Scalar.indexCast v67
  let c0_25 : Index := 0#32
  ![v74.toNat, 0]

def k0_chk8 (v67 : BitVec 32) : Prop :=
  (∀ a, (k0_off19 v67) a + S1x128.size a ≤ S100000x128.size a)
instance k0_chk8.dec : ∀ (v67 : BitVec 32), Decidable (k0_chk8 v67) := fun v67 => decidable_of_iff' _ (Iff.of_eq (k0_chk8.eq_1 v67))
theorem k0_off19_inb : ∀ (v67 : BitVec 32) (k0_hw8 : k0_chk8 v67), ∀ a, (k0_off19 v67) a + S1x128.size a ≤ S100000x128.size a := fun v67 k0_hw8 => k0_hw8

def k0_off20 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c3_i32 : BitVec 32 := 3#32
  let v63 : BitVec 32 := Scalar.addi v11 c3_i32
  let v76 : Index := Scalar.indexCast v63
  let c0_26 : Index := 0#32
  ![v76.toNat, 0]
def k0_off21 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c4_i32 : BitVec 32 := 4#32
  let v80 : BitVec 32 := Scalar.addi v11 c4_i32
  let v81 : Index := Scalar.indexCast v80
  ![v81.toNat]
def k0_off22 (v82 : BitVec 32) : Fin 2 → Nat :=
  let v85 : Index := Scalar.indexCast v82
  let c0_27 : Index := 0#32
  ![v85.toNat, 0]

def k0_chk9 (v82 : BitVec 32) : Prop :=
  (∀ a, (k0_off22 v82) a + S1x128.size a ≤ S100000x128.size a)
instance k0_chk9.dec : ∀ (v82 : BitVec 32), Decidable (k0_chk9 v82) := fun v82 => decidable_of_iff' _ (Iff.of_eq (k0_chk9.eq_1 v82))
theorem k0_off22_inb : ∀ (v82 : BitVec 32) (k0_hw9 : k0_chk9 v82), ∀ a, (k0_off22 v82) a + S1x128.size a ≤ S100000x128.size a := fun v82 k0_hw9 => k0_hw9

def k0_off23 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c4_i32 : BitVec 32 := 4#32
  let v80 : BitVec 32 := Scalar.addi v11 c4_i32
  let v87 : Index := Scalar.indexCast v80
  let c0_28 : Index := 0#32
  ![v87.toNat, 0]
def k0_off24 (v84 : BitVec 32) : Fin 2 → Nat :=
  let v91 : Index := Scalar.indexCast v84
  let c0_29 : Index := 0#32
  ![v91.toNat, 0]

def k0_chk10 (v84 : BitVec 32) : Prop :=
  (∀ a, (k0_off24 v84) a + S1x128.size a ≤ S100000x128.size a)
instance k0_chk10.dec : ∀ (v84 : BitVec 32), Decidable (k0_chk10 v84) := fun v84 => decidable_of_iff' _ (Iff.of_eq (k0_chk10.eq_1 v84))
theorem k0_off24_inb : ∀ (v84 : BitVec 32) (k0_hw10 : k0_chk10 v84), ∀ a, (k0_off24 v84) a + S1x128.size a ≤ S100000x128.size a := fun v84 k0_hw10 => k0_hw10

def k0_off25 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c4_i32 : BitVec 32 := 4#32
  let v80 : BitVec 32 := Scalar.addi v11 c4_i32
  let v93 : Index := Scalar.indexCast v80
  let c0_30 : Index := 0#32
  ![v93.toNat, 0]
def k0_off26 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c5_i32 : BitVec 32 := 5#32
  let v97 : BitVec 32 := Scalar.addi v11 c5_i32
  let v98 : Index := Scalar.indexCast v97
  ![v98.toNat]
def k0_off27 (v99 : BitVec 32) : Fin 2 → Nat :=
  let v102 : Index := Scalar.indexCast v99
  let c0_31 : Index := 0#32
  ![v102.toNat, 0]

def k0_chk11 (v99 : BitVec 32) : Prop :=
  (∀ a, (k0_off27 v99) a + S1x128.size a ≤ S100000x128.size a)
instance k0_chk11.dec : ∀ (v99 : BitVec 32), Decidable (k0_chk11 v99) := fun v99 => decidable_of_iff' _ (Iff.of_eq (k0_chk11.eq_1 v99))
theorem k0_off27_inb : ∀ (v99 : BitVec 32) (k0_hw11 : k0_chk11 v99), ∀ a, (k0_off27 v99) a + S1x128.size a ≤ S100000x128.size a := fun v99 k0_hw11 => k0_hw11

def k0_off28 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c5_i32 : BitVec 32 := 5#32
  let v97 : BitVec 32 := Scalar.addi v11 c5_i32
  let v104 : Index := Scalar.indexCast v97
  let c0_32 : Index := 0#32
  ![v104.toNat, 0]
def k0_off29 (v101 : BitVec 32) : Fin 2 → Nat :=
  let v108 : Index := Scalar.indexCast v101
  let c0_33 : Index := 0#32
  ![v108.toNat, 0]

def k0_chk12 (v101 : BitVec 32) : Prop :=
  (∀ a, (k0_off29 v101) a + S1x128.size a ≤ S100000x128.size a)
instance k0_chk12.dec : ∀ (v101 : BitVec 32), Decidable (k0_chk12 v101) := fun v101 => decidable_of_iff' _ (Iff.of_eq (k0_chk12.eq_1 v101))
theorem k0_off29_inb : ∀ (v101 : BitVec 32) (k0_hw12 : k0_chk12 v101), ∀ a, (k0_off29 v101) a + S1x128.size a ≤ S100000x128.size a := fun v101 k0_hw12 => k0_hw12

def k0_off30 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c5_i32 : BitVec 32 := 5#32
  let v97 : BitVec 32 := Scalar.addi v11 c5_i32
  let v110 : Index := Scalar.indexCast v97
  let c0_34 : Index := 0#32
  ![v110.toNat, 0]
def k0_off31 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c6_i32 : BitVec 32 := 6#32
  let v114 : BitVec 32 := Scalar.addi v11 c6_i32
  let v115 : Index := Scalar.indexCast v114
  ![v115.toNat]
def k0_off32 (v116 : BitVec 32) : Fin 2 → Nat :=
  let v119 : Index := Scalar.indexCast v116
  let c0_35 : Index := 0#32
  ![v119.toNat, 0]

def k0_chk13 (v116 : BitVec 32) : Prop :=
  (∀ a, (k0_off32 v116) a + S1x128.size a ≤ S100000x128.size a)
instance k0_chk13.dec : ∀ (v116 : BitVec 32), Decidable (k0_chk13 v116) := fun v116 => decidable_of_iff' _ (Iff.of_eq (k0_chk13.eq_1 v116))
theorem k0_off32_inb : ∀ (v116 : BitVec 32) (k0_hw13 : k0_chk13 v116), ∀ a, (k0_off32 v116) a + S1x128.size a ≤ S100000x128.size a := fun v116 k0_hw13 => k0_hw13

def k0_off33 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c6_i32 : BitVec 32 := 6#32
  let v114 : BitVec 32 := Scalar.addi v11 c6_i32
  let v121 : Index := Scalar.indexCast v114
  let c0_36 : Index := 0#32
  ![v121.toNat, 0]
def k0_off34 (v118 : BitVec 32) : Fin 2 → Nat :=
  let v125 : Index := Scalar.indexCast v118
  let c0_37 : Index := 0#32
  ![v125.toNat, 0]

def k0_chk14 (v118 : BitVec 32) : Prop :=
  (∀ a, (k0_off34 v118) a + S1x128.size a ≤ S100000x128.size a)
instance k0_chk14.dec : ∀ (v118 : BitVec 32), Decidable (k0_chk14 v118) := fun v118 => decidable_of_iff' _ (Iff.of_eq (k0_chk14.eq_1 v118))
theorem k0_off34_inb : ∀ (v118 : BitVec 32) (k0_hw14 : k0_chk14 v118), ∀ a, (k0_off34 v118) a + S1x128.size a ≤ S100000x128.size a := fun v118 k0_hw14 => k0_hw14

def k0_off35 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c6_i32 : BitVec 32 := 6#32
  let v114 : BitVec 32 := Scalar.addi v11 c6_i32
  let v127 : Index := Scalar.indexCast v114
  let c0_38 : Index := 0#32
  ![v127.toNat, 0]
def k0_off36 (k0_t1 : Fin k0_t1_loop.trips) : Fin 1 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c7_i32 : BitVec 32 := 7#32
  let v131 : BitVec 32 := Scalar.addi v11 c7_i32
  let v132 : Index := Scalar.indexCast v131
  ![v132.toNat]
def k0_off37 (v133 : BitVec 32) : Fin 2 → Nat :=
  let v136 : Index := Scalar.indexCast v133
  let c0_39 : Index := 0#32
  ![v136.toNat, 0]

def k0_chk15 (v133 : BitVec 32) : Prop :=
  (∀ a, (k0_off37 v133) a + S1x128.size a ≤ S100000x128.size a)
instance k0_chk15.dec : ∀ (v133 : BitVec 32), Decidable (k0_chk15 v133) := fun v133 => decidable_of_iff' _ (Iff.of_eq (k0_chk15.eq_1 v133))
theorem k0_off37_inb : ∀ (v133 : BitVec 32) (k0_hw15 : k0_chk15 v133), ∀ a, (k0_off37 v133) a + S1x128.size a ≤ S100000x128.size a := fun v133 k0_hw15 => k0_hw15

def k0_off38 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c7_i32 : BitVec 32 := 7#32
  let v131 : BitVec 32 := Scalar.addi v11 c7_i32
  let v138 : Index := Scalar.indexCast v131
  let c0_40 : Index := 0#32
  ![v138.toNat, 0]
def k0_off39 (v135 : BitVec 32) : Fin 2 → Nat :=
  let v142 : Index := Scalar.indexCast v135
  let c0_41 : Index := 0#32
  ![v142.toNat, 0]

def k0_chk16 (v135 : BitVec 32) : Prop :=
  (∀ a, (k0_off39 v135) a + S1x128.size a ≤ S100000x128.size a)
instance k0_chk16.dec : ∀ (v135 : BitVec 32), Decidable (k0_chk16 v135) := fun v135 => decidable_of_iff' _ (Iff.of_eq (k0_chk16.eq_1 v135))
theorem k0_off39_inb : ∀ (v135 : BitVec 32) (k0_hw16 : k0_chk16 v135), ∀ a, (k0_off39 v135) a + S1x128.size a ≤ S100000x128.size a := fun v135 k0_hw16 => k0_hw16

def k0_off40 (k0_t1 : Fin k0_t1_loop.trips) : Fin 2 → Nat :=
  let c0_i32_8 : BitVec 32 := 0#32
  let c0_i32_1 : BitVec 32 := 0#32
  let c1_i32 : BitVec 32 := 1#32
  let arg10 : BitVec 32 := Scf.iv c0_i32_1 c1_i32 k0_t1
  let c1_i32_7 : BitVec 32 := 1#32
  let v9 : BitVec 32 := Scalar.muli arg10 c1_i32_7
  let v10 : BitVec 32 := Scalar.addi c0_i32_8 v9
  let c8_i32 : BitVec 32 := 8#32
  let v11 : BitVec 32 := Scalar.muli v10 c8_i32
  let c7_i32 : BitVec 32 := 7#32
  let v131 : BitVec 32 := Scalar.addi v11 c7_i32
  let v144 : Index := Scalar.indexCast v131
  let c0_42 : Index := 0#32
  ![v144.toNat, 0]
def cc0_transform_0 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

abbrev stage0_0 : Fin 2 → Memref sig .tc .smem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  numel1_S1 : S1.numel = 1
  h_S1x128 : 0 < S1x128.numel
  shapeCasts_S1x128_S1x128 : S1x128.ShapeCasts S1x128
  inb_S256x128_S256x128_0_0 : ∀ a, (![0, 0] : Fin 2 → Nat) a + S256x128.size a ≤ S256x128.size a
  h_S256x128 : 0 < S256x128.numel
  reduces_S256x128_S256 : S256x128.Reduces [1] S256
  inb_S256_S256_0 : ∀ a, (![0] : Fin 1 → Nat) a + S256.size a ≤ S256.size a
  h_S256 : 0 < S256.numel
  shapeCasts_S1600000_S1600000x1 : S1600000.ShapeCasts S1600000x1
  hcc0_scratch3 : 6 + S_.numel ≤ 7
  hrank0 : 0 < grid0.rank
  k0_t1_ok : k0_t1_loop.OK
  k0_off1_inb : ∀ k0_t1 : Fin k0_t1_loop.trips, ∀ a, (k0_off1 k0_t1) a + S1.size a ≤ S256.size a
  k0_off3_inb : ∀ k0_t1 : Fin k0_t1_loop.trips, ∀ a, (k0_off3 k0_t1) a + S1x128.size a ≤ S256x128.size a
  k0_off5_inb : ∀ k0_t1 : Fin k0_t1_loop.trips, ∀ a, (k0_off5 k0_t1) a + S1x128.size a ≤ S256x128.size a
  k0_off6_inb : ∀ k0_t1 : Fin k0_t1_loop.trips, ∀ a, (k0_off6 k0_t1) a + S1.size a ≤ S256.size a
  k0_off8_inb : ∀ k0_t1 : Fin k0_t1_loop.trips, ∀ a, (k0_off8 k0_t1) a + S1x128.size a ≤ S256x128.size a
  k0_off10_inb : ∀ k0_t1 : Fin k0_t1_loop.trips, ∀ a, (k0_off10 k0_t1) a + S1x128.size a ≤ S256x128.size a
  k0_off11_inb : ∀ k0_t1 : Fin k0_t1_loop.trips, ∀ a, (k0_off11 k0_t1) a + S1.size a ≤ S256.size a
  k0_off13_inb : ∀ k0_t1 : Fin k0_t1_loop.trips, ∀ a, (k0_off13 k0_t1) a + S1x128.size a ≤ S256x128.size a
  k0_off15_inb : ∀ k0_t1 : Fin k0_t1_loop.trips, ∀ a, (k0_off15 k0_t1) a + S1x128.size a ≤ S256x128.size a
  k0_off16_inb : ∀ k0_t1 : Fin k0_t1_loop.trips, ∀ a, (k0_off16 k0_t1) a + S1.size a ≤ S256.size a
  k0_off18_inb : ∀ k0_t1 : Fin k0_t1_loop.trips, ∀ a, (k0_off18 k0_t1) a + S1x128.size a ≤ S256x128.size a
  k0_off20_inb : ∀ k0_t1 : Fin k0_t1_loop.trips, ∀ a, (k0_off20 k0_t1) a + S1x128.size a ≤ S256x128.size a
  k0_off21_inb : ∀ k0_t1 : Fin k0_t1_loop.trips, ∀ a, (k0_off21 k0_t1) a + S1.size a ≤ S256.size a
  k0_off23_inb : ∀ k0_t1 : Fin k0_t1_loop.trips, ∀ a, (k0_off23 k0_t1) a + S1x128.size a ≤ S256x128.size a
  k0_off25_inb : ∀ k0_t1 : Fin k0_t1_loop.trips, ∀ a, (k0_off25 k0_t1) a + S1x128.size a ≤ S256x128.size a
  k0_off26_inb : ∀ k0_t1 : Fin k0_t1_loop.trips, ∀ a, (k0_off26 k0_t1) a + S1.size a ≤ S256.size a
  k0_off28_inb : ∀ k0_t1 : Fin k0_t1_loop.trips, ∀ a, (k0_off28 k0_t1) a + S1x128.size a ≤ S256x128.size a
  k0_off30_inb : ∀ k0_t1 : Fin k0_t1_loop.trips, ∀ a, (k0_off30 k0_t1) a + S1x128.size a ≤ S256x128.size a
  k0_off31_inb : ∀ k0_t1 : Fin k0_t1_loop.trips, ∀ a, (k0_off31 k0_t1) a + S1.size a ≤ S256.size a
  k0_off33_inb : ∀ k0_t1 : Fin k0_t1_loop.trips, ∀ a, (k0_off33 k0_t1) a + S1x128.size a ≤ S256x128.size a
  k0_off35_inb : ∀ k0_t1 : Fin k0_t1_loop.trips, ∀ a, (k0_off35 k0_t1) a + S1x128.size a ≤ S256x128.size a
  k0_off36_inb : ∀ k0_t1 : Fin k0_t1_loop.trips, ∀ a, (k0_off36 k0_t1) a + S1.size a ≤ S256.size a
  k0_off38_inb : ∀ k0_t1 : Fin k0_t1_loop.trips, ∀ a, (k0_off38 k0_t1) a + S1x128.size a ≤ S256x128.size a
  k0_off40_inb : ∀ k0_t1 : Fin k0_t1_loop.trips, ∀ a, (k0_off40 k0_t1) a + S1x128.size a ≤ S256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S1600000.size a
  hwx0_0 : ∀ i : grid0.Coords, EltTy.bits .i32 = 32 ∨ (Rect.block (s := S1600000) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S1600000.size a
  hwx0_1 : ∀ i : grid0.Coords, EltTy.bits .i32 = 32 ∨ (Rect.block (s := S1600000) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S256.size a ≤ S1600000.size a
  hwx0_2 : ∀ i : grid0.Coords, EltTy.bits .f32 = 32 ∨ (Rect.block (s := S1600000) S256.size (cc0_transform_3 i) (hinb0_2 i)).WholeWords (EltTy.packing .f32)

variable [Facts₀]

abbrev cc0_scratch3 : DmaSems sig S_ := SemArray.consecutive 6 S_ hcc0_scratch3

abbrev win0_0 : Pipeline.Window sig grid0 :=
  Pipeline.Window.ofSpec (Memref.whole main_arg1) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S1600000, .f32⟩
  | .hbm, ⟨24, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  h_S_ : 0 < S_.numel
  gather_S100000x128_S1600000x1_S1600000x128_1_0_n_n_0_1_1128_wf : GatherDims.WF S100000x128 S1600000x1 S1600000x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.Spec.lean ====
/-
  The edge score, as one function of the three argument arrays.

  For a node table `h : [100000, 128]` and two vectors of node numbers `src dst : [1600000]` (32-bit words), the
  score of edge `e` is the inner product of rows `src[e]` and `dst[e]` of the table,
      score e = ∑ k < 128, h[src e, k] · h[dst e, k],
  a sum of products in the extended reals; the result array is `[1600000, 1]` with `score e` at `(e, 0)`.
  A word names a row when it is below 100000 read unsigned (`rowOf`; on other words `rowOf` wraps, which no proof
  uses). Below: what the signed range test `0 ≤ w < 100000` says of a word, and the two ways a program turns an
  in-range word into a row number — the clamp of a gather's start index and the wrap of a negative index — are the
  identity on such words.
-/
import Idealize.ShloMosaic.PureOps.Ideal
import Idealize.ShloMosaic.PureOps.Ideal.Laws
import Idealize.ShloMosaic.Lib.ValueIdx
import Idealize.ShloMosaic.Lib.Affine

noncomputable section

open scoped BigOperators

namespace Cert.EdgeScore

open Idealize.ShloMosaic Idealize.ShloMosaic.ValueIdx

/-- The shapes of the table, an index vector and the result. -/
abbrev Tbl : Shape := ⟨2, ![100000, 128]⟩
abbrev Edges : Shape := ⟨1, ![1600000]⟩
abbrev Res : Shape := ⟨2, ![1600000, 1]⟩

/-- The table row a word names. -/
def rowOf (w : BitVec 32) : Fin 100000 := ⟨w.toNat % 100000, Nat.mod_lt _ (by decide)⟩

theorem rowOf_val (w : BitVec 32) (h : w.toNat < 100000) : (rowOf w).val = w.toNat := Nat.mod_eq_of_lt h

/-- A word in range names the row of its own value. -/
theorem rowOf_eq (w : BitVec 32) (h : w.toNat < 100000) : rowOf w = ⟨w.toNat, h⟩ := Fin.ext (rowOf_val w h)

/-- The score of edge `e`: the inner product of the two rows its endpoints name. -/
def score (h : Tbl.Idx → EReal) (src dst : Edges.Idx → BitVec 32) (e : Fin 1600000) : EReal :=
  ∑ k : Fin 128, h (ix2 (rowOf (src (ix1 e))) k) * h (ix2 (rowOf (dst (ix1 e))) k)

/-- The result array: the score of edge `e` at `(e, 0)`. -/
def scores (h : Tbl.Idx → EReal) (src dst : Edges.Idx → BitVec 32) : Res.Idx → EReal :=
  fun i => score h src dst (i 0)

/-! ## Words in range -/

/-- A word that tests `0 ≤ w` and `w < 100000` as a signed integer is below 100000 read unsigned. -/
theorem toNat_lt_of_range (w : BitVec 32) (h0 : IntOp.cmpi .sge w 0#32 = 1#1) (h1 : IntOp.cmpi .slt w 100000#32 = 1#1) :
    w.toNat < 100000 := by
  rw [IntOp.cmpi_sge] at h0
  rw [IntOp.cmpi_slt] at h1
  have z : (0#32 : BitVec 32).toInt = 0 := by decide
  have n : (100000#32 : BitVec 32).toInt = 100000 := by decide
  rw [z] at h0
  rw [n] at h1
  have hp : 2 * w.toNat < 2 ^ 32 := BitVec.toInt_pos_iff.mp h0
  have e : w.toInt = w.toNat := BitVec.toInt_eq_toNat_of_lt hp
  omega

/-- An in-range word read signed is its unsigned value. -/
theorem toInt_of_lt (w : BitVec 32) (h : w.toNat < 100000) : w.toInt = w.toNat :=
  BitVec.toInt_eq_toNat_of_lt (by omega)

/-- The clamp of a gather's start index into `[0, 99999]` leaves an in-range word's value. -/
theorem clamp_of_lt (w : BitVec 32) (h : w.toNat < 100000) : min w.toInt.toNat (100000 - 1) = w.toNat := by
  rw [toInt_of_lt w h, Int.toNat_natCast]; omega

/-- An in-range word is not negative, so the wrap `w < 0 ? w + 100000 : w` of a negative index leaves it. -/
theorem wrap_of_lt (w : BitVec 32) (h : w.toNat < 100000) :
    Scalar.select (IntOp.cmpi .slt w 0#32) (IntOp.addi w 100000#32) w = w := by
  have hn : ¬ IntOp.cmpi .slt w 0#32 = 1#1 := by
    rw [IntOp.cmpi_slt, toInt_of_lt w h, show (0#32 : BitVec 32).toInt = 0 from by decide]; omega
  unfold Scalar.select
  exact if_neg hn

end Cert.EdgeScore

end
-- ==== Proof.LibRowStores.lean ====
/-
  Eight consecutive one-row stores into a rank-2 buffer, read back.

  A loop body that copies eight rows `o, o + 1, …, o + 7` into a `[R, D]` buffer leaves a list of eight stores, each
  through the unit-stride rectangle of one whole row, the newest first. If the payload of the store into row `o + j`
  is, column by column, a function `T` of the buffer index, then reading the buffer afterwards gives `T` on the eight
  rows and what the buffer held before on every other row: the newer stores miss a row they do not name, and the store
  that names it holds it. The offsets of each store are given up to an equation (`off j = ![o + j, 0]`), so that
  offsets a kernel computes as words are read through their closed form. Stated for any view, element type, extents
  and row width.
-/
import Idealize.ShloMosaic.Lib.WritesUnit

namespace Idealize.ShloMosaic.View

variable {sig : RefSig} {κ : Kind} {sp : Space} {e : EltTy} {Val : EltTy → Type}

/-- After eight stores of the whole rows `o … o + 7` (newest first: row `o + 7` first), an index on one of those rows
    reads `T` when every store's payload is `T` at the index of its own row (`t0 … t7`), and an index on any other
    row reads the earlier contents. -/
theorem read_writes_rows8 {d : Fin 2 → ℕ} (v : View sig κ sp (⟨2, d⟩ : Shape) e) (f : v.ty.Contents Val)
    {size : Fin 2 → ℕ} {off0 off1 off2 off3 off4 off5 off6 off7 : Fin 2 → ℕ}
    (inb0 : ∀ a : Fin 2, off0 a + size a ≤ d a)
    (inb1 : ∀ a : Fin 2, off1 a + size a ≤ d a)
    (inb2 : ∀ a : Fin 2, off2 a + size a ≤ d a)
    (inb3 : ∀ a : Fin 2, off3 a + size a ≤ d a)
    (inb4 : ∀ a : Fin 2, off4 a + size a ≤ d a)
    (inb5 : ∀ a : Fin 2, off5 a + size a ≤ d a)
    (inb6 : ∀ a : Fin 2, off6 a + size a ≤ d a)
    (inb7 : ∀ a : Fin 2, off7 a + size a ≤ d a)
    (w0 : (Rect.unit (s := ⟨2, d⟩) off0 size inb0).shape.Idx → Val e)
    (w1 : (Rect.unit (s := ⟨2, d⟩) off1 size inb1).shape.Idx → Val e)
    (w2 : (Rect.unit (s := ⟨2, d⟩) off2 size inb2).shape.Idx → Val e)
    (w3 : (Rect.unit (s := ⟨2, d⟩) off3 size inb3).shape.Idx → Val e)
    (w4 : (Rect.unit (s := ⟨2, d⟩) off4 size inb4).shape.Idx → Val e)
    (w5 : (Rect.unit (s := ⟨2, d⟩) off5 size inb5).shape.Idx → Val e)
    (w6 : (Rect.unit (s := ⟨2, d⟩) off6 size inb6).shape.Idx → Val e)
    (w7 : (Rect.unit (s := ⟨2, d⟩) off7 size inb7).shape.Idx → Val e)
    (o : ℕ) (h0 : off0 = ![o + 0, 0]) (h1 : off1 = ![o + 1, 0]) (h2 : off2 = ![o + 2, 0]) (h3 : off3 = ![o + 3, 0]) (h4 : off4 = ![o + 4, 0]) (h5 : off5 = ![o + 5, 0]) (h6 : off6 = ![o + 6, 0]) (h7 : off7 = ![o + 7, 0])
    (hW : size (0 : Fin 2) = 1) (hD : size (1 : Fin 2) = d (1 : Fin 2))
    (T : (⟨2, d⟩ : Shape).Idx → Val e)
    (t0 : ∀ (y : (⟨2, d⟩ : Shape).Idx) (x : (Rect.unit (s := ⟨2, d⟩) off0 size inb0).shape.Idx),
      (y (0 : Fin 2)).val = o + 0 → (y (1 : Fin 2)).val = (x (1 : Fin 2)).val → w0 x = T y)
    (t1 : ∀ (y : (⟨2, d⟩ : Shape).Idx) (x : (Rect.unit (s := ⟨2, d⟩) off1 size inb1).shape.Idx),
      (y (0 : Fin 2)).val = o + 1 → (y (1 : Fin 2)).val = (x (1 : Fin 2)).val → w1 x = T y)
    (t2 : ∀ (y : (⟨2, d⟩ : Shape).Idx) (x : (Rect.unit (s := ⟨2, d⟩) off2 size inb2).shape.Idx),
      (y (0 : Fin 2)).val = o + 2 → (y (1 : Fin 2)).val = (x (1 : Fin 2)).val → w2 x = T y)
    (t3 : ∀ (y : (⟨2, d⟩ : Shape).Idx) (x : (Rect.unit (s := ⟨2, d⟩) off3 size inb3).shape.Idx),
      (y (0 : Fin 2)).val = o + 3 → (y (1 : Fin 2)).val = (x (1 : Fin 2)).val → w3 x = T y)
    (t4 : ∀ (y : (⟨2, d⟩ : Shape).Idx) (x : (Rect.unit (s := ⟨2, d⟩) off4 size inb4).shape.Idx),
      (y (0 : Fin 2)).val = o + 4 → (y (1 : Fin 2)).val = (x (1 : Fin 2)).val → w4 x = T y)
    (t5 : ∀ (y : (⟨2, d⟩ : Shape).Idx) (x : (Rect.unit (s := ⟨2, d⟩) off5 size inb5).shape.Idx),
      (y (0 : Fin 2)).val = o + 5 → (y (1 : Fin 2)).val = (x (1 : Fin 2)).val → w5 x = T y)
    (t6 : ∀ (y : (⟨2, d⟩ : Shape).Idx) (x : (Rect.unit (s := ⟨2, d⟩) off6 size inb6).shape.Idx),
      (y (0 : Fin 2)).val = o + 6 → (y (1 : Fin 2)).val = (x (1 : Fin 2)).val → w6 x = T y)
    (t7 : ∀ (y : (⟨2, d⟩ : Shape).Idx) (x : (Rect.unit (s := ⟨2, d⟩) off7 size inb7).shape.Idx),
      (y (0 : Fin 2)).val = o + 7 → (y (1 : Fin 2)).val = (x (1 : Fin 2)).val → w7 x = T y)
    (y : (⟨2, d⟩ : Shape).Idx) :
    v.read Val (v.writes Val f [
      ⟨Rect.unit (s := ⟨2, d⟩) off7 size inb7, w7⟩,
      ⟨Rect.unit (s := ⟨2, d⟩) off6 size inb6, w6⟩,
      ⟨Rect.unit (s := ⟨2, d⟩) off5 size inb5, w5⟩,
      ⟨Rect.unit (s := ⟨2, d⟩) off4 size inb4, w4⟩,
      ⟨Rect.unit (s := ⟨2, d⟩) off3 size inb3, w3⟩,
      ⟨Rect.unit (s := ⟨2, d⟩) off2 size inb2, w2⟩,
      ⟨Rect.unit (s := ⟨2, d⟩) off1 size inb1, w1⟩,
      ⟨Rect.unit (s := ⟨2, d⟩) off0 size inb0, w0⟩]) y
      = if o ≤ (y (0 : Fin 2)).val ∧ (y (0 : Fin 2)).val < o + 8 then T y else v.read Val f y := by
  by_cases hr : o ≤ (y (0 : Fin 2)).val ∧ (y (0 : Fin 2)).val < o + 8
  · rw [if_pos hr]
    have hcases : (y (0 : Fin 2)).val = o + 0 ∨ (y (0 : Fin 2)).val = o + 1 ∨ (y (0 : Fin 2)).val = o + 2 ∨ (y (0 : Fin 2)).val = o + 3 ∨ (y (0 : Fin 2)).val = o + 4 ∨ (y (0 : Fin 2)).val = o + 5 ∨ (y (0 : Fin 2)).val = o + 6 ∨ (y (0 : Fin 2)).val = o + 7 := by omega
    rcases hcases with hu | hu | hu | hu | hu | hu | hu | hu
    · -- row o + 0: the 7 newer stores miss it, store 0 holds it
      refine (View.read_writes_cons_rows_of_not_mem v _ inb7 w7 _ y h7 hW (Or.inl (by omega))).trans ?_
      refine (View.read_writes_cons_rows_of_not_mem v _ inb6 w6 _ y h6 hW (Or.inl (by omega))).trans ?_
      refine (View.read_writes_cons_rows_of_not_mem v _ inb5 w5 _ y h5 hW (Or.inl (by omega))).trans ?_
      refine (View.read_writes_cons_rows_of_not_mem v _ inb4 w4 _ y h4 hW (Or.inl (by omega))).trans ?_
      refine (View.read_writes_cons_rows_of_not_mem v _ inb3 w3 _ y h3 hW (Or.inl (by omega))).trans ?_
      refine (View.read_writes_cons_rows_of_not_mem v _ inb2 w2 _ y h2 hW (Or.inl (by omega))).trans ?_
      refine (View.read_writes_cons_rows_of_not_mem v _ inb1 w1 _ y h1 hW (Or.inl (by omega))).trans ?_
      have hm : o + 0 ≤ (y (0 : Fin 2)).val ∧ (y (0 : Fin 2)).val < o + 0 + 1 := by omega
      refine (View.read_writes_cons_rows_of_mem v _ inb0 w0 _ y
        (Rect.unitLocal (s := ⟨2, d⟩) (off := ![o + 0, 0]) (size := size) y (Rect.unit_rows_mem y hW hD hm)) h0 ?_ ?_).trans ?_
      · rw [Rect.unitLocal_val]; show (y (0 : Fin 2)).val = o + 0 + ((y (0 : Fin 2)).val - (o + 0)); omega
      · rw [Rect.unitLocal_val]; show (y (1 : Fin 2)).val = (y (1 : Fin 2)).val - 0; omega
      · exact t0 y _ hu (by rw [Rect.unitLocal_val]; show (y (1 : Fin 2)).val = (y (1 : Fin 2)).val - 0; omega)
    · -- row o + 1: the 6 newer stores miss it, store 1 holds it
      refine (View.read_writes_cons_rows_of_not_mem v _ inb7 w7 _ y h7 hW (Or.inl (by omega))).trans ?_
      refine (View.read_writes_cons_rows_of_not_mem v _ inb6 w6 _ y h6 hW (Or.inl (by omega))).trans ?_
      refine (View.read_writes_cons_rows_of_not_mem v _ inb5 w5 _ y h5 hW (Or.inl (by omega))).trans ?_
      refine (View.read_writes_cons_rows_of_not_mem v _ inb4 w4 _ y h4 hW (Or.inl (by omega))).trans ?_
      refine (View.read_writes_cons_rows_of_not_mem v _ inb3 w3 _ y h3 hW (Or.inl (by omega))).trans ?_
      refine (View.read_writes_cons_rows_of_not_mem v _ inb2 w2 _ y h2 hW (Or.inl (by omega))).trans ?_
      have hm : o + 1 ≤ (y (0 : Fin 2)).val ∧ (y (0 : Fin 2)).val < o + 1 + 1 := by omega
      refine (View.read_writes_cons_rows_of_mem v _ inb1 w1 _ y
        (Rect.unitLocal (s := ⟨2, d⟩) (off := ![o + 1, 0]) (size := size) y (Rect.unit_rows_mem y hW hD hm)) h1 ?_ ?_).trans ?_
      · rw [Rect.unitLocal_val]; show (y (0 : Fin 2)).val = o + 1 + ((y (0 : Fin 2)).val - (o + 1)); omega
      · rw [Rect.unitLocal_val]; show (y (1 : Fin 2)).val = (y (1 : Fin 2)).val - 0; omega
      · exact t1 y _ hu (by rw [Rect.unitLocal_val]; show (y (1 : Fin 2)).val = (y (1 : Fin 2)).val - 0; omega)
    · -- row o + 2: the 5 newer stores miss it, store 2 holds it
      refine (View.read_writes_cons_rows_of_not_mem v _ inb7 w7 _ y h7 hW (Or.inl (by omega))).trans ?_
      refine (View.read_writes_cons_rows_of_not_mem v _ inb6 w6 _ y h6 hW (Or.inl (by omega))).trans ?_
      refine (View.read_writes_cons_rows_of_not_mem v _ inb5 w5 _ y h5 hW (Or.inl (by omega))).trans ?_
      refine (View.read_writes_cons_rows_of_not_mem v _ inb4 w4 _ y h4 hW (Or.inl (by omega))).trans ?_
      refine (View.read_writes_cons_rows_of_not_mem v _ inb3 w3 _ y h3 hW (Or.inl (by omega))).trans ?_
      have hm : o + 2 ≤ (y (0 : Fin 2)).val ∧ (y (0 : Fin 2)).val < o + 2 + 1 := by omega
      refine (View.read_writes_cons_rows_of_mem v _ inb2 w2 _ y
        (Rect.unitLocal (s := ⟨2, d⟩) (off := ![o + 2, 0]) (size := size) y (Rect.unit_rows_mem y hW hD hm)) h2 ?_ ?_).trans ?_
      · rw [Rect.unitLocal_val]; show (y (0 : Fin 2)).val = o + 2 + ((y (0 : Fin 2)).val - (o + 2)); omega
      · rw [Rect.unitLocal_val]; show (y (1 : Fin 2)).val = (y (1 : Fin 2)).val - 0; omega
      · exact t2 y _ hu (by rw [Rect.unitLocal_val]; show (y (1 : Fin 2)).val = (y (1 : Fin 2)).val - 0; omega)
    · -- row o + 3: the 4 newer stores miss it, store 3 holds it
      refine (View.read_writes_cons_rows_of_not_mem v _ inb7 w7 _ y h7 hW (Or.inl (by omega))).trans ?_
      refine (View.read_writes_cons_rows_of_not_mem v _ inb6 w6 _ y h6 hW (Or.inl (by omega))).trans ?_
      refine (View.read_writes_cons_rows_of_not_mem v _ inb5 w5 _ y h5 hW (Or.inl (by omega))).trans ?_
      refine (View.read_writes_cons_rows_of_not_mem v _ inb4 w4 _ y h4 hW (Or.inl (by omega))).trans ?_
      have hm : o + 3 ≤ (y (0 : Fin 2)).val ∧ (y (0 : Fin 2)).val < o + 3 + 1 := by omega
      refine (View.read_writes_cons_rows_of_mem v _ inb3 w3 _ y
        (Rect.unitLocal (s := ⟨2, d⟩) (off := ![o + 3, 0]) (size := size) y (Rect.unit_rows_mem y hW hD hm)) h3 ?_ ?_).trans ?_
      · rw [Rect.unitLocal_val]; show (y (0 : Fin 2)).val = o + 3 + ((y (0 : Fin 2)).val - (o + 3)); omega
      · rw [Rect.unitLocal_val]; show (y (1 : Fin 2)).val = (y (1 : Fin 2)).val - 0; omega
      · exact t3 y _ hu (by rw [Rect.unitLocal_val]; show (y (1 : Fin 2)).val = (y (1 : Fin 2)).val - 0; omega)
    · -- row o + 4: the 3 newer stores miss it, store 4 holds it
      refine (View.read_writes_cons_rows_of_not_mem v _ inb7 w7 _ y h7 hW (Or.inl (by omega))).trans ?_
      refine (View.read_writes_cons_rows_of_not_mem v _ inb6 w6 _ y h6 hW (Or.inl (by omega))).trans ?_
      refine (View.read_writes_cons_rows_of_not_mem v _ inb5 w5 _ y h5 hW (Or.inl (by omega))).trans ?_
      have hm : o + 4 ≤ (y (0 : Fin 2)).val ∧ (y (0 : Fin 2)).val < o + 4 + 1 := by omega
      refine (View.read_writes_cons_rows_of_mem v _ inb4 w4 _ y
        (Rect.unitLocal (s := ⟨2, d⟩) (off := ![o + 4, 0]) (size := size) y (Rect.unit_rows_mem y hW hD hm)) h4 ?_ ?_).trans ?_
      · rw [Rect.unitLocal_val]; show (y (0 : Fin 2)).val = o + 4 + ((y (0 : Fin 2)).val - (o + 4)); omega
      · rw [Rect.unitLocal_val]; show (y (1 : Fin 2)).val = (y (1 : Fin 2)).val - 0; omega
      · exact t4 y _ hu (by rw [Rect.unitLocal_val]; show (y (1 : Fin 2)).val = (y (1 : Fin 2)).val - 0; omega)
    · -- row o + 5: the 2 newer stores miss it, store 5 holds it
      refine (View.read_writes_cons_rows_of_not_mem v _ inb7 w7 _ y h7 hW (Or.inl (by omega))).trans ?_
      refine (View.read_writes_cons_rows_of_not_mem v _ inb6 w6 _ y h6 hW (Or.inl (by omega))).trans ?_
      have hm : o + 5 ≤ (y (0 : Fin 2)).val ∧ (y (0 : Fin 2)).val < o + 5 + 1 := by omega
      refine (View.read_writes_cons_rows_of_mem v _ inb5 w5 _ y
        (Rect.unitLocal (s := ⟨2, d⟩) (off := ![o + 5, 0]) (size := size) y (Rect.unit_rows_mem y hW hD hm)) h5 ?_ ?_).trans ?_
      · rw [Rect.unitLocal_val]; show (y (0 : Fin 2)).val = o + 5 + ((y (0 : Fin 2)).val - (o + 5)); omega
      · rw [Rect.unitLocal_val]; show (y (1 : Fin 2)).val = (y (1 : Fin 2)).val - 0; omega
      · exact t5 y _ hu (by rw [Rect.unitLocal_val]; show (y (1 : Fin 2)).val = (y (1 : Fin 2)).val - 0; omega)
    · -- row o + 6: the 1 newer stores miss it, store 6 holds it
      refine (View.read_writes_cons_rows_of_not_mem v _ inb7 w7 _ y h7 hW (Or.inl (by omega))).trans ?_
      have hm : o + 6 ≤ (y (0 : Fin 2)).val ∧ (y (0 : Fin 2)).val < o + 6 + 1 := by omega
      refine (View.read_writes_cons_rows_of_mem v _ inb6 w6 _ y
        (Rect.unitLocal (s := ⟨2, d⟩) (off := ![o + 6, 0]) (size := size) y (Rect.unit_rows_mem y hW hD hm)) h6 ?_ ?_).trans ?_
      · rw [Rect.unitLocal_val]; show (y (0 : Fin 2)).val = o + 6 + ((y (0 : Fin 2)).val - (o + 6)); omega
      · rw [Rect.unitLocal_val]; show (y (1 : Fin 2)).val = (y (1 : Fin 2)).val - 0; omega
      · exact t6 y _ hu (by rw [Rect.unitLocal_val]; show (y (1 : Fin 2)).val = (y (1 : Fin 2)).val - 0; omega)
    · -- row o + 7: the 0 newer stores miss it, store 7 holds it
      have hm : o + 7 ≤ (y (0 : Fin 2)).val ∧ (y (0 : Fin 2)).val < o + 7 + 1 := by omega
      refine (View.read_writes_cons_rows_of_mem v _ inb7 w7 _ y
        (Rect.unitLocal (s := ⟨2, d⟩) (off := ![o + 7, 0]) (size := size) y (Rect.unit_rows_mem y hW hD hm)) h7 ?_ ?_).trans ?_
      · rw [Rect.unitLocal_val]; show (y (0 : Fin 2)).val = o + 7 + ((y (0 : Fin 2)).val - (o + 7)); omega
      · rw [Rect.unitLocal_val]; show (y (1 : Fin 2)).val = (y (1 : Fin 2)).val - 0; omega
      · exact t7 y _ hu (by rw [Rect.unitLocal_val]; show (y (1 : Fin 2)).val = (y (1 : Fin 2)).val - 0; omega)
  · rw [if_neg hr]
    refine (View.read_writes_cons_rows_of_not_mem v _ inb7 w7 _ y h7 hW (by omega)).trans ?_
    refine (View.read_writes_cons_rows_of_not_mem v _ inb6 w6 _ y h6 hW (by omega)).trans ?_
    refine (View.read_writes_cons_rows_of_not_mem v _ inb5 w5 _ y h5 hW (by omega)).trans ?_
    refine (View.read_writes_cons_rows_of_not_mem v _ inb4 w4 _ y h4 hW (by omega)).trans ?_
    refine (View.read_writes_cons_rows_of_not_mem v _ inb3 w3 _ y h3 hW (by omega)).trans ?_
    refine (View.read_writes_cons_rows_of_not_mem v _ inb2 w2 _ y h2 hW (by omega)).trans ?_
    refine (View.read_writes_cons_rows_of_not_mem v _ inb1 w1 _ y h1 hW (by omega)).trans ?_
    refine (View.read_writes_cons_rows_of_not_mem v _ inb0 w0 _ y h0 hW (by omega)).trans ?_
    rfl

end Idealize.ShloMosaic.View
-- ==== Proof.KRowsWord.lean ====
/-
  The staging loop of the kernel body, read back.

  One grid point of the kernel handles 256 edges. Its loop of 32 trips copies, for the eight edges `8k … 8k + 7` of trip
  `k`, the table row named by the edge's source word into row `8k + u` of one [256, 128] staging buffer, and the row
  named by its destination word into the same row of a second one. Each store is through the rectangle of one whole row,
  so after the 32 trips row `r` of the first buffer is the table row that word `r` of the source block names, and the
  same for the second buffer and the destination block — whatever the buffers held before (`rows_src`, `rows_dst`).
  A word names its row when it is below 100000, which is what the body's assumed side condition on each loaded word says.
-/
import proofs.«419394_j13511967113601_3_alg».proof.Proof.Gen.Kernel.Loops
import proofs.«419394_j13511967113601_3_alg».proof.Proof.Spec
import proofs.«419394_j13511967113601_3_alg».proof.Proof.LibRowStores
import Idealize.ShloMosaic.Lib.Pipeline.Value
import Idealize.ShloMosaic.Lib.ValueIdx

set_option maxRecDepth 16384
set_option maxHeartbeats 4000000

noncomputable section

namespace Cert.Kernel.Rows

open Cert.Kernel Cert.Kernel.Gen Cert.EdgeScore
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the staging buffer of an index block holds after the loop, as a function of the buffer index: at
    `(r, q)` the table (the contents `X6` of the resident copy) at the row that word `r` of the block (the contents
    `X` of the block's memref `M`) names, column `q`. -/
def rowsOf (M : Memref sig .tc .smem S256 .i32) (X : BufTy.Contents (Elt F) M.view.ty)
    (T : Memref sig .tc .vmem S100000x128 .f32) (X6 : BufTy.Contents (Elt F) T.view.ty) : S256x128.Idx → Elt F .f32 :=
  fun y => T.view.read (Elt F) X6 (ix2 (n0 := 100000) (n1 := 128) (rowOf (M.view.read (Elt F) X (ix1 (n := 256) (y 0)))) (y 1))

/-- One staged row. The body loads word `r` of a block (through the one-word rectangle at offset `r`), loads the
    table row at that word's value, and stores it unchanged (a shape cast to the same shape): at position `x` of the
    stored row this is `rowsOf` at `(r, x₁)`. The row load being inside the table says the word is below 100000. -/
theorem staged_row (M : Memref sig .tc .smem S256 .i32) (X : BufTy.Contents (Elt F) M.view.ty)
    (T : Memref sig .tc .vmem S100000x128 .f32) (X6 : BufTy.Contents (Elt F) T.view.ty)
    (offw : Fin 1 → ℕ) (inbw : ∀ a, offw a + S1.size a ≤ S256.size a) (h1 : 0 < S1.numel)
    (off6 : Fin 2 → ℕ) (inb6 : ∀ a, off6 a + S1x128.size a ≤ S100000x128.size a) (hsc : S1x128.ShapeCasts S1x128)
    (y : S256x128.Idx) (x : S1x128.Idx)
    (hoffw : offw = ![(y 0).val])
    (hoff6 : off6 = ![(M.view.readAt (Elt F) (Rect.unit (s := S256) offw S1.size inbw).toLoadRect X (Shape.Idx.first h1)).toNat, 0])
    (hx : (y 1).val = (x 1).val) :
    shapeCast S1x128 (T.view.readAt (Elt F) (Rect.unit (s := S100000x128) off6 S1x128.size inb6).toLoadRect X6) hsc x
      = rowsOf M X T X6 y := by
  refine (congrFun (shapeCast_self (s := S1x128) _ hsc) x).trans ?_
  rw [View.readAt_apply]
  -- the word loaded is word (y 0) of the block
  have hw : M.view.readAt (Elt F) (Rect.unit (s := S256) offw S1.size inbw).toLoadRect X (Shape.Idx.first h1)
      = M.view.read (Elt F) X (ix1 (n := 256) (y 0)) := by
    rw [View.readAt_apply]
    refine congrArg (M.view.read (Elt F) X) (funext fun b => Fin.ext ?_)
    match b with
    | ⟨0, _⟩ =>
      show offw 0 + 1 * (Shape.Idx.first h1 (0 : Fin 1)).val = (y 0).val
      have hz : (Shape.Idx.first h1 (0 : Fin 1)).val = 0 := by
        have := (Shape.Idx.first h1 (0 : Fin 1)).isLt
        have e : S1.size (0 : Fin 1) = 1 := rfl
        omega
      rw [hz, hoffw]; show (y 0).val + 1 * 0 = (y 0).val; omega
  -- the row load is inside the table: the word is below 100000
  have hlt : (M.view.read (Elt F) X (ix1 (n := 256) (y 0))).toNat < 100000 := by
    have h0 := inb6 (0 : Fin 2)
    rw [hoff6, hw] at h0
    have e : S1x128.size (0 : Fin 2) = 1 := rfl
    have e' : S100000x128.size (0 : Fin 2) = 100000 := rfl
    rw [e, e'] at h0
    exact Nat.lt_of_succ_le h0
  have hx0 : (x 0).val = 0 := by
    have := (x 0).isLt
    have e : S1x128.size (0 : Fin 2) = 1 := rfl
    omega
  unfold rowsOf
  refine congrArg (T.view.read (Elt F) X6) (funext fun a => Fin.ext ?_)
  match a with
  | ⟨0, _⟩ =>
    show off6 0 + 1 * (x 0).val = (rowOf (M.view.read (Elt F) X (ix1 (n := 256) (y 0)))).val
    rw [rowOf_val _ hlt, hoff6, hw, hx0]
    show (M.view.read (Elt F) X (ix1 (n := 256) (y 0))).toNat + 1 * 0 = _
    omega
  | ⟨1, _⟩ =>
    show off6 1 + 1 * (x 1).val = (y 1).val
    rw [hoff6, hx]
    show 0 + 1 * (x 1).val = (x 1).val
    omega

/-! ## One trip -/

/-- After trip `k`, rows `8k … 8k + 7` of the first staging buffer hold the rows the source block's words name, and
    every other row what it held before. -/
theorem trip_read_src (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (k : Fin k0_t1_loop.trips) (k0_hw1 : k0_chk1 (arg2.view.readAt (Elt F) (Rect.unit (s := S256) (k0_off1 k) S1.size (k0_off1_inb k)).toLoadRect X_arg2 (Shape.Idx.first (numel1_S1.symm ▸ Nat.one_pos)))) (k0_hw2 : k0_chk2 (arg3.view.readAt (Elt F) (Rect.unit (s := S256) (k0_off1 k) S1.size (k0_off1_inb k)).toLoadRect X_arg3 (Shape.Idx.first (numel1_S1.symm ▸ Nat.one_pos)))) (k0_hw3 : k0_chk3 (arg2.view.readAt (Elt F) (Rect.unit (s := S256) (k0_off6 k) S1.size (k0_off6_inb k)).toLoadRect X_arg2 (Shape.Idx.first (numel1_S1.symm ▸ Nat.one_pos)))) (k0_hw4 : k0_chk4 (arg3.view.readAt (Elt F) (Rect.unit (s := S256) (k0_off6 k) S1.size (k0_off6_inb k)).toLoadRect X_arg3 (Shape.Idx.first (numel1_S1.symm ▸ Nat.one_pos)))) (k0_hw5 : k0_chk5 (arg2.view.readAt (Elt F) (Rect.unit (s := S256) (k0_off11 k) S1.size (k0_off11_inb k)).toLoadRect X_arg2 (Shape.Idx.first (numel1_S1.symm ▸ Nat.one_pos)))) (k0_hw6 : k0_chk6 (arg3.view.readAt (Elt F) (Rect.unit (s := S256) (k0_off11 k) S1.size (k0_off11_inb k)).toLoadRect X_arg3 (Shape.Idx.first (numel1_S1.symm ▸ Nat.one_pos)))) (k0_hw7 : k0_chk7 (arg2.view.readAt (Elt F) (Rect.unit (s := S256) (k0_off16 k) S1.size (k0_off16_inb k)).toLoadRect X_arg2 (Shape.Idx.first (numel1_S1.symm ▸ Nat.one_pos)))) (k0_hw8 : k0_chk8 (arg3.view.readAt (Elt F) (Rect.unit (s := S256) (k0_off16 k) S1.size (k0_off16_inb k)).toLoadRect X_arg3 (Shape.Idx.first (numel1_S1.symm ▸ Nat.one_pos)))) (k0_hw9 : k0_chk9 (arg2.view.readAt (Elt F) (Rect.unit (s := S256) (k0_off21 k) S1.size (k0_off21_inb k)).toLoadRect X_arg2 (Shape.Idx.first (numel1_S1.symm ▸ Nat.one_pos)))) (k0_hw10 : k0_chk10 (arg3.view.readAt (Elt F) (Rect.unit (s := S256) (k0_off21 k) S1.size (k0_off21_inb k)).toLoadRect X_arg3 (Shape.Idx.first (numel1_S1.symm ▸ Nat.one_pos)))) (k0_hw11 : k0_chk11 (arg2.view.readAt (Elt F) (Rect.unit (s := S256) (k0_off26 k) S1.size (k0_off26_inb k)).toLoadRect X_arg2 (Shape.Idx.first (numel1_S1.symm ▸ Nat.one_pos)))) (k0_hw12 : k0_chk12 (arg3.view.readAt (Elt F) (Rect.unit (s := S256) (k0_off26 k) S1.size (k0_off26_inb k)).toLoadRect X_arg3 (Shape.Idx.first (numel1_S1.symm ▸ Nat.one_pos)))) (k0_hw13 : k0_chk13 (arg2.view.readAt (Elt F) (Rect.unit (s := S256) (k0_off31 k) S1.size (k0_off31_inb k)).toLoadRect X_arg2 (Shape.Idx.first (numel1_S1.symm ▸ Nat.one_pos)))) (k0_hw14 : k0_chk14 (arg3.view.readAt (Elt F) (Rect.unit (s := S256) (k0_off31 k) S1.size (k0_off31_inb k)).toLoadRect X_arg3 (Shape.Idx.first (numel1_S1.symm ▸ Nat.one_pos)))) (k0_hw15 : k0_chk15 (arg2.view.readAt (Elt F) (Rect.unit (s := S256) (k0_off36 k) S1.size (k0_off36_inb k)).toLoadRect X_arg2 (Shape.Idx.first (numel1_S1.symm ▸ Nat.one_pos)))) (k0_hw16 : k0_chk16 (arg3.view.readAt (Elt F) (Rect.unit (s := S256) (k0_off36 k) S1.size (k0_off36_inb k)).toLoadRect X_arg3 (Shape.Idx.first (numel1_S1.symm ▸ Nat.one_pos)))) (f_arg7 : BufTy.Contents (Elt F) arg7.view.ty) (f_arg8 : BufTy.Contents (Elt F) arg8.view.ty)
    (G : BufTy.Contents (Elt F) arg7.view.ty) (y : S256x128.Idx) :
    arg7.view.read (Elt F) (arg7.view.writes (Elt F) G ((trip_k0_t1 (F := F) 𝒱 c bd i arg2 harg2 arg3 harg3 arg4 harg4 arg5 harg5 arg6 harg6 arg7 harg7 arg8 harg8 arg9 X_arg2 X_arg3 X_arg6 k k0_hw1 k0_hw2 k0_hw3 k0_hw4 k0_hw5 k0_hw6 k0_hw7 k0_hw8 k0_hw9 k0_hw10 k0_hw11 k0_hw12 k0_hw13 k0_hw14 k0_hw15 k0_hw16).1 f_arg7 f_arg8)) y
      = if 8 * k.val ≤ (y 0).val ∧ (y 0).val < 8 * k.val + 8 then rowsOf arg2 X_arg2 arg6 X_arg6 y
        else arg7.view.read (Elt F) G y := by
  unfold trip_k0_t1
  dsimp only
  sl_unfold_run_names
  exact View.read_writes_rows8 (d := ![256, 128]) (size := ![1, 128]) (off0 := k0_off3 k) (off1 := k0_off8 k) (off2 := k0_off13 k) (off3 := k0_off18 k) (off4 := k0_off23 k) (off5 := k0_off28 k) (off6 := k0_off33 k) (off7 := k0_off38 k) arg7.view G _ _ _ _ _ _ _ _ _ _ _ _ _ _ _ _ (8 * k.val)
    (k0_off3_eq k) (k0_off8_eq k) (k0_off13_eq k) (k0_off18_eq k) (k0_off23_eq k) (k0_off28_eq k) (k0_off33_eq k) (k0_off38_eq k) rfl rfl
    (rowsOf arg2 X_arg2 arg6 X_arg6)
    (fun (y : S256x128.Idx) (x : S1x128.Idx) hy0 hy1 => staged_row arg2 X_arg2 arg6 X_arg6 _ _ _ _ _ _ y x ((k0_off1_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off6_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off11_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off16_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off21_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off26_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off31_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off36_eq k).trans (congrArg (fun n : ℕ => (![n] : Fin 1 → ℕ)) (by omega))) rfl hy1)
    y

/-- The same for the second staging buffer and the destination block. -/
theorem trip_read_dst (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (k : Fin k0_t1_loop.trips) (k0_hw1 : k0_chk1 (arg2.view.readAt (Elt F) (Rect.unit (s := S256) (k0_off1 k) S1.size (k0_off1_inb k)).toLoadRect X_arg2 (Shape.Idx.first (numel1_S1.symm ▸ Nat.one_pos)))) (k0_hw2 : k0_chk2 (arg3.view.readAt (Elt F) (Rect.unit (s := S256) (k0_off1 k) S1.size (k0_off1_inb k)).toLoadRect X_arg3 (Shape.Idx.first (numel1_S1.symm ▸ Nat.one_pos)))) (k0_hw3 : k0_chk3 (arg2.view.readAt (Elt F) (Rect.unit (s := S256) (k0_off6 k) S1.size (k0_off6_inb k)).toLoadRect X_arg2 (Shape.Idx.first (numel1_S1.symm ▸ Nat.one_pos)))) (k0_hw4 : k0_chk4 (arg3.view.readAt (Elt F) (Rect.unit (s := S256) (k0_off6 k) S1.size (k0_off6_inb k)).toLoadRect X_arg3 (Shape.Idx.first (numel1_S1.symm ▸ Nat.one_pos)))) (k0_hw5 : k0_chk5 (arg2.view.readAt (Elt F) (Rect.unit (s := S256) (k0_off11 k) S1.size (k0_off11_inb k)).toLoadRect X_arg2 (Shape.Idx.first (numel1_S1.symm ▸ Nat.one_pos)))) (k0_hw6 : k0_chk6 (arg3.view.readAt (Elt F) (Rect.unit (s := S256) (k0_off11 k) S1.size (k0_off11_inb k)).toLoadRect X_arg3 (Shape.Idx.first (numel1_S1.symm ▸ Nat.one_pos)))) (k0_hw7 : k0_chk7 (arg2.view.readAt (Elt F) (Rect.unit (s := S256) (k0_off16 k) S1.size (k0_off16_inb k)).toLoadRect X_arg2 (Shape.Idx.first (numel1_S1.symm ▸ Nat.one_pos)))) (k0_hw8 : k0_chk8 (arg3.view.readAt (Elt F) (Rect.unit (s := S256) (k0_off16 k) S1.size (k0_off16_inb k)).toLoadRect X_arg3 (Shape.Idx.first (numel1_S1.symm ▸ Nat.one_pos)))) (k0_hw9 : k0_chk9 (arg2.view.readAt (Elt F) (Rect.unit (s := S256) (k0_off21 k) S1.size (k0_off21_inb k)).toLoadRect X_arg2 (Shape.Idx.first (numel1_S1.symm ▸ Nat.one_pos)))) (k0_hw10 : k0_chk10 (arg3.view.readAt (Elt F) (Rect.unit (s := S256) (k0_off21 k) S1.size (k0_off21_inb k)).toLoadRect X_arg3 (Shape.Idx.first (numel1_S1.symm ▸ Nat.one_pos)))) (k0_hw11 : k0_chk11 (arg2.view.readAt (Elt F) (Rect.unit (s := S256) (k0_off26 k) S1.size (k0_off26_inb k)).toLoadRect X_arg2 (Shape.Idx.first (numel1_S1.symm ▸ Nat.one_pos)))) (k0_hw12 : k0_chk12 (arg3.view.readAt (Elt F) (Rect.unit (s := S256) (k0_off26 k) S1.size (k0_off26_inb k)).toLoadRect X_arg3 (Shape.Idx.first (numel1_S1.symm ▸ Nat.one_pos)))) (k0_hw13 : k0_chk13 (arg2.view.readAt (Elt F) (Rect.unit (s := S256) (k0_off31 k) S1.size (k0_off31_inb k)).toLoadRect X_arg2 (Shape.Idx.first (numel1_S1.symm ▸ Nat.one_pos)))) (k0_hw14 : k0_chk14 (arg3.view.readAt (Elt F) (Rect.unit (s := S256) (k0_off31 k) S1.size (k0_off31_inb k)).toLoadRect X_arg3 (Shape.Idx.first (numel1_S1.symm ▸ Nat.one_pos)))) (k0_hw15 : k0_chk15 (arg2.view.readAt (Elt F) (Rect.unit (s := S256) (k0_off36 k) S1.size (k0_off36_inb k)).toLoadRect X_arg2 (Shape.Idx.first (numel1_S1.symm ▸ Nat.one_pos)))) (k0_hw16 : k0_chk16 (arg3.view.readAt (Elt F) (Rect.unit (s := S256) (k0_off36 k) S1.size (k0_off36_inb k)).toLoadRect X_arg3 (Shape.Idx.first (numel1_S1.symm ▸ Nat.one_pos)))) (f_arg7 : BufTy.Contents (Elt F) arg7.view.ty) (f_arg8 : BufTy.Contents (Elt F) arg8.view.ty)
    (G : BufTy.Contents (Elt F) arg8.view.ty) (y : S256x128.Idx) :
    arg8.view.read (Elt F) (arg8.view.writes (Elt F) G ((trip_k0_t1 (F := F) 𝒱 c bd i arg2 harg2 arg3 harg3 arg4 harg4 arg5 harg5 arg6 harg6 arg7 harg7 arg8 harg8 arg9 X_arg2 X_arg3 X_arg6 k k0_hw1 k0_hw2 k0_hw3 k0_hw4 k0_hw5 k0_hw6 k0_hw7 k0_hw8 k0_hw9 k0_hw10 k0_hw11 k0_hw12 k0_hw13 k0_hw14 k0_hw15 k0_hw16).2.1 f_arg7 f_arg8)) y
      = if 8 * k.val ≤ (y 0).val ∧ (y 0).val < 8 * k.val + 8 then rowsOf arg3 X_arg3 arg6 X_arg6 y
        else arg8.view.read (Elt F) G y := by
  unfold trip_k0_t1
  dsimp only
  sl_unfold_run_names
  exact View.read_writes_rows8 (d := ![256, 128]) (size := ![1, 128]) (off0 := k0_off5 k) (off1 := k0_off10 k) (off2 := k0_off15 k) (off3 := k0_off20 k) (off4 := k0_off25 k) (off5 := k0_off30 k) (off6 := k0_off35 k) (off7 := k0_off40 k) arg8.view G _ _ _ _ _ _ _ _ _ _ _ _ _ _ _ _ (8 * k.val)
    (k0_off5_eq k) (k0_off10_eq k) (k0_off15_eq k) (k0_off20_eq k) (k0_off25_eq k) (k0_off30_eq k) (k0_off35_eq k) (k0_off40_eq k) rfl rfl
    (rowsOf arg3 X_arg3 arg6 X_arg6)
    (fun (y : S256x128.Idx) (x : S1x128.Idx) hy0 hy1 => staged_row arg3 X_arg3 arg6 X_arg6 _ _ _ _ _ _ y x ((k0_off1_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off6_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off11_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off16_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off21_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off26_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off31_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off36_eq k).trans (congrArg (fun n : ℕ => (![n] : Fin 1 → ℕ)) (by omega))) rfl hy1)
    y

/-! ## The loop -/

theorem trips_eq : k0_t1_loop.trips = 32 := by decide

/-- After the first `n` trips, the first `8n` rows of the first staging buffer are staged. -/
theorem loop_read_src (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos))))
    (n : ℕ) (hn : n ≤ 32) (y : S256x128.Idx) (hy : (y 0).val < 8 * n) :
    arg7.view.read (Elt F) (arg7.view.writes (Elt F) G_arg7 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).1) y
      = rowsOf arg2 X_arg2 arg6 X_arg6 y := by
  induction n with
  | zero => exact absurd hy (Nat.not_lt_zero _)
  | succ n ih =>
    have hk : n < k0_t1_loop.trips := by rw [trips_eq]; omega
    rw [show pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L (n + 1) = _ from pb_k0_t1_succ (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L ⟨n, hk⟩]
    dsimp only
    rw [View.writes_append, trip_read_src]
    split
    · rfl
    · next hout =>
      exact ih (by omega) (by
        have : ¬ (8 * n ≤ (y 0).val ∧ (y 0).val < 8 * n + 8) := hout
        omega)

/-- After the first `n` trips, the first `8n` rows of the second staging buffer are staged. -/
theorem loop_read_dst (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos))))
    (n : ℕ) (hn : n ≤ 32) (y : S256x128.Idx) (hy : (y 0).val < 8 * n) :
    arg8.view.read (Elt F) (arg8.view.writes (Elt F) G_arg8 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).2) y
      = rowsOf arg3 X_arg3 arg6 X_arg6 y := by
  induction n with
  | zero => exact absurd hy (Nat.not_lt_zero _)
  | succ n ih =>
    have hk : n < k0_t1_loop.trips := by rw [trips_eq]; omega
    rw [show pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L (n + 1) = _ from pb_k0_t1_succ (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L ⟨n, hk⟩]
    dsimp only
    rw [View.writes_append, trip_read_dst]
    split
    · rfl
    · next hout =>
      exact ih (by omega) (by
        have : ¬ (8 * n ≤ (y 0).val ∧ (y 0).val < 8 * n + 8) := hout
        omega)

/-- AFTER THE LOOP the first staging buffer is `rowsOf` of the source block, whatever it held before; -/
theorem rows_src (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos)))) (n : ℕ) (hn : n = 32) :
    arg7.view.read (Elt F) (arg7.view.writes (Elt F) G_arg7 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).1)
      = rowsOf arg2 X_arg2 arg6 X_arg6 :=
  funext fun y => by
    subst hn
    exact loop_read_src 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L 32 (Nat.le_refl _) y (by
      have := (y 0).isLt
      have e : S256x128.size (0 : Fin 2) = 256 := rfl
      omega)

/-- and the second is `rowsOf` of the destination block. -/
theorem rows_dst (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos)))) (n : ℕ) (hn : n = 32) :
    arg8.view.read (Elt F) (arg8.view.writes (Elt F) G_arg8 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).2)
      = rowsOf arg3 X_arg3 arg6 X_arg6 :=
  funext fun y => by
    subst hn
    exact loop_read_dst 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L 32 (Nat.le_refl _) y (by
      have := (y 0).isLt
      have e : S256x128.size (0 : Fin 2) = 256 := rfl
      omega)

end Cert.Kernel.Rows

end
-- ==== Proof.KRows.lean ====
/-
  The staging loop of the kernel body, read back.

  One grid point of the kernel handles 256 edges. Its loop of 32 trips copies, for the eight edges `8k … 8k + 7` of trip
  `k`, the table row named by the edge's source word into row `8k + u` of one [256, 128] staging buffer, and the row
  named by its destination word into the same row of a second one. Each store is through the rectangle of one whole row,
  so after the 32 trips row `r` of the first buffer is the table row that word `r` of the source block names, and the
  same for the second buffer and the destination block — whatever the buffers held before (`rows_src`, `rows_dst`).
  A word names its row when it is below 100000, which is what the body's assumed side condition on each loaded word says.
-/
import proofs.«419394_j13511967113601_3_alg».proof.Proof.Gen.KernelIdeal.Loops
import proofs.«419394_j13511967113601_3_alg».proof.Proof.Spec
import proofs.«419394_j13511967113601_3_alg».proof.Proof.LibRowStores
import Idealize.ShloMosaic.Lib.Pipeline.Value
import Idealize.ShloMosaic.Lib.ValueIdx

set_option maxRecDepth 16384
set_option maxHeartbeats 4000000

noncomputable section

namespace Cert.KernelIdeal.Rows

open Cert.KernelIdeal Cert.KernelIdeal.Gen Cert.EdgeScore
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the staging buffer of an index block holds after the loop, as a function of the buffer index: at
    `(r, q)` the table (the contents `X6` of the resident copy) at the row that word `r` of the block (the contents
    `X` of the block's memref `M`) names, column `q`. -/
def rowsOf (M : Memref sig .tc .smem S256 .i32) (X : BufTy.Contents (Elt F) M.view.ty)
    (T : Memref sig .tc .vmem S100000x128 .f32) (X6 : BufTy.Contents (Elt F) T.view.ty) : S256x128.Idx → Elt F .f32 :=
  fun y => T.view.read (Elt F) X6 (ix2 (n0 := 100000) (n1 := 128) (rowOf (M.view.read (Elt F) X (ix1 (n := 256) (y 0)))) (y 1))

/-- One staged row. The body loads word `r` of a block (through the one-word rectangle at offset `r`), loads the
    table row at that word's value, and stores it unchanged (a shape cast to the same shape): at position `x` of the
    stored row this is `rowsOf` at `(r, x₁)`. The row load being inside the table says the word is below 100000. -/
theorem staged_row (M : Memref sig .tc .smem S256 .i32) (X : BufTy.Contents (Elt F) M.view.ty)
    (T : Memref sig .tc .vmem S100000x128 .f32) (X6 : BufTy.Contents (Elt F) T.view.ty)
    (offw : Fin 1 → ℕ) (inbw : ∀ a, offw a + S1.size a ≤ S256.size a) (h1 : 0 < S1.numel)
    (off6 : Fin 2 → ℕ) (inb6 : ∀ a, off6 a + S1x128.size a ≤ S100000x128.size a) (hsc : S1x128.ShapeCasts S1x128)
    (y : S256x128.Idx) (x : S1x128.Idx)
    (hoffw : offw = ![(y 0).val])
    (hoff6 : off6 = ![(M.view.readAt (Elt F) (Rect.unit (s := S256) offw S1.size inbw).toLoadRect X (Shape.Idx.first h1)).toNat, 0])
    (hx : (y 1).val = (x 1).val) :
    shapeCast S1x128 (T.view.readAt (Elt F) (Rect.unit (s := S100000x128) off6 S1x128.size inb6).toLoadRect X6) hsc x
      = rowsOf M X T X6 y := by
  refine (congrFun (shapeCast_self (s := S1x128) _ hsc) x).trans ?_
  rw [View.readAt_apply]
  -- the word loaded is word (y 0) of the block
  have hw : M.view.readAt (Elt F) (Rect.unit (s := S256) offw S1.size inbw).toLoadRect X (Shape.Idx.first h1)
      = M.view.read (Elt F) X (ix1 (n := 256) (y 0)) := by
    rw [View.readAt_apply]
    refine congrArg (M.view.read (Elt F) X) (funext fun b => Fin.ext ?_)
    match b with
    | ⟨0, _⟩ =>
      show offw 0 + 1 * (Shape.Idx.first h1 (0 : Fin 1)).val = (y 0).val
      have hz : (Shape.Idx.first h1 (0 : Fin 1)).val = 0 := by
        have := (Shape.Idx.first h1 (0 : Fin 1)).isLt
        have e : S1.size (0 : Fin 1) = 1 := rfl
        omega
      rw [hz, hoffw]; show (y 0).val + 1 * 0 = (y 0).val; omega
  -- the row load is inside the table: the word is below 100000
  have hlt : (M.view.read (Elt F) X (ix1 (n := 256) (y 0))).toNat < 100000 := by
    have h0 := inb6 (0 : Fin 2)
    rw [hoff6, hw] at h0
    have e : S1x128.size (0 : Fin 2) = 1 := rfl
    have e' : S100000x128.size (0 : Fin 2) = 100000 := rfl
    rw [e, e'] at h0
    exact Nat.lt_of_succ_le h0
  have hx0 : (x 0).val = 0 := by
    have := (x 0).isLt
    have e : S1x128.size (0 : Fin 2) = 1 := rfl
    omega
  unfold rowsOf
  refine congrArg (T.view.read (Elt F) X6) (funext fun a => Fin.ext ?_)
  match a with
  | ⟨0, _⟩ =>
    show off6 0 + 1 * (x 0).val = (rowOf (M.view.read (Elt F) X (ix1 (n := 256) (y 0)))).val
    rw [rowOf_val _ hlt, hoff6, hw, hx0]
    show (M.view.read (Elt F) X (ix1 (n := 256) (y 0))).toNat + 1 * 0 = _
    omega
  | ⟨1, _⟩ =>
    show off6 1 + 1 * (x 1).val = (y 1).val
    rw [hoff6, hx]
    show 0 + 1 * (x 1).val = (x 1).val
    omega

/-! ## One trip -/

/-- After trip `k`, rows `8k … 8k + 7` of the first staging buffer hold the rows the source block's words name, and
    every other row what it held before. -/
theorem trip_read_src (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (k : Fin k0_t1_loop.trips) (k0_hw1 : k0_chk1 (arg2.view.readAt (Elt F) (Rect.unit (s := S256) (k0_off1 k) S1.size (k0_off1_inb k)).toLoadRect X_arg2 (Shape.Idx.first (numel1_S1.symm ▸ Nat.one_pos)))) (k0_hw2 : k0_chk2 (arg3.view.readAt (Elt F) (Rect.unit (s := S256) (k0_off1 k) S1.size (k0_off1_inb k)).toLoadRect X_arg3 (Shape.Idx.first (numel1_S1.symm ▸ Nat.one_pos)))) (k0_hw3 : k0_chk3 (arg2.view.readAt (Elt F) (Rect.unit (s := S256) (k0_off6 k) S1.size (k0_off6_inb k)).toLoadRect X_arg2 (Shape.Idx.first (numel1_S1.symm ▸ Nat.one_pos)))) (k0_hw4 : k0_chk4 (arg3.view.readAt (Elt F) (Rect.unit (s := S256) (k0_off6 k) S1.size (k0_off6_inb k)).toLoadRect X_arg3 (Shape.Idx.first (numel1_S1.symm ▸ Nat.one_pos)))) (k0_hw5 : k0_chk5 (arg2.view.readAt (Elt F) (Rect.unit (s := S256) (k0_off11 k) S1.size (k0_off11_inb k)).toLoadRect X_arg2 (Shape.Idx.first (numel1_S1.symm ▸ Nat.one_pos)))) (k0_hw6 : k0_chk6 (arg3.view.readAt (Elt F) (Rect.unit (s := S256) (k0_off11 k) S1.size (k0_off11_inb k)).toLoadRect X_arg3 (Shape.Idx.first (numel1_S1.symm ▸ Nat.one_pos)))) (k0_hw7 : k0_chk7 (arg2.view.readAt (Elt F) (Rect.unit (s := S256) (k0_off16 k) S1.size (k0_off16_inb k)).toLoadRect X_arg2 (Shape.Idx.first (numel1_S1.symm ▸ Nat.one_pos)))) (k0_hw8 : k0_chk8 (arg3.view.readAt (Elt F) (Rect.unit (s := S256) (k0_off16 k) S1.size (k0_off16_inb k)).toLoadRect X_arg3 (Shape.Idx.first (numel1_S1.symm ▸ Nat.one_pos)))) (k0_hw9 : k0_chk9 (arg2.view.readAt (Elt F) (Rect.unit (s := S256) (k0_off21 k) S1.size (k0_off21_inb k)).toLoadRect X_arg2 (Shape.Idx.first (numel1_S1.symm ▸ Nat.one_pos)))) (k0_hw10 : k0_chk10 (arg3.view.readAt (Elt F) (Rect.unit (s := S256) (k0_off21 k) S1.size (k0_off21_inb k)).toLoadRect X_arg3 (Shape.Idx.first (numel1_S1.symm ▸ Nat.one_pos)))) (k0_hw11 : k0_chk11 (arg2.view.readAt (Elt F) (Rect.unit (s := S256) (k0_off26 k) S1.size (k0_off26_inb k)).toLoadRect X_arg2 (Shape.Idx.first (numel1_S1.symm ▸ Nat.one_pos)))) (k0_hw12 : k0_chk12 (arg3.view.readAt (Elt F) (Rect.unit (s := S256) (k0_off26 k) S1.size (k0_off26_inb k)).toLoadRect X_arg3 (Shape.Idx.first (numel1_S1.symm ▸ Nat.one_pos)))) (k0_hw13 : k0_chk13 (arg2.view.readAt (Elt F) (Rect.unit (s := S256) (k0_off31 k) S1.size (k0_off31_inb k)).toLoadRect X_arg2 (Shape.Idx.first (numel1_S1.symm ▸ Nat.one_pos)))) (k0_hw14 : k0_chk14 (arg3.view.readAt (Elt F) (Rect.unit (s := S256) (k0_off31 k) S1.size (k0_off31_inb k)).toLoadRect X_arg3 (Shape.Idx.first (numel1_S1.symm ▸ Nat.one_pos)))) (k0_hw15 : k0_chk15 (arg2.view.readAt (Elt F) (Rect.unit (s := S256) (k0_off36 k) S1.size (k0_off36_inb k)).toLoadRect X_arg2 (Shape.Idx.first (numel1_S1.symm ▸ Nat.one_pos)))) (k0_hw16 : k0_chk16 (arg3.view.readAt (Elt F) (Rect.unit (s := S256) (k0_off36 k) S1.size (k0_off36_inb k)).toLoadRect X_arg3 (Shape.Idx.first (numel1_S1.symm ▸ Nat.one_pos)))) (f_arg7 : BufTy.Contents (Elt F) arg7.view.ty) (f_arg8 : BufTy.Contents (Elt F) arg8.view.ty)
    (G : BufTy.Contents (Elt F) arg7.view.ty) (y : S256x128.Idx) :
    arg7.view.read (Elt F) (arg7.view.writes (Elt F) G ((trip_k0_t1 (F := F) 𝒱 c bd i arg2 harg2 arg3 harg3 arg4 harg4 arg5 harg5 arg6 harg6 arg7 harg7 arg8 harg8 arg9 X_arg2 X_arg3 X_arg6 k k0_hw1 k0_hw2 k0_hw3 k0_hw4 k0_hw5 k0_hw6 k0_hw7 k0_hw8 k0_hw9 k0_hw10 k0_hw11 k0_hw12 k0_hw13 k0_hw14 k0_hw15 k0_hw16).1 f_arg7 f_arg8)) y
      = if 8 * k.val ≤ (y 0).val ∧ (y 0).val < 8 * k.val + 8 then rowsOf arg2 X_arg2 arg6 X_arg6 y
        else arg7.view.read (Elt F) G y := by
  unfold trip_k0_t1
  dsimp only
  sl_unfold_run_names
  exact View.read_writes_rows8 (d := ![256, 128]) (size := ![1, 128]) (off0 := k0_off3 k) (off1 := k0_off8 k) (off2 := k0_off13 k) (off3 := k0_off18 k) (off4 := k0_off23 k) (off5 := k0_off28 k) (off6 := k0_off33 k) (off7 := k0_off38 k) arg7.view G _ _ _ _ _ _ _ _ _ _ _ _ _ _ _ _ (8 * k.val)
    (k0_off3_eq k) (k0_off8_eq k) (k0_off13_eq k) (k0_off18_eq k) (k0_off23_eq k) (k0_off28_eq k) (k0_off33_eq k) (k0_off38_eq k) rfl rfl
    (rowsOf arg2 X_arg2 arg6 X_arg6)
    (fun (y : S256x128.Idx) (x : S1x128.Idx) hy0 hy1 => staged_row arg2 X_arg2 arg6 X_arg6 _ _ _ _ _ _ y x ((k0_off1_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off6_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off11_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off16_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off21_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off26_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off31_eq k).trans (congrArg (fun n : ℕ => (![n] : Fin 1 → ℕ)) (by omega))) rfl hy1)
    (fun (y : S256x128.Idx) (x : S1x128.Idx) hy0 hy1 => staged_row arg2 X_arg2 arg6 X_arg6 _ _ _ _ _ _ y x ((k0_off36_eq k).trans (congrArg (fun n : ℕ => (![n] : Fin 1 → ℕ)) (by omega))) rfl hy1)
    y

/-- The same for the second staging buffer and the destination block. -/
theorem trip_read_dst (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (k : Fin k0_t1_loop.trips) (k0_hw1 : k0_chk1 (arg2.view.readAt (Elt F) (Rect.unit (s := S256) (k0_off1 k) S1.size (k0_off1_inb k)).toLoadRect X_arg2 (Shape.Idx.first (numel1_S1.symm ▸ Nat.one_pos)))) (k0_hw2 : k0_chk2 (arg3.view.readAt (Elt F) (Rect.unit (s := S256) (k0_off1 k) S1.size (k0_off1_inb k)).toLoadRect X_arg3 (Shape.Idx.first (numel1_S1.symm ▸ Nat.one_pos)))) (k0_hw3 : k0_chk3 (arg2.view.readAt (Elt F) (Rect.unit (s := S256) (k0_off6 k) S1.size (k0_off6_inb k)).toLoadRect X_arg2 (Shape.Idx.first (numel1_S1.symm ▸ Nat.one_pos)))) (k0_hw4 : k0_chk4 (arg3.view.readAt (Elt F) (Rect.unit (s := S256) (k0_off6 k) S1.size (k0_off6_inb k)).toLoadRect X_arg3 (Shape.Idx.first (numel1_S1.symm ▸ Nat.one_pos)))) (k0_hw5 : k0_chk5 (arg2.view.readAt (Elt F) (Rect.unit (s := S256) (k0_off11 k) S1.size (k0_off11_inb k)).toLoadRect X_arg2 (Shape.Idx.first (numel1_S1.symm ▸ Nat.one_pos)))) (k0_hw6 : k0_chk6 (arg3.view.readAt (Elt F) (Rect.unit (s := S256) (k0_off11 k) S1.size (k0_off11_inb k)).toLoadRect X_arg3 (Shape.Idx.first (numel1_S1.symm ▸ Nat.one_pos)))) (k0_hw7 : k0_chk7 (arg2.view.readAt (Elt F) (Rect.unit (s := S256) (k0_off16 k) S1.size (k0_off16_inb k)).toLoadRect X_arg2 (Shape.Idx.first (numel1_S1.symm ▸ Nat.one_pos)))) (k0_hw8 : k0_chk8 (arg3.view.readAt (Elt F) (Rect.unit (s := S256) (k0_off16 k) S1.size (k0_off16_inb k)).toLoadRect X_arg3 (Shape.Idx.first (numel1_S1.symm ▸ Nat.one_pos)))) (k0_hw9 : k0_chk9 (arg2.view.readAt (Elt F) (Rect.unit (s := S256) (k0_off21 k) S1.size (k0_off21_inb k)).toLoadRect X_arg2 (Shape.Idx.first (numel1_S1.symm ▸ Nat.one_pos)))) (k0_hw10 : k0_chk10 (arg3.view.readAt (Elt F) (Rect.unit (s := S256) (k0_off21 k) S1.size (k0_off21_inb k)).toLoadRect X_arg3 (Shape.Idx.first (numel1_S1.symm ▸ Nat.one_pos)))) (k0_hw11 : k0_chk11 (arg2.view.readAt (Elt F) (Rect.unit (s := S256) (k0_off26 k) S1.size (k0_off26_inb k)).toLoadRect X_arg2 (Shape.Idx.first (numel1_S1.symm ▸ Nat.one_pos)))) (k0_hw12 : k0_chk12 (arg3.view.readAt (Elt F) (Rect.unit (s := S256) (k0_off26 k) S1.size (k0_off26_inb k)).toLoadRect X_arg3 (Shape.Idx.first (numel1_S1.symm ▸ Nat.one_pos)))) (k0_hw13 : k0_chk13 (arg2.view.readAt (Elt F) (Rect.unit (s := S256) (k0_off31 k) S1.size (k0_off31_inb k)).toLoadRect X_arg2 (Shape.Idx.first (numel1_S1.symm ▸ Nat.one_pos)))) (k0_hw14 : k0_chk14 (arg3.view.readAt (Elt F) (Rect.unit (s := S256) (k0_off31 k) S1.size (k0_off31_inb k)).toLoadRect X_arg3 (Shape.Idx.first (numel1_S1.symm ▸ Nat.one_pos)))) (k0_hw15 : k0_chk15 (arg2.view.readAt (Elt F) (Rect.unit (s := S256) (k0_off36 k) S1.size (k0_off36_inb k)).toLoadRect X_arg2 (Shape.Idx.first (numel1_S1.symm ▸ Nat.one_pos)))) (k0_hw16 : k0_chk16 (arg3.view.readAt (Elt F) (Rect.unit (s := S256) (k0_off36 k) S1.size (k0_off36_inb k)).toLoadRect X_arg3 (Shape.Idx.first (numel1_S1.symm ▸ Nat.one_pos)))) (f_arg7 : BufTy.Contents (Elt F) arg7.view.ty) (f_arg8 : BufTy.Contents (Elt F) arg8.view.ty)
    (G : BufTy.Contents (Elt F) arg8.view.ty) (y : S256x128.Idx) :
    arg8.view.read (Elt F) (arg8.view.writes (Elt F) G ((trip_k0_t1 (F := F) 𝒱 c bd i arg2 harg2 arg3 harg3 arg4 harg4 arg5 harg5 arg6 harg6 arg7 harg7 arg8 harg8 arg9 X_arg2 X_arg3 X_arg6 k k0_hw1 k0_hw2 k0_hw3 k0_hw4 k0_hw5 k0_hw6 k0_hw7 k0_hw8 k0_hw9 k0_hw10 k0_hw11 k0_hw12 k0_hw13 k0_hw14 k0_hw15 k0_hw16).2.1 f_arg7 f_arg8)) y
      = if 8 * k.val ≤ (y 0).val ∧ (y 0).val < 8 * k.val + 8 then rowsOf arg3 X_arg3 arg6 X_arg6 y
        else arg8.view.read (Elt F) G y := by
  unfold trip_k0_t1
  dsimp only
  sl_unfold_run_names
  exact View.read_writes_rows8 (d := ![256, 128]) (size := ![1, 128]) (off0 := k0_off5 k) (off1 := k0_off10 k) (off2 := k0_off15 k) (off3 := k0_off20 k) (off4 := k0_off25 k) (off5 := k0_off30 k) (off6 := k0_off35 k) (off7 := k0_off40 k) arg8.view G _ _ _ _ _ _ _ _ _ _ _ _ _ _ _ _ (8 * k.val)
    (k0_off5_eq k) (k0_off10_eq k) (k0_off15_eq k) (k0_off20_eq k) (k0_off25_eq k) (k0_off30_eq k) (k0_off35_eq k) (k0_off40_eq k) rfl rfl
    (rowsOf arg3 X_arg3 arg6 X_arg6)
    (fun (y : S256x128.Idx) (x : S1x128.Idx) hy0 hy1 => staged_row arg3 X_arg3 arg6 X_arg6 _ _ _ _ _ _ y x ((k0_off1_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off6_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off11_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off16_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off21_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off26_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off31_eq k).trans (congrArg (fun n : ℕ => (![n] : Fin 1 → ℕ)) (by omega))) rfl hy1)
    (fun (y : S256x128.Idx) (x : S1x128.Idx) hy0 hy1 => staged_row arg3 X_arg3 arg6 X_arg6 _ _ _ _ _ _ y x ((k0_off36_eq k).trans (congrArg (fun n : ℕ => (![n] : Fin 1 → ℕ)) (by omega))) rfl hy1)
    y

/-! ## The loop -/

theorem trips_eq : k0_t1_loop.trips = 32 := by decide

/-- After the first `n` trips, the first `8n` rows of the first staging buffer are staged. -/
theorem loop_read_src (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos))))
    (n : ℕ) (hn : n ≤ 32) (y : S256x128.Idx) (hy : (y 0).val < 8 * n) :
    arg7.view.read (Elt F) (arg7.view.writes (Elt F) G_arg7 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).1) y
      = rowsOf arg2 X_arg2 arg6 X_arg6 y := by
  induction n with
  | zero => exact absurd hy (Nat.not_lt_zero _)
  | succ n ih =>
    have hk : n < k0_t1_loop.trips := by rw [trips_eq]; omega
    rw [show pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L (n + 1) = _ from pb_k0_t1_succ (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L ⟨n, hk⟩]
    dsimp only
    rw [View.writes_append, trip_read_src]
    split
    · rfl
    · next hout =>
      exact ih (by omega) (by
        have : ¬ (8 * n ≤ (y 0).val ∧ (y 0).val < 8 * n + 8) := hout
        omega)

/-- After the first `n` trips, the first `8n` rows of the second staging buffer are staged. -/
theorem loop_read_dst (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos))))
    (n : ℕ) (hn : n ≤ 32) (y : S256x128.Idx) (hy : (y 0).val < 8 * n) :
    arg8.view.read (Elt F) (arg8.view.writes (Elt F) G_arg8 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).2) y
      = rowsOf arg3 X_arg3 arg6 X_arg6 y := by
  induction n with
  | zero => exact absurd hy (Nat.not_lt_zero _)
  | succ n ih =>
    have hk : n < k0_t1_loop.trips := by rw [trips_eq]; omega
    rw [show pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L (n + 1) = _ from pb_k0_t1_succ (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L ⟨n, hk⟩]
    dsimp only
    rw [View.writes_append, trip_read_dst]
    split
    · rfl
    · next hout =>
      exact ih (by omega) (by
        have : ¬ (8 * n ≤ (y 0).val ∧ (y 0).val < 8 * n + 8) := hout
        omega)

/-- AFTER THE LOOP the first staging buffer is `rowsOf` of the source block, whatever it held before; -/
theorem rows_src (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos)))) (n : ℕ) (hn : n = 32) :
    arg7.view.read (Elt F) (arg7.view.writes (Elt F) G_arg7 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).1)
      = rowsOf arg2 X_arg2 arg6 X_arg6 :=
  funext fun y => by
    subst hn
    exact loop_read_src 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L 32 (Nat.le_refl _) y (by
      have := (y 0).isLt
      have e : S256x128.size (0 : Fin 2) = 256 := rfl
      omega)

/-- and the second is `rowsOf` of the destination block. -/
theorem rows_dst (𝒱 : Variants) (c : Dev nD) (bd : Option 𝒱.V) (i : grid0.Coords) (arg2 : Memref sig .tc .smem S256 .i32) (harg2 : arg2.IsWhole) (arg3 : Memref sig .tc .smem S256 .i32) (harg3 : arg3.IsWhole) (arg4 : Memref sig .tc .hbm S100000x128 .f32) (harg4 : arg4.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (arg9 : DmaSems sig S_) (X_arg2 : BufTy.Contents (Elt F) arg2.view.ty) (X_arg3 : BufTy.Contents (Elt F) arg3.view.ty) (X_arg6 : BufTy.Contents (Elt F) arg6.view.ty) (G_arg7 : BufTy.Contents (Elt F) arg7.view.ty) (G_arg8 : BufTy.Contents (Elt F) arg8.view.ty) (k0_hw1L : ∀ (kq : ℕ) (hkq : kq < k0_t1_loop.trips), k0_chk1 (arg2.view.readAt (Elt F) (Rect.unit (s := S256) (k0_off1 ⟨kq, hkq⟩) S1.size (k0_off1_inb ⟨kq, hkq⟩)).toLoadRect X_arg2 (Shape.Idx.first (numel1_S1.symm ▸ Nat.one_pos)))) (k0_hw2L : ∀ (kq : ℕ) (hkq : kq < k0_t1_loop.trips), k0_chk2 (arg3.view.readAt (Elt F) (Rect.unit (s := S256) (k0_off1 ⟨kq, hkq⟩) S1.size (k0_off1_inb ⟨kq, hkq⟩)).toLoadRect X_arg3 (Shape.Idx.first (numel1_S1.symm ▸ Nat.one_pos)))) (k0_hw3L : ∀ (kq : ℕ) (hkq : kq < k0_t1_loop.trips), k0_chk3 (arg2.view.readAt (Elt F) (Rect.unit (s := S256) (k0_off6 ⟨kq, hkq⟩) S1.size (k0_off6_inb ⟨kq, hkq⟩)).toLoadRect X_arg2 (Shape.Idx.first (numel1_S1.symm ▸ Nat.one_pos)))) (k0_hw4L : ∀ (kq : ℕ) (hkq : kq < k0_t1_loop.trips), k0_chk4 (arg3.view.readAt (Elt F) (Rect.unit (s := S256) (k0_off6 ⟨kq, hkq⟩) S1.size (k0_off6_inb ⟨kq, hkq⟩)).toLoadRect X_arg3 (Shape.Idx.first (numel1_S1.symm ▸ Nat.one_pos)))) (k0_hw5L : ∀ (kq : ℕ) (hkq : kq < k0_t1_loop.trips), k0_chk5 (arg2.view.readAt (Elt F) (Rect.unit (s := S256) (k0_off11 ⟨kq, hkq⟩) S1.size (k0_off11_inb ⟨kq, hkq⟩)).toLoadRect X_arg2 (Shape.Idx.first (numel1_S1.symm ▸ Nat.one_pos)))) (k0_hw6L : ∀ (kq : ℕ) (hkq : kq < k0_t1_loop.trips), k0_chk6 (arg3.view.readAt (Elt F) (Rect.unit (s := S256) (k0_off11 ⟨kq, hkq⟩) S1.size (k0_off11_inb ⟨kq, hkq⟩)).toLoadRect X_arg3 (Shape.Idx.first (numel1_S1.symm ▸ Nat.one_pos)))) (k0_hw7L : ∀ (kq : ℕ) (hkq : kq < k0_t1_loop.trips), k0_chk7 (arg2.view.readAt (Elt F) (Rect.unit (s := S256) (k0_off16 ⟨kq, hkq⟩) S1.size (k0_off16_inb ⟨kq, hkq⟩)).toLoadRect X_arg2 (Shape.Idx.first (numel1_S1.symm ▸ Nat.one_pos)))) (k0_hw8L : ∀ (kq : ℕ) (hkq : kq < k0_t1_loop.trips), k0_chk8 (arg3.view.readAt (Elt F) (Rect.unit (s := S256) (k0_off16 ⟨kq, hkq⟩) S1.size (k0_off16_inb ⟨kq, hkq⟩)).toLoadRect X_arg3 (Shape.Idx.first (numel1_S1.symm ▸ Nat.one_pos)))) (k0_hw9L : ∀ (kq : ℕ) (hkq : kq < k0_t1_loop.trips), k0_chk9 (arg2.view.readAt (Elt F) (Rect.unit (s := S256) (k0_off21 ⟨kq, hkq⟩) S1.size (k0_off21_inb ⟨kq, hkq⟩)).toLoadRect X_arg2 (Shape.Idx.first (numel1_S1.symm ▸ Nat.one_pos)))) (k0_hw10L : ∀ (kq : ℕ) (hkq : kq < k0_t1_loop.trips), k0_chk10 (arg3.view.readAt (Elt F) (Rect.unit (s := S256) (k0_off21 ⟨kq, hkq⟩) S1.size (k0_off21_inb ⟨kq, hkq⟩)).toLoadRect X_arg3 (Shape.Idx.first (numel1_S1.symm ▸ Nat.one_pos)))) (k0_hw11L : ∀ (kq : ℕ) (hkq : kq < k0_t1_loop.trips), k0_chk11 (arg2.view.readAt (Elt F) (Rect.unit (s := S256) (k0_off26 ⟨kq, hkq⟩) S1.size (k0_off26_inb ⟨kq, hkq⟩)).toLoadRect X_arg2 (Shape.Idx.first (numel1_S1.symm ▸ Nat.one_pos)))) (k0_hw12L : ∀ (kq : ℕ) (hkq : kq < k0_t1_loop.trips), k0_chk12 (arg3.view.readAt (Elt F) (Rect.unit (s := S256) (k0_off26 ⟨kq, hkq⟩) S1.size (k0_off26_inb ⟨kq, hkq⟩)).toLoadRect X_arg3 (Shape.Idx.first (numel1_S1.symm ▸ Nat.one_pos)))) (k0_hw13L : ∀ (kq : ℕ) (hkq : kq < k0_t1_loop.trips), k0_chk13 (arg2.view.readAt (Elt F) (Rect.unit (s := S256) (k0_off31 ⟨kq, hkq⟩) S1.size (k0_off31_inb ⟨kq, hkq⟩)).toLoadRect X_arg2 (Shape.Idx.first (numel1_S1.symm ▸ Nat.one_pos)))) (k0_hw14L : ∀ (kq : ℕ) (hkq : kq < k0_t1_loop.trips), k0_chk14 (arg3.view.readAt (Elt F) (Rect.unit (s := S256) (k0_off31 ⟨kq, hkq⟩) S1.size (k0_off31_inb ⟨kq, hkq⟩)).toLoadRect X_arg3 (Shape.Idx.first (numel1_S1.symm ▸ Nat.one_pos)))) (k0_hw15L : ∀ (kq : ℕ) (hkq : kq < k0_t1_loop.trips), k0_chk15 (arg2.view.readAt (Elt F) (Rect.unit (s := S256) (k0_off36 ⟨kq, hkq⟩) S1.size (k0_off36_inb ⟨kq, hkq⟩)).toLoadRect X_arg2 (Shape.Idx.first (numel1_S1.symm ▸ Nat.one_pos)))) (k0_hw16L : ∀ (kq : ℕ) (hkq : kq < k0_t1_loop.trips), k0_chk16 (arg3.view.readAt (Elt F) (Rect.unit (s := S256) (k0_off36 ⟨kq, hkq⟩) S1.size (k0_off36_inb ⟨kq, hkq⟩)).toLoadRect X_arg3 (Shape.Idx.first (numel1_S1.symm ▸ Nat.one_pos)))) (n : ℕ) (hn : n = 32) :
    arg8.view.read (Elt F) (arg8.view.writes (Elt F) G_arg8 (pb_k0_t1 (F := F) 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L n).2)
      = rowsOf arg3 X_arg3 arg6 X_arg6 :=
  funext fun y => by
    subst hn
    exact loop_read_dst 𝒱 c bd i arg2 harg2 arg3 harg3 arg4 harg4 arg5 harg5 arg6 harg6 arg7 harg7 arg8 harg8 arg9 X_arg2 X_arg3 X_arg6 G_arg7 G_arg8 k0_hw1L k0_hw2L k0_hw3L k0_hw4L k0_hw5L k0_hw6L k0_hw7L k0_hw8L k0_hw9L k0_hw10L k0_hw11L k0_hw12L k0_hw13L k0_hw14L k0_hw15L k0_hw16L 32 (Nat.le_refl _) y (by
      have := (y 0).isLt
      have e : S256x128.size (0 : Fin 2) = 256 := rfl
      omega)

end Cert.KernelIdeal.Rows

end
-- ==== Proof.PreRange.lean ====
/-
  The two index vectors are in range.

  The precondition is a conjunction of three `all`s: every table entry is finite, every source word `w` tests
  `0 ≤ w` and `w < 100000` as a signed integer, and likewise every destination word. Each `all` is a reduction
  by `and` from 1 of an array of one-bit words; that the conjunction is 1 says each reduction is 1, hence every
  element of each array is 1. For the two integer arrays the element at `i` is the `and` of the two comparisons of
  word `i` with the constants 0 and 100000, so both comparisons hold, and a word that is nonnegative and below
  100000 read signed is below 100000 read unsigned.
-/
import proofs.«419394_j13511967113601_3_alg».proof.Pre_finite_inputs
import proofs.«419394_j13511967113601_3_alg».proof.Proof.Gen.Pre_finite_inputs
import proofs.«419394_j13511967113601_3_alg».proof.Proof.Spec
import Idealize.ShloMosaic.Lib.ReduceAll
import Idealize.ShloMosaic.Lib.Affine
import Idealize.ShloMosaic.Lib.ValueIdx

noncomputable section

namespace Cert.PreRange

open Idealize.ShloMosaic

/-- The scalar shape has one index. -/
instance subsingleton_scalar_idx : Subsingleton Cert.Pre_finite_inputs.S_.Idx :=
  ⟨fun a b => funext fun d => d.elim0⟩

/-- An element of a range-test array that is 1: the word it tests is below 100000 read unsigned. The array's
    element at `i` is the `and` of `0 ≤ w` and `w < 100000` (both signed) for the word `w` at `i`. -/
theorem lt_of_test (w : BitVec 32)
    (t : IntOp.andi (IntOp.cmpi .sge w 0#32) (IntOp.cmpi .slt w 100000#32) = 1#1) : w.toNat < 100000 :=
  Cert.EdgeScore.toNat_lt_of_range w (IntOp.andi_eq_one.1 t).1 (IntOp.andi_eq_one.1 t).2

/-- THE RANGE OF THE INDEX WORDS: under the precondition every source word and every destination word is below
    100000 read unsigned. -/
theorem range_of_pre {F : FTy → Type} [FloatOps F] [Cert.Pre_finite_inputs.Facts]
    (h : FVec F Cert.Pre_finite_inputs.S100000x128 .f32) (src dst : IVec Cert.Pre_finite_inputs.S1600000 32)
    (e : Cert.Pre_finite_inputs.fn (F := F) h src dst = fun _ => 1#1) :
    (∀ i, (src i).toNat < 100000) ∧ (∀ i, (dst i).toNat < 100000) := by
  have e0 := congrFun e ValueIdx.ix0
  dsimp only [Cert.Pre_finite_inputs.fn, Cert.Pre_finite_inputs.fn_part1] at e0
  -- the conjunction splits: (finite ∧ source test) ∧ destination test
  obtain ⟨e10, e16⟩ := IntOp.andi_eq_one.1 e0
  obtain ⟨_, e9⟩ := IntOp.andi_eq_one.1 e10
  refine ⟨fun i => ?_, fun i => ?_⟩
  · exact lt_of_test (src i) (Host.reduce_andi_all _ _ _ _ _ e9 i)
  · exact lt_of_test (dst i) (Host.reduce_andi_all _ _ _ _ _ e16 i)

end Cert.PreRange

end
-- ==== Proof.KernelHyps.lean ====
/-
  The side conditions the kernel body assumes, from the range of the index words.

  At every grid point and every trip of its loop the body loads sixteen words, eight from the block of source words
  and eight from the block of destination words its two scalar-memory windows hold, and for each word `w` assumes
  that the [1, 128] row at offsets (w, 0) lies inside the [100000, 128] table: `w + 1 ≤ 100000` on the row axis and
  `0 + 128 ≤ 128` on the column axis, that is `w < 100000` read unsigned.

  Which word of a block a load reads does not matter. A load through a whole memref that holds the block `X` reads
  `X` at the rectangle's index, so the word is an entry of `X`; a window's block is read off its argument array
  through the block's view, so an entry of the block is an entry of the array; and under the precondition every entry
  of both index arrays is below 100000.
-/
import proofs.«419394_j13511967113601_3_alg».proof.Defs
import proofs.«419394_j13511967113601_3_alg».proof.Proof.Gen.Kernel.Frame.Runs
import proofs.«419394_j13511967113601_3_alg».proof.Proof.PreRange
import proofs.«419394_j13511967113601_3_alg».proof.Proof.Spec

set_option maxRecDepth 16384

noncomputable section

namespace Cert.Kernel.HypsOfPre

open Cert.Kernel Cert.Kernel.Gen
open Idealize.ShloMosaic Idealize.ShloMosaic.TcCoe

variable {F : FTy → Type} [FloatOps F]

/-! ## The assumed fact is the range of the word -/

/-- A word below 100000 names a row of the table: the [1, 128] row at offsets `(w, 0)` is inside `[100000, 128]`. -/
theorem row_inside (w : BitVec 32) (hw : w.toNat < 100000) :
    ∀ a, (![(Scalar.indexCast w).toNat, 0] : Fin 2 → Nat) a + S1x128.size a ≤ S100000x128.size a := by
  intro a
  match a with
  | ⟨0, _⟩ => exact Nat.succ_le_of_lt hw
  | ⟨1, _⟩ => exact Nat.le_refl 128

/-! ## A loaded word is an entry of the block, a block entry is an entry of the array -/

/-- A load through a whole memref that holds the block `X`, at any rectangle `r` and index `x` of it, reads the
    entry of `X` at the rectangle's index. -/
theorem load_eq {ms : Memref sig .tc .smem S256 .i32} (hw : ms.IsWhole) (X : S256.Idx → Elt F .i32)
    (r : LoadRect S256) (x : r.shape.Idx) :
    ms.view.readAt (Elt F) r (hw.unread X) x = X (r.idx x) :=
  congrFun (hw.read_unread X) (r.idx x)

/-- So a bound on every entry of the block bounds the loaded word. -/
theorem load_lt {ms : Memref sig .tc .smem S256 .i32} (hw : ms.IsWhole) (X : S256.Idx → Elt F .i32)
    (hX : ∀ y, (X y).toNat < 100000) (r : LoadRect S256) (x : r.shape.Idx) :
    (ms.view.readAt (Elt F) r (hw.unread X) x).toNat < 100000 :=
  (load_eq hw X r x).symm ▸ hX (r.idx x)

variable (m : (ℓ : Loc nD τ sig) → Buf (Elt F) ℓ)

/-- Every entry of the source block at a point is an entry of the source array. -/
theorem src_block_lt (c : Dev nD) (hs : ∀ i, (m ((c.tc : Thread nD τ).loc main_arg1) i).toNat < 100000)
    (t : Fin cfg0.N) (y : S256.Idx) : (iblk m c 0 t y).toNat < 100000 := by
  unfold iblk
  rw [View.read_apply, cast_eq]
  exact hs _

/-- Every entry of the destination block at a point is an entry of the destination array. -/
theorem dst_block_lt (c : Dev nD) (hd : ∀ i, (m ((c.tc : Thread nD τ).loc main_arg2) i).toNat < 100000)
    (t : Fin cfg0.N) (y : S256.Idx) : (iblk m c 1 t y).toNat < 100000 := by
  unfold iblk
  rw [View.read_apply, cast_eq]
  exact hd _

/-- A word loaded from the source window's memref at a point, at any rectangle, is below 100000. -/
theorem src_word_lt (c : Dev nD) (hs : ∀ i, (m ((c.tc : Thread nD τ).loc main_arg1) i).toNat < 100000)
    (t : Fin cfg0.N) (r : LoadRect S256) (x : r.shape.Idx) :
    ((ms0_0 t).view.readAt (Elt F) r ((hs0_0 t).unread (iblk m c 0 t)) x).toNat < 100000 :=
  load_lt (hs0_0 t) (iblk m c 0 t) (src_block_lt m c hs t) r x

/-- A word loaded from the destination window's memref at a point, at any rectangle, is below 100000. -/
theorem dst_word_lt (c : Dev nD) (hd : ∀ i, (m ((c.tc : Thread nD τ).loc main_arg2) i).toNat < 100000)
    (t : Fin cfg0.N) (r : LoadRect S256) (x : r.shape.Idx) :
    ((ms0_1 t).view.readAt (Elt F) r ((hs0_1 t).unread (iblk m c 1 t)) x).toNat < 100000 :=
  load_lt (hs0_1 t) (iblk m c 1 t) (dst_block_lt m c hd t) r x

/-! ## The sixteen conjuncts -/

/-- THE SIDE CONDITIONS FROM THE RANGE: if every source word and every destination word is below 100000, each of the
    sixteen loaded words names a row inside the table. The even conjuncts read the source block, the odd ones the
    destination block. -/
theorem hyps_of_range
    (hs : ∀ (c : Dev nD) i, (m ((c.tc : Thread nD τ).loc main_arg1) i).toNat < 100000)
    (hd : ∀ (c : Dev nD) i, (m ((c.tc : Thread nD τ).loc main_arg2) i).toNat < 100000) : Hyps m :=
  Hyps.of
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))

/-! ## From the precondition -/

/-- The precondition read at the program's argument arrays: on every device both index arrays are in range. -/
theorem range_of_pre [hPre_finite_inputs : Cert.Pre_finite_inputs.Facts]
    (m : (ℓ : Loc nD τ sig) → Buf (Elt Bits) ℓ) (h : Cert.Pre_Kernel m) :
    (∀ (c : Dev nD) i, (m ((c.tc : Thread nD τ).loc main_arg1) i).toNat < 100000)
      ∧ (∀ (c : Dev nD) i, (m ((c.tc : Thread nD τ).loc main_arg2) i).toNat < 100000) :=
  ⟨fun c => (Cert.PreRange.range_of_pre (F := Bits) _ _ _ (h c)).1,
   fun c => (Cert.PreRange.range_of_pre (F := Bits) _ _ _ (h c)).2⟩

/-- THE FRAME'S HYPOTHESIS FROM THE PRECONDITION. -/
theorem hyps_of_pre [hPre_finite_inputs : Cert.Pre_finite_inputs.Facts]
    (m : (ℓ : Loc nD τ sig) → Buf (Elt Bits) ℓ) (h : Cert.Pre_Kernel m) : Hyps m :=
  hyps_of_range m (range_of_pre m h).1 (range_of_pre m h).2

end Cert.Kernel.HypsOfPre

end
-- ==== Proof.KernelIdealHyps.lean ====
/-
  The side conditions the kernel body assumes, from the range of the index words.

  At every grid point and every trip of its loop the body loads sixteen words, eight from the block of source words
  and eight from the block of destination words its two scalar-memory windows hold, and for each word `w` assumes
  that the [1, 128] row at offsets (w, 0) lies inside the [100000, 128] table: `w + 1 ≤ 100000` on the row axis and
  `0 + 128 ≤ 128` on the column axis, that is `w < 100000` read unsigned.

  Which word of a block a load reads does not matter. A load through a whole memref that holds the block `X` reads
  `X` at the rectangle's index, so the word is an entry of `X`; a window's block is read off its argument array
  through the block's view, so an entry of the block is an entry of the array; and under the precondition every entry
  of both index arrays is below 100000.
-/
import proofs.«419394_j13511967113601_3_alg».proof.Defs
import proofs.«419394_j13511967113601_3_alg».proof.Proof.Gen.KernelIdeal.Frame.Runs
import proofs.«419394_j13511967113601_3_alg».proof.Proof.PreRange
import proofs.«419394_j13511967113601_3_alg».proof.Proof.Spec

set_option maxRecDepth 16384

noncomputable section

namespace Cert.KernelIdeal.HypsOfPre

open Cert.KernelIdeal Cert.KernelIdeal.Gen
open Idealize.ShloMosaic Idealize.ShloMosaic.TcCoe

variable {F : FTy → Type} [FloatOps F]

/-! ## The assumed fact is the range of the word -/

/-- A word below 100000 names a row of the table: the [1, 128] row at offsets `(w, 0)` is inside `[100000, 128]`. -/
theorem row_inside (w : BitVec 32) (hw : w.toNat < 100000) :
    ∀ a, (![(Scalar.indexCast w).toNat, 0] : Fin 2 → Nat) a + S1x128.size a ≤ S100000x128.size a := by
  intro a
  match a with
  | ⟨0, _⟩ => exact Nat.succ_le_of_lt hw
  | ⟨1, _⟩ => exact Nat.le_refl 128

/-! ## A loaded word is an entry of the block, a block entry is an entry of the array -/

/-- A load through a whole memref that holds the block `X`, at any rectangle `r` and index `x` of it, reads the
    entry of `X` at the rectangle's index. -/
theorem load_eq {ms : Memref sig .tc .smem S256 .i32} (hw : ms.IsWhole) (X : S256.Idx → Elt F .i32)
    (r : LoadRect S256) (x : r.shape.Idx) :
    ms.view.readAt (Elt F) r (hw.unread X) x = X (r.idx x) :=
  congrFun (hw.read_unread X) (r.idx x)

/-- So a bound on every entry of the block bounds the loaded word. -/
theorem load_lt {ms : Memref sig .tc .smem S256 .i32} (hw : ms.IsWhole) (X : S256.Idx → Elt F .i32)
    (hX : ∀ y, (X y).toNat < 100000) (r : LoadRect S256) (x : r.shape.Idx) :
    (ms.view.readAt (Elt F) r (hw.unread X) x).toNat < 100000 :=
  (load_eq hw X r x).symm ▸ hX (r.idx x)

variable (m : (ℓ : Loc nD τ sig) → Buf (Elt F) ℓ)

/-- Every entry of the source block at a point is an entry of the source array. -/
theorem src_block_lt (c : Dev nD) (hs : ∀ i, (m ((c.tc : Thread nD τ).loc main_arg1) i).toNat < 100000)
    (t : Fin cfg0.N) (y : S256.Idx) : (iblk m c 0 t y).toNat < 100000 := by
  unfold iblk
  rw [View.read_apply, cast_eq]
  exact hs _

/-- Every entry of the destination block at a point is an entry of the destination array. -/
theorem dst_block_lt (c : Dev nD) (hd : ∀ i, (m ((c.tc : Thread nD τ).loc main_arg2) i).toNat < 100000)
    (t : Fin cfg0.N) (y : S256.Idx) : (iblk m c 1 t y).toNat < 100000 := by
  unfold iblk
  rw [View.read_apply, cast_eq]
  exact hd _

/-- A word loaded from the source window's memref at a point, at any rectangle, is below 100000. -/
theorem src_word_lt (c : Dev nD) (hs : ∀ i, (m ((c.tc : Thread nD τ).loc main_arg1) i).toNat < 100000)
    (t : Fin cfg0.N) (r : LoadRect S256) (x : r.shape.Idx) :
    ((ms0_0 t).view.readAt (Elt F) r ((hs0_0 t).unread (iblk m c 0 t)) x).toNat < 100000 :=
  load_lt (hs0_0 t) (iblk m c 0 t) (src_block_lt m c hs t) r x

/-- A word loaded from the destination window's memref at a point, at any rectangle, is below 100000. -/
theorem dst_word_lt (c : Dev nD) (hd : ∀ i, (m ((c.tc : Thread nD τ).loc main_arg2) i).toNat < 100000)
    (t : Fin cfg0.N) (r : LoadRect S256) (x : r.shape.Idx) :
    ((ms0_1 t).view.readAt (Elt F) r ((hs0_1 t).unread (iblk m c 1 t)) x).toNat < 100000 :=
  load_lt (hs0_1 t) (iblk m c 1 t) (dst_block_lt m c hd t) r x

/-! ## The sixteen conjuncts -/

/-- THE SIDE CONDITIONS FROM THE RANGE: if every source word and every destination word is below 100000, each of the
    sixteen loaded words names a row inside the table. The even conjuncts read the source block, the odd ones the
    destination block. -/
theorem hyps_of_range
    (hs : ∀ (c : Dev nD) i, (m ((c.tc : Thread nD τ).loc main_arg1) i).toNat < 100000)
    (hd : ∀ (c : Dev nD) i, (m ((c.tc : Thread nD τ).loc main_arg2) i).toNat < 100000) : Hyps m :=
  Hyps.of
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))
    (fun c t _ _ => row_inside _ (src_word_lt m c (hs c) t _ _))
    (fun c t _ _ => row_inside _ (dst_word_lt m c (hd c) t _ _))

/-! ## From the precondition -/

/-- The precondition read at the program's argument arrays: on every device both index arrays are in range. -/
theorem range_of_pre [hPre_finite_inputs : Cert.Pre_finite_inputs.Facts]
    (m : (ℓ : Loc nD τ sig) → Buf (Elt Ideal) ℓ) (h : Cert.Pre_KernelIdeal m) :
    (∀ (c : Dev nD) i, (m ((c.tc : Thread nD τ).loc main_arg1) i).toNat < 100000)
      ∧ (∀ (c : Dev nD) i, (m ((c.tc : Thread nD τ).loc main_arg2) i).toNat < 100000) :=
  ⟨fun c => (Cert.PreRange.range_of_pre (F := Ideal) _ _ _ (h c)).1,
   fun c => (Cert.PreRange.range_of_pre (F := Ideal) _ _ _ (h c)).2⟩

/-- THE FRAME'S HYPOTHESIS FROM THE PRECONDITION. -/
theorem hyps_of_pre [hPre_finite_inputs : Cert.Pre_finite_inputs.Facts]
    (m : (ℓ : Loc nD τ sig) → Buf (Elt Ideal) ℓ) (h : Cert.Pre_KernelIdeal m) : Hyps m :=
  hyps_of_range m (range_of_pre m h).1 (range_of_pre m h).2

end Cert.KernelIdeal.HypsOfPre

end
-- ==== Proof.LibRowGather.lean ====
/-
  A row gather read at an index.

  `table[idx]` for a matrix `table : [N, D]` and an integer vector `idx : [E]` is the gather with offset axis 1,
  collapsed operand axis 0, start-index map [0], slices of one whole row, over the indices as `[E, 1]`
  (index-vector axis 1). Its element `(e, k)` is `table` at row `idx[e, 0]` — read as a signed integer and clamped
  into `[0, N − 1]`, as every start index of a gather is — and column `k`. The statement is for any extents `N D E`
  and any word width of the indices; a program's own dimension-number record is an instance (its fields are these
  lists), so the lemma is used by `exact` / `rw` after naming the record.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a row gather out of `[N, D]` by `[E, 1]` start indices into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 ⟨min (idx (ix2 e ⟨0, Nat.one_pos⟩)).toInt.toNat (N - 1), by omega⟩ k) := by
  unfold Host.gather
  congr 1
  funext a
  refine Fin.ext ?_
  show (rowDims N D E wf).start (ix2 e k) idx a + (rowDims N D E wf).batchCoord (ix2 e k) a
      + (rowDims N D E wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N D E wf).startIndexMap from List.mem_singleton.mpr rfl)]
    have hsi : (rowDims N D E wf).siIdx (ix2 e k) ⟨List.idxOf (⟨0, by decide⟩ : Fin 2) (rowDims N D E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    have hs : (rowDims N D E wf).start (ix2 e k) idx ⟨1, Nat.one_lt_two⟩ = 0 := by
      unfold GatherDims.start
      exact dif_neg (fun h => absurd (show (1 : Nat) = 0 from congrArg Fin.val (List.mem_singleton.mp h)) Nat.one_ne_zero)
    rw [hs, Nat.zero_add]
    rfl

end Idealize.ShloMosaic.RowGather

end
-- ==== Proof.RefValue.lean ====
/-
  The reference's value.

  The reference takes rows `src[e]` and `dst[e]` of the table `h : [100000, 128]`, multiplies them entry by entry
  and sums each row of products from the initial value zero, keeping the summed axis as a column: its result at
  `(e, 0)` is `0 + ∑ k < 128, h[src e, k] · h[dst e, k]` in the extended reals.

  On the way to a row each index word `w` passes two maps: the wrap of a negative index, `w < 0 ? w + 100000 : w`,
  taken over the whole vector before the gather, and the clamp of a gather's start index into `[0, 99999]`. A word
  below 100000 is not negative and is already inside the clamp's interval, so both maps leave it, and the gathered row
  is the row the word names. Hence, on index vectors whose words are all below 100000, the result is the array of
  edge scores, index by index: the column broadcast reads position `e`; the sum over axis 1 at `e` is the sum over `k`
  of the product array at `(e, k)`; the product there is the product of the two gathered entries; and each gathered
  entry at `(e, k)` is the table at the named row and column `k`.
-/
import proofs.«419394_j13511967113601_3_alg».proof.Proof.Gen.ReferenceIdeal.Run
import proofs.«419394_j13511967113601_3_alg».proof.Proof.Gen.ReferenceIdeal.Read
import proofs.«419394_j13511967113601_3_alg».proof.Proof.Spec
import proofs.«419394_j13511967113601_3_alg».proof.Proof.LibRowGather
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.ReferenceIdeal.RefValue

open Idealize.ShloMosaic Idealize.ShloMosaic.ValueIdx Cert.ReferenceIdeal Cert.EdgeScore

/-- An index vector `[1600000]` laid as a column `[1600000, 1]` reads, at `(e, q)`, the vector at `e`. -/
theorem column_apply {α : Type} (hb : S1600000.BroadcastsInDim S1600000x1 (![0] : Fin 1 → Fin S1600000x1.rank))
    (x : S1600000.Idx → α) (e : Fin 1600000) (q : Fin 1) :
    broadcastInDim S1600000x1 ![0] hb x (ix2 e q) = x (ix1 e) := by
  unfold broadcastInDim
  refine congrArg x (funext fun a => Fin.ext ?_)
  match a with
  | ⟨0, _⟩ => rfl

/-- The index of `[1600000, 128]` over `e` with `k` inserted on the summed axis is `(e, k)`. -/
theorem lift_row (hR : S1600000x128.Reduces [1] S1600000) (e : Fin 1600000) (k : Fin 128) :
    hR.lift (ix1 e) k = ix2 e k := by
  funext a
  match a with
  | ⟨0, _⟩ => rfl
  | ⟨1, _⟩ => rfl

/-- The wrap of a negative index, `w < 0 ? w + 100000 : w` over the whole vector, read at one position. -/
theorem wrap_apply (hb : S_.BroadcastsInDim S1600000 (![] : Fin 0 → Fin S1600000.rank)) (w : IVec S1600000 32) (j : S1600000.Idx) :
    select (cmpi .slt w (broadcastInDim S1600000 ![] hb (constantI S_ 32 0#32)))
        (addi w (broadcastInDim S1600000 ![] hb (constantI S_ 32 100000#32))) w j
      = Scalar.select (IntOp.cmpi .slt (w j) 0#32) (IntOp.addi (w j) 100000#32) (w j) := rfl

/-- The sum over axis 1 from the initial value zero, at `e`: the sum of row `e`. -/
theorem row_sum (h' : S1600000x128.ReducesTo [1] S1600000) (hu : 0 < S_.numel) (x : FVec Ideal S1600000x128 .f32) (e : Fin 1600000) :
    Host.reduceAdd x (constant (F := Ideal) S_ .f32 0x00000000#32) h' hu (ix1 e) = ∑ k : Fin 128, x (ix2 e k) := by
  have hR : S1600000x128.Reduces [1] S1600000 := by decide
  rw [hostReduceAdd_apply, Ideal.hostReduceAdd_single h' hR, constant_apply, Ideal.ofBits_zero_f32, zero_add]
  exact Finset.sum_congr rfl fun k _ => congrArg x (lift_row hR e k)

/-- Row `e` of the table gathered at the wrapped words of an in-range index vector `w` is the row `w e` names: the
    wrap and the clamp of the start index both leave a word below 100000. -/
theorem gathered_row [Facts] (h : FVec Ideal S100000x128 .f32) (w : IVec S1600000 32) (hw : ∀ i, (w i).toNat < 100000)
    (e : Fin 1600000) (k : Fin 128) :
    Host.gather gather_S100000x128_S1600000x1_S1600000x128_1_0_n_n_0_1_1128 h
        (broadcastInDim S1600000x1 ![0] Facts₀.bcast_S1600000_S1600000x1_0
          (select (cmpi .slt w (broadcastInDim S1600000 ![] Facts₀.bcast_S_S1600000 (constantI S_ 32 0#32)))
            (addi w (broadcastInDim S1600000 ![] Facts₀.bcast_S_S1600000 (constantI S_ 32 100000#32))) w)) (ix2 e k)
      = h (ix2 (rowOf (w (ix1 e))) k) := by
  refine (RowGather.gather_rows_apply (N := 100000) (D := 128) (E := 1600000) (by omega)
    Facts₀.gather_S100000x128_S1600000x1_S1600000x128_1_0_n_n_0_1_1128_wf h _ e k).trans ?_
  refine congrArg h (congrArg (fun r : Fin 100000 => ix2 r k) (Fin.ext ?_))
  show min _ (100000 - 1) = (rowOf (w (ix1 e))).val
  rw [column_apply, wrap_apply, wrap_of_lt _ (hw _), clamp_of_lt _ (hw _), rowOf_val _ (hw _)]

/-- THE REFERENCE'S VALUE: on index vectors in range, the reference's result is the array of edge scores. -/
theorem result_eq [Facts] (h : FVec Ideal S100000x128 .f32) (src dst : IVec S1600000 32)
    (hs : ∀ i, (src i).toNat < 100000) (hd : ∀ i, (dst i).toNat < 100000) :
    broadcastInDim S1600000x1 ![0] Facts₀.bcast_S1600000_S1600000x1_0
      (Host.reduceAdd
        (mulf
          (Host.gather gather_S100000x128_S1600000x1_S1600000x128_1_0_n_n_0_1_1128 h
            (broadcastInDim S1600000x1 ![0] Facts₀.bcast_S1600000_S1600000x1_0
              (select (cmpi .slt src (broadcastInDim S1600000 ![] Facts₀.bcast_S_S1600000 (constantI S_ 32 0#32)))
                (addi src (broadcastInDim S1600000 ![] Facts₀.bcast_S_S1600000 (constantI S_ 32 100000#32))) src)))
          (Host.gather gather_S100000x128_S1600000x1_S1600000x128_1_0_n_n_0_1_1128 h
            (broadcastInDim S1600000x1 ![0] Facts₀.bcast_S1600000_S1600000x1_0
              (select (cmpi .slt dst (broadcastInDim S1600000 ![] Facts₀.bcast_S_S1600000 (constantI S_ 32 0#32)))
                (addi dst (broadcastInDim S1600000 ![] Facts₀.bcast_S_S1600000 (constantI S_ 32 100000#32))) dst))))
        (constant (F := Ideal) S_ .f32 0x00000000#32) Facts₀.reducesTo_S1600000x128_S1600000_d1 Facts₀.h_S_)
    = scores h src dst := by
  funext i
  obtain ⟨e, q, rfl⟩ : ∃ e q, i = ix2 e q := ⟨i 0, i 1, eq_ix2 i⟩
  rw [column_apply, row_sum]
  show _ = score h src dst e
  unfold score
  exact Finset.sum_congr rfl fun k _ => by rw [mulf_apply, gathered_row h src hs, gathered_row h dst hd]

end Cert.ReferenceIdeal.RefValue

end
-- ==== Proof.KPay.lean ====
/-
  The body's arithmetic at one grid point, read at the exact extended reals.

  After the staging loop the body multiplies the two [256, 128] staging buffers element by element and sums each row
  over its 128 lanes: entry `j` of the [256] result is the inner product of row `j` of the first buffer with row `j`
  of the second, `∑ q < 128, a[j, q] · b[j, q]` — a lane sum is a plain finite sum at the exact instance.
-/
import proofs.«419394_j13511967113601_3_alg».proof.Proof.Gen.KernelIdeal.Skeleton
import Idealize.ShloMosaic.PureOps.Ideal.Laws
import Idealize.ShloMosaic.Lib.ValueIdx

noncomputable section

open scoped BigOperators

namespace Cert.KernelIdeal.Pay

open Cert.KernelIdeal Cert.KernelIdeal.Gen
open Idealize.ShloMosaic Idealize.ShloMosaic.ValueIdx

/-- The row-wise inner product the body stores, at entry `j`. -/
theorem pay4_apply (a b : Vec Ideal S256x128 .f32) (j : S256.Idx) :
    k0_pay4 (F := Ideal) a b j = ∑ q : Fin 128, a (ix2 (n0 := 256) (n1 := 128) (j 0) q) * b (ix2 (n0 := 256) (n1 := 128) (j 0) q) := by
  unfold k0_pay4
  refine (Ideal.multiReduction_add_single (mulf (F := Ideal) a b) 0x00000000#32 reduces_S256x128_S256 (.inl rfl) rfl j).trans ?_
  refine Finset.sum_congr rfl fun q _ => ?_
  have hi : reduces_S256x128_S256.lift j q = ix2 (n0 := 256) (n1 := 128) (j 0) q := by
    funext d; refine Fin.ext ?_
    match d with
    | ⟨0, _⟩ => rfl
    | ⟨1, _⟩ => rfl
  rw [hi]
  rfl

end Cert.KernelIdeal.Pay

end
-- ==== Proof.KBlock.lean ====
/-
  One grid point's result, as a function of its two index blocks and the table.

  At a grid point the kernel holds a block of 256 source words, a block of 256 destination words and the whole node
  table; entry `j` of the [256] block it writes back is the inner product of the two table rows that words `j` of the
  two blocks name (`blockScore`).
-/
import proofs.«419394_j13511967113601_3_alg».proof.Proof.Spec
import Idealize.ShloMosaic.PureOps.Ideal
import Idealize.ShloMosaic.Lib.ValueIdx

noncomputable section

open scoped BigOperators

namespace Cert.EdgeScore

open Idealize.ShloMosaic Idealize.ShloMosaic.ValueIdx

/-- The shape of an index block and of the block of scores a grid point writes back. -/
abbrev Blk : Shape := ⟨1, ![256]⟩

/-- The scores of one block of 256 edges: entry `j` is the inner product of table rows `rowOf (s j)` and `rowOf (d j)`. -/
def blockScore (s d : Blk.Idx → BitVec 32) (h : Tbl.Idx → EReal) : Blk.Idx → EReal :=
  fun j => ∑ q : Fin 128, h (ix2 (rowOf (s (ix1 (j 0)))) q) * h (ix2 (rowOf (d (ix1 (j 0)))) q)

end Cert.EdgeScore

end
-- ==== Proof.KBlockPay.lean ====
/-
  The body's stored value as a block of scores.

  With the index blocks `s d` and the table `h` as the contents of whole memrefs, the staged rows are
  `h[rowOf (s r), ·]` and `h[rowOf (d r), ·]` (`rowsOf_unread`), so the row-wise inner product the body stores is
  the block of scores `blockScore s d h` (`pay_rows`): both are `∑ q < 128, h[rowOf (s j), q] · h[rowOf (d j), q]`.
-/
import proofs.«419394_j13511967113601_3_alg».proof.Proof.KRows
import proofs.«419394_j13511967113601_3_alg».proof.Proof.KPay
import proofs.«419394_j13511967113601_3_alg».proof.Proof.KBlock

noncomputable section

open scoped BigOperators

namespace Cert.KernelIdeal.Rows

open Cert.KernelIdeal Cert.KernelIdeal.Gen Cert.EdgeScore
open Idealize.ShloMosaic Idealize.ShloMosaic.ValueIdx

variable {F : FTy → Type} [FloatOps F]

/-- The staged rows when the block's memref and the table's memref hold `x` and `h` whole. -/
theorem rowsOf_read (M : Memref sig .tc .smem S256 .i32) (hM : M.IsWhole) (x : Vec F S256 .i32)
    (T : Memref sig .tc .vmem S100000x128 .f32) (X6 : BufTy.Contents (Elt F) T.view.ty) (h : Vec F S100000x128 .f32)
    (hT : T.view.read (Elt F) X6 = h) (y : S256x128.Idx) :
    rowsOf M (hM.unread x) T X6 y = h (ix2 (n0 := 100000) (n1 := 128) (rowOf (x (ix1 (n := 256) (y 0)))) (y 1)) := by
  unfold rowsOf
  rw [hM.read_unread, hT]

/-- The value the body stores, at the exact extended reals: the block of scores. -/
theorem pay_rows (M : Memref sig .tc .smem S256 .i32) (hM : M.IsWhole) (M' : Memref sig .tc .smem S256 .i32) (hM' : M'.IsWhole)
    (x0 x1 : Vec Ideal S256 .i32) (T : Memref sig .tc .vmem S100000x128 .f32) (X6 : BufTy.Contents (Elt Ideal) T.view.ty)
    (h : Vec Ideal S100000x128 .f32) (hT : T.view.read (Elt Ideal) X6 = h) :
    k0_pay4 (F := Ideal) (rowsOf M (hM.unread x0) T X6) (rowsOf M' (hM'.unread x1) T X6) = blockScore x0 x1 h := by
  funext j
  rw [Cert.KernelIdeal.Pay.pay4_apply]
  unfold blockScore
  refine Finset.sum_congr rfl fun q _ => ?_
  rw [rowsOf_read M hM x0 T X6 h hT, rowsOf_read M' hM' x1 T X6 h hT]

end Cert.KernelIdeal.Rows

end
-- ==== Proof.KPoint.lean ====
/-
  What one grid point leaves, and what every grid point leaves.

  At the points where the per-core step index is 0 (points 0 and 3125) the body first copies the whole node table `h`
  into its resident scratch copy; at every other point the copy holds what the point before left. In both cases the
  body then stages the 256 + 256 rows named by the point's two index blocks and stores their row-wise inner products:
  the output block is `blockScore s d T` for the point's blocks `s d` and the table `T` the resident copy holds
  (`out_first`, `out_later`), and the resident copy ends as `h` at a copying point (`copy_first`) and unchanged
  otherwise. By induction on the point the resident copy is `h` after every point and the output block of point `t`
  is `blockScore` of `t`'s blocks and `h` (`outs_eq`).
-/
import proofs.«419394_j13511967113601_3_alg».proof.Proof.KernelIdealFrame
import proofs.«419394_j13511967113601_3_alg».proof.Proof.KBlockPay
import Idealize.ShloMosaic.Lib.Pipeline.Value
import Idealize.ShloMosaic.Lib.Exec.Geometry

set_option maxRecDepth 16384
set_option maxHeartbeats 4000000

noncomputable section

namespace Cert.KernelIdeal.Point

open Cert.KernelIdeal Cert.KernelIdeal.Gen Cert.KernelIdeal.GenP Cert.KernelIdeal.Rows Cert.EdgeScore
open Idealize.ShloMosaic Idealize.ShloMosaic.TcCoe Idealize.ShloMosaic.ValueIdx
open Idealize.SL Idealize.SL.Sem

theorem hz1 : (![0] : Fin 1 → ℕ) = fun _ => 0 := funext fun a => by fin_cases a; rfl

section AnyInstance

variable {F : FTy → Type} [FloatOps F]

/-- The resident copy right after the body's own whole-table copy: the table `fh0` written over anything. -/
abbrev copied (c : Dev nD) (arg6 : Memref sig .tc .vmem S100000x128 .f32) (fh0 : HbBuf0 (F := F) c hbM0_0) :
    BufTy.Contents (Elt F) arg6.view.ty :=
  arg6.view.writes (Elt F) arg6.view.junk
    [⟨Rect.whole S100000x128, ReadAs.same.apply (View.read (Elt F) (View.whole main_arg0) fh0)⟩]

/-- Read back, it is the table. -/
theorem copied_read (c : Dev nD) (arg6 : Memref sig .tc .vmem S100000x128 .f32) (fh0 : HbBuf0 (F := F) c hbM0_0) :
    arg6.view.read (Elt F) (copied c arg6 fh0) = fh0 :=
  View.read_writes_whole arg6.view _ _

/-- A point that does not copy: the one store into the output block holds the row-wise inner products of the rows
    staged from the resident copy `xs0`. -/
theorem out_later_pay (c : Dev nD) (i : grid0.Coords) (arg2 : Memref sig .tc .smem S256 .i32) (harg2 : arg2.IsWhole) (arg3 : Memref sig .tc .smem S256 .i32) (harg3 : arg3.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (hc0 : ¬cond0_0 i) (x0 : Vec F S256 .i32) (x1 : Vec F S256 .i32) (xs0 : Vec F S100000x128 .f32) (fh0 : HbBuf0 (F := F) c hbM0_0) (k0_hw1L : (∀ (kq : ℕ) (hkq : kq < k0_t1_loop.trips), k0_chk1 (arg2.view.readAt (Elt F) (Rect.unit (s := S256) (k0_off1 ⟨kq, hkq⟩) S1.size (k0_off1_inb ⟨kq, hkq⟩)).toLoadRect (harg2.unread x0) (Shape.Idx.first (numel1_S1.symm ▸ Nat.one_pos))))) (k0_hw2L : (∀ (kq : ℕ) (hkq : kq < k0_t1_loop.trips), k0_chk2 (arg3.view.readAt (Elt F) (Rect.unit (s := S256) (k0_off1 ⟨kq, hkq⟩) S1.size (k0_off1_inb ⟨kq, hkq⟩)).toLoadRect (harg3.unread x1) (Shape.Idx.first (numel1_S1.symm ▸ Nat.one_pos))))) (k0_hw3L : (∀ (kq : ℕ) (hkq : kq < k0_t1_loop.trips), k0_chk3 (arg2.view.readAt (Elt F) (Rect.unit (s := S256) (k0_off6 ⟨kq, hkq⟩) S1.size (k0_off6_inb ⟨kq, hkq⟩)).toLoadRect (harg2.unread x0) (Shape.Idx.first (numel1_S1.symm ▸ Nat.one_pos))))) (k0_hw4L : (∀ (kq : ℕ) (hkq : kq < k0_t1_loop.trips), k0_chk4 (arg3.view.readAt (Elt F) (Rect.unit (s := S256) (k0_off6 ⟨kq, hkq⟩) S1.size (k0_off6_inb ⟨kq, hkq⟩)).toLoadRect (harg3.unread x1) (Shape.Idx.first (numel1_S1.symm ▸ Nat.one_pos))))) (k0_hw5L : (∀ (kq : ℕ) (hkq : kq < k0_t1_loop.trips), k0_chk5 (arg2.view.readAt (Elt F) (Rect.unit (s := S256) (k0_off11 ⟨kq, hkq⟩) S1.size (k0_off11_inb ⟨kq, hkq⟩)).toLoadRect (harg2.unread x0) (Shape.Idx.first (numel1_S1.symm ▸ Nat.one_pos))))) (k0_hw6L : (∀ (kq : ℕ) (hkq : kq < k0_t1_loop.trips), k0_chk6 (arg3.view.readAt (Elt F) (Rect.unit (s := S256) (k0_off11 ⟨kq, hkq⟩) S1.size (k0_off11_inb ⟨kq, hkq⟩)).toLoadRect (harg3.unread x1) (Shape.Idx.first (numel1_S1.symm ▸ Nat.one_pos))))) (k0_hw7L : (∀ (kq : ℕ) (hkq : kq < k0_t1_loop.trips), k0_chk7 (arg2.view.readAt (Elt F) (Rect.unit (s := S256) (k0_off16 ⟨kq, hkq⟩) S1.size (k0_off16_inb ⟨kq, hkq⟩)).toLoadRect (harg2.unread x0) (Shape.Idx.first (numel1_S1.symm ▸ Nat.one_pos))))) (k0_hw8L : (∀ (kq : ℕ) (hkq : kq < k0_t1_loop.trips), k0_chk8 (arg3.view.readAt (Elt F) (Rect.unit (s := S256) (k0_off16 ⟨kq, hkq⟩) S1.size (k0_off16_inb ⟨kq, hkq⟩)).toLoadRect (harg3.unread x1) (Shape.Idx.first (numel1_S1.symm ▸ Nat.one_pos))))) (k0_hw9L : (∀ (kq : ℕ) (hkq : kq < k0_t1_loop.trips), k0_chk9 (arg2.view.readAt (Elt F) (Rect.unit (s := S256) (k0_off21 ⟨kq, hkq⟩) S1.size (k0_off21_inb ⟨kq, hkq⟩)).toLoadRect (harg2.unread x0) (Shape.Idx.first (numel1_S1.symm ▸ Nat.one_pos))))) (k0_hw10L : (∀ (kq : ℕ) (hkq : kq < k0_t1_loop.trips), k0_chk10 (arg3.view.readAt (Elt F) (Rect.unit (s := S256) (k0_off21 ⟨kq, hkq⟩) S1.size (k0_off21_inb ⟨kq, hkq⟩)).toLoadRect (harg3.unread x1) (Shape.Idx.first (numel1_S1.symm ▸ Nat.one_pos))))) (k0_hw11L : (∀ (kq : ℕ) (hkq : kq < k0_t1_loop.trips), k0_chk11 (arg2.view.readAt (Elt F) (Rect.unit (s := S256) (k0_off26 ⟨kq, hkq⟩) S1.size (k0_off26_inb ⟨kq, hkq⟩)).toLoadRect (harg2.unread x0) (Shape.Idx.first (numel1_S1.symm ▸ Nat.one_pos))))) (k0_hw12L : (∀ (kq : ℕ) (hkq : kq < k0_t1_loop.trips), k0_chk12 (arg3.view.readAt (Elt F) (Rect.unit (s := S256) (k0_off26 ⟨kq, hkq⟩) S1.size (k0_off26_inb ⟨kq, hkq⟩)).toLoadRect (harg3.unread x1) (Shape.Idx.first (numel1_S1.symm ▸ Nat.one_pos))))) (k0_hw13L : (∀ (kq : ℕ) (hkq : kq < k0_t1_loop.trips), k0_chk13 (arg2.view.readAt (Elt F) (Rect.unit (s := S256) (k0_off31 ⟨kq, hkq⟩) S1.size (k0_off31_inb ⟨kq, hkq⟩)).toLoadRect (harg2.unread x0) (Shape.Idx.first (numel1_S1.symm ▸ Nat.one_pos))))) (k0_hw14L : (∀ (kq : ℕ) (hkq : kq < k0_t1_loop.trips), k0_chk14 (arg3.view.readAt (Elt F) (Rect.unit (s := S256) (k0_off31 ⟨kq, hkq⟩) S1.size (k0_off31_inb ⟨kq, hkq⟩)).toLoadRect (harg3.unread x1) (Shape.Idx.first (numel1_S1.symm ▸ Nat.one_pos))))) (k0_hw15L : (∀ (kq : ℕ) (hkq : kq < k0_t1_loop.trips), k0_chk15 (arg2.view.readAt (Elt F) (Rect.unit (s := S256) (k0_off36 ⟨kq, hkq⟩) S1.size (k0_off36_inb ⟨kq, hkq⟩)).toLoadRect (harg2.unread x0) (Shape.Idx.first (numel1_S1.symm ▸ Nat.one_pos))))) (k0_hw16L : (∀ (kq : ℕ) (hkq : kq < k0_t1_loop.trips), k0_chk16 (arg3.view.readAt (Elt F) (Rect.unit (s := S256) (k0_off36 ⟨kq, hkq⟩) S1.size (k0_off36_inb ⟨kq, hkq⟩)).toLoadRect (harg3.unread x1) (Shape.Idx.first (numel1_S1.symm ▸ Nat.one_pos))))) :
    out0_B_2 c i arg2 harg2 arg3 harg3 arg5 harg5 arg6 harg6 arg7 harg7 arg8 harg8 hc0 x0 x1 xs0 fh0 k0_hw1L k0_hw2L k0_hw3L k0_hw4L k0_hw5L k0_hw6L k0_hw7L k0_hw8L k0_hw9L k0_hw10L k0_hw11L k0_hw12L k0_hw13L k0_hw14L k0_hw15L k0_hw16L
      = k0_pay4 (rowsOf arg2 (harg2.unread x0) arg6 (harg6.unread xs0)) (rowsOf arg3 (harg3.unread x1) arg6 (harg6.unread xs0)) := by
  unfold out0_B_2
  rw [View.read_writes_eq_canon _ _ _ (fun y => cover0_B_2 c i arg2 harg2 arg3 harg3 arg5 harg5 arg6 harg6 arg7 harg7 arg8 harg8 hc0 x0 x1 xs0 fh0 k0_hw1L k0_hw2L k0_hw3L k0_hw4L k0_hw5L k0_hw6L k0_hw7L k0_hw8L k0_hw9L k0_hw10L k0_hw11L k0_hw12L k0_hw13L k0_hw14L k0_hw15L k0_hw16L y)]
  unfold kernelRun0_B
  dsimp only
  exact View.canon_unit_zero hz1 _ _

/-- A copying point: the same, the rows staged from the freshly copied table. -/
theorem out_first_pay (c : Dev nD) (i : grid0.Coords) (arg2 : Memref sig .tc .smem S256 .i32) (harg2 : arg2.IsWhole) (arg3 : Memref sig .tc .smem S256 .i32) (harg3 : arg3.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (hc0 : cond0_0 i) (x0 : Vec F S256 .i32) (x1 : Vec F S256 .i32) (fh0 : HbBuf0 (F := F) c hbM0_0) (k0_hw1L : (∀ (kq : ℕ) (hkq : kq < k0_t1_loop.trips), k0_chk1 (arg2.view.readAt (Elt F) (Rect.unit (s := S256) (k0_off1 ⟨kq, hkq⟩) S1.size (k0_off1_inb ⟨kq, hkq⟩)).toLoadRect (harg2.unread x0) (Shape.Idx.first (numel1_S1.symm ▸ Nat.one_pos))))) (k0_hw2L : (∀ (kq : ℕ) (hkq : kq < k0_t1_loop.trips), k0_chk2 (arg3.view.readAt (Elt F) (Rect.unit (s := S256) (k0_off1 ⟨kq, hkq⟩) S1.size (k0_off1_inb ⟨kq, hkq⟩)).toLoadRect (harg3.unread x1) (Shape.Idx.first (numel1_S1.symm ▸ Nat.one_pos))))) (k0_hw3L : (∀ (kq : ℕ) (hkq : kq < k0_t1_loop.trips), k0_chk3 (arg2.view.readAt (Elt F) (Rect.unit (s := S256) (k0_off6 ⟨kq, hkq⟩) S1.size (k0_off6_inb ⟨kq, hkq⟩)).toLoadRect (harg2.unread x0) (Shape.Idx.first (numel1_S1.symm ▸ Nat.one_pos))))) (k0_hw4L : (∀ (kq : ℕ) (hkq : kq < k0_t1_loop.trips), k0_chk4 (arg3.view.readAt (Elt F) (Rect.unit (s := S256) (k0_off6 ⟨kq, hkq⟩) S1.size (k0_off6_inb ⟨kq, hkq⟩)).toLoadRect (harg3.unread x1) (Shape.Idx.first (numel1_S1.symm ▸ Nat.one_pos))))) (k0_hw5L : (∀ (kq : ℕ) (hkq : kq < k0_t1_loop.trips), k0_chk5 (arg2.view.readAt (Elt F) (Rect.unit (s := S256) (k0_off11 ⟨kq, hkq⟩) S1.size (k0_off11_inb ⟨kq, hkq⟩)).toLoadRect (harg2.unread x0) (Shape.Idx.first (numel1_S1.symm ▸ Nat.one_pos))))) (k0_hw6L : (∀ (kq : ℕ) (hkq : kq < k0_t1_loop.trips), k0_chk6 (arg3.view.readAt (Elt F) (Rect.unit (s := S256) (k0_off11 ⟨kq, hkq⟩) S1.size (k0_off11_inb ⟨kq, hkq⟩)).toLoadRect (harg3.unread x1) (Shape.Idx.first (numel1_S1.symm ▸ Nat.one_pos))))) (k0_hw7L : (∀ (kq : ℕ) (hkq : kq < k0_t1_loop.trips), k0_chk7 (arg2.view.readAt (Elt F) (Rect.unit (s := S256) (k0_off16 ⟨kq, hkq⟩) S1.size (k0_off16_inb ⟨kq, hkq⟩)).toLoadRect (harg2.unread x0) (Shape.Idx.first (numel1_S1.symm ▸ Nat.one_pos))))) (k0_hw8L : (∀ (kq : ℕ) (hkq : kq < k0_t1_loop.trips), k0_chk8 (arg3.view.readAt (Elt F) (Rect.unit (s := S256) (k0_off16 ⟨kq, hkq⟩) S1.size (k0_off16_inb ⟨kq, hkq⟩)).toLoadRect (harg3.unread x1) (Shape.Idx.first (numel1_S1.symm ▸ Nat.one_pos))))) (k0_hw9L : (∀ (kq : ℕ) (hkq : kq < k0_t1_loop.trips), k0_chk9 (arg2.view.readAt (Elt F) (Rect.unit (s := S256) (k0_off21 ⟨kq, hkq⟩) S1.size (k0_off21_inb ⟨kq, hkq⟩)).toLoadRect (harg2.unread x0) (Shape.Idx.first (numel1_S1.symm ▸ Nat.one_pos))))) (k0_hw10L : (∀ (kq : ℕ) (hkq : kq < k0_t1_loop.trips), k0_chk10 (arg3.view.readAt (Elt F) (Rect.unit (s := S256) (k0_off21 ⟨kq, hkq⟩) S1.size (k0_off21_inb ⟨kq, hkq⟩)).toLoadRect (harg3.unread x1) (Shape.Idx.first (numel1_S1.symm ▸ Nat.one_pos))))) (k0_hw11L : (∀ (kq : ℕ) (hkq : kq < k0_t1_loop.trips), k0_chk11 (arg2.view.readAt (Elt F) (Rect.unit (s := S256) (k0_off26 ⟨kq, hkq⟩) S1.size (k0_off26_inb ⟨kq, hkq⟩)).toLoadRect (harg2.unread x0) (Shape.Idx.first (numel1_S1.symm ▸ Nat.one_pos))))) (k0_hw12L : (∀ (kq : ℕ) (hkq : kq < k0_t1_loop.trips), k0_chk12 (arg3.view.readAt (Elt F) (Rect.unit (s := S256) (k0_off26 ⟨kq, hkq⟩) S1.size (k0_off26_inb ⟨kq, hkq⟩)).toLoadRect (harg3.unread x1) (Shape.Idx.first (numel1_S1.symm ▸ Nat.one_pos))))) (k0_hw13L : (∀ (kq : ℕ) (hkq : kq < k0_t1_loop.trips), k0_chk13 (arg2.view.readAt (Elt F) (Rect.unit (s := S256) (k0_off31 ⟨kq, hkq⟩) S1.size (k0_off31_inb ⟨kq, hkq⟩)).toLoadRect (harg2.unread x0) (Shape.Idx.first (numel1_S1.symm ▸ Nat.one_pos))))) (k0_hw14L : (∀ (kq : ℕ) (hkq : kq < k0_t1_loop.trips), k0_chk14 (arg3.view.readAt (Elt F) (Rect.unit (s := S256) (k0_off31 ⟨kq, hkq⟩) S1.size (k0_off31_inb ⟨kq, hkq⟩)).toLoadRect (harg3.unread x1) (Shape.Idx.first (numel1_S1.symm ▸ Nat.one_pos))))) (k0_hw15L : (∀ (kq : ℕ) (hkq : kq < k0_t1_loop.trips), k0_chk15 (arg2.view.readAt (Elt F) (Rect.unit (s := S256) (k0_off36 ⟨kq, hkq⟩) S1.size (k0_off36_inb ⟨kq, hkq⟩)).toLoadRect (harg2.unread x0) (Shape.Idx.first (numel1_S1.symm ▸ Nat.one_pos))))) (k0_hw16L : (∀ (kq : ℕ) (hkq : kq < k0_t1_loop.trips), k0_chk16 (arg3.view.readAt (Elt F) (Rect.unit (s := S256) (k0_off36 ⟨kq, hkq⟩) S1.size (k0_off36_inb ⟨kq, hkq⟩)).toLoadRect (harg3.unread x1) (Shape.Idx.first (numel1_S1.symm ▸ Nat.one_pos))))) :
    out0_A_2 c i arg2 harg2 arg3 harg3 arg5 harg5 arg6 harg6 arg7 harg7 arg8 harg8 hc0 x0 x1 fh0 k0_hw1L k0_hw2L k0_hw3L k0_hw4L k0_hw5L k0_hw6L k0_hw7L k0_hw8L k0_hw9L k0_hw10L k0_hw11L k0_hw12L k0_hw13L k0_hw14L k0_hw15L k0_hw16L
      = k0_pay4 (rowsOf arg2 (harg2.unread x0) arg6 (copied c arg6 fh0)) (rowsOf arg3 (harg3.unread x1) arg6 (copied c arg6 fh0)) := by
  unfold out0_A_2
  rw [View.read_writes_eq_canon _ _ _ (fun y => cover0_A_2 c i arg2 harg2 arg3 harg3 arg5 harg5 arg6 harg6 arg7 harg7 arg8 harg8 hc0 x0 x1 fh0 k0_hw1L k0_hw2L k0_hw3L k0_hw4L k0_hw5L k0_hw6L k0_hw7L k0_hw8L k0_hw9L k0_hw10L k0_hw11L k0_hw12L k0_hw13L k0_hw14L k0_hw15L k0_hw16L y)]
  unfold kernelRun0_A
  dsimp only
  exact View.canon_unit_zero hz1 _ _

/-- A copying point leaves the table in the resident copy. -/
theorem copy_first (c : Dev nD) (i : grid0.Coords) (arg2 : Memref sig .tc .smem S256 .i32) (harg2 : arg2.IsWhole) (arg3 : Memref sig .tc .smem S256 .i32) (harg3 : arg3.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (hc0 : cond0_0 i) (x0 : Vec F S256 .i32) (x1 : Vec F S256 .i32) (fh0 : HbBuf0 (F := F) c hbM0_0) (k0_hw1L : (∀ (kq : ℕ) (hkq : kq < k0_t1_loop.trips), k0_chk1 (arg2.view.readAt (Elt F) (Rect.unit (s := S256) (k0_off1 ⟨kq, hkq⟩) S1.size (k0_off1_inb ⟨kq, hkq⟩)).toLoadRect (harg2.unread x0) (Shape.Idx.first (numel1_S1.symm ▸ Nat.one_pos))))) (k0_hw2L : (∀ (kq : ℕ) (hkq : kq < k0_t1_loop.trips), k0_chk2 (arg3.view.readAt (Elt F) (Rect.unit (s := S256) (k0_off1 ⟨kq, hkq⟩) S1.size (k0_off1_inb ⟨kq, hkq⟩)).toLoadRect (harg3.unread x1) (Shape.Idx.first (numel1_S1.symm ▸ Nat.one_pos))))) (k0_hw3L : (∀ (kq : ℕ) (hkq : kq < k0_t1_loop.trips), k0_chk3 (arg2.view.readAt (Elt F) (Rect.unit (s := S256) (k0_off6 ⟨kq, hkq⟩) S1.size (k0_off6_inb ⟨kq, hkq⟩)).toLoadRect (harg2.unread x0) (Shape.Idx.first (numel1_S1.symm ▸ Nat.one_pos))))) (k0_hw4L : (∀ (kq : ℕ) (hkq : kq < k0_t1_loop.trips), k0_chk4 (arg3.view.readAt (Elt F) (Rect.unit (s := S256) (k0_off6 ⟨kq, hkq⟩) S1.size (k0_off6_inb ⟨kq, hkq⟩)).toLoadRect (harg3.unread x1) (Shape.Idx.first (numel1_S1.symm ▸ Nat.one_pos))))) (k0_hw5L : (∀ (kq : ℕ) (hkq : kq < k0_t1_loop.trips), k0_chk5 (arg2.view.readAt (Elt F) (Rect.unit (s := S256) (k0_off11 ⟨kq, hkq⟩) S1.size (k0_off11_inb ⟨kq, hkq⟩)).toLoadRect (harg2.unread x0) (Shape.Idx.first (numel1_S1.symm ▸ Nat.one_pos))))) (k0_hw6L : (∀ (kq : ℕ) (hkq : kq < k0_t1_loop.trips), k0_chk6 (arg3.view.readAt (Elt F) (Rect.unit (s := S256) (k0_off11 ⟨kq, hkq⟩) S1.size (k0_off11_inb ⟨kq, hkq⟩)).toLoadRect (harg3.unread x1) (Shape.Idx.first (numel1_S1.symm ▸ Nat.one_pos))))) (k0_hw7L : (∀ (kq : ℕ) (hkq : kq < k0_t1_loop.trips), k0_chk7 (arg2.view.readAt (Elt F) (Rect.unit (s := S256) (k0_off16 ⟨kq, hkq⟩) S1.size (k0_off16_inb ⟨kq, hkq⟩)).toLoadRect (harg2.unread x0) (Shape.Idx.first (numel1_S1.symm ▸ Nat.one_pos))))) (k0_hw8L : (∀ (kq : ℕ) (hkq : kq < k0_t1_loop.trips), k0_chk8 (arg3.view.readAt (Elt F) (Rect.unit (s := S256) (k0_off16 ⟨kq, hkq⟩) S1.size (k0_off16_inb ⟨kq, hkq⟩)).toLoadRect (harg3.unread x1) (Shape.Idx.first (numel1_S1.symm ▸ Nat.one_pos))))) (k0_hw9L : (∀ (kq : ℕ) (hkq : kq < k0_t1_loop.trips), k0_chk9 (arg2.view.readAt (Elt F) (Rect.unit (s := S256) (k0_off21 ⟨kq, hkq⟩) S1.size (k0_off21_inb ⟨kq, hkq⟩)).toLoadRect (harg2.unread x0) (Shape.Idx.first (numel1_S1.symm ▸ Nat.one_pos))))) (k0_hw10L : (∀ (kq : ℕ) (hkq : kq < k0_t1_loop.trips), k0_chk10 (arg3.view.readAt (Elt F) (Rect.unit (s := S256) (k0_off21 ⟨kq, hkq⟩) S1.size (k0_off21_inb ⟨kq, hkq⟩)).toLoadRect (harg3.unread x1) (Shape.Idx.first (numel1_S1.symm ▸ Nat.one_pos))))) (k0_hw11L : (∀ (kq : ℕ) (hkq : kq < k0_t1_loop.trips), k0_chk11 (arg2.view.readAt (Elt F) (Rect.unit (s := S256) (k0_off26 ⟨kq, hkq⟩) S1.size (k0_off26_inb ⟨kq, hkq⟩)).toLoadRect (harg2.unread x0) (Shape.Idx.first (numel1_S1.symm ▸ Nat.one_pos))))) (k0_hw12L : (∀ (kq : ℕ) (hkq : kq < k0_t1_loop.trips), k0_chk12 (arg3.view.readAt (Elt F) (Rect.unit (s := S256) (k0_off26 ⟨kq, hkq⟩) S1.size (k0_off26_inb ⟨kq, hkq⟩)).toLoadRect (harg3.unread x1) (Shape.Idx.first (numel1_S1.symm ▸ Nat.one_pos))))) (k0_hw13L : (∀ (kq : ℕ) (hkq : kq < k0_t1_loop.trips), k0_chk13 (arg2.view.readAt (Elt F) (Rect.unit (s := S256) (k0_off31 ⟨kq, hkq⟩) S1.size (k0_off31_inb ⟨kq, hkq⟩)).toLoadRect (harg2.unread x0) (Shape.Idx.first (numel1_S1.symm ▸ Nat.one_pos))))) (k0_hw14L : (∀ (kq : ℕ) (hkq : kq < k0_t1_loop.trips), k0_chk14 (arg3.view.readAt (Elt F) (Rect.unit (s := S256) (k0_off31 ⟨kq, hkq⟩) S1.size (k0_off31_inb ⟨kq, hkq⟩)).toLoadRect (harg3.unread x1) (Shape.Idx.first (numel1_S1.symm ▸ Nat.one_pos))))) (k0_hw15L : (∀ (kq : ℕ) (hkq : kq < k0_t1_loop.trips), k0_chk15 (arg2.view.readAt (Elt F) (Rect.unit (s := S256) (k0_off36 ⟨kq, hkq⟩) S1.size (k0_off36_inb ⟨kq, hkq⟩)).toLoadRect (harg2.unread x0) (Shape.Idx.first (numel1_S1.symm ▸ Nat.one_pos))))) (k0_hw16L : (∀ (kq : ℕ) (hkq : kq < k0_t1_loop.trips), k0_chk16 (arg3.view.readAt (Elt F) (Rect.unit (s := S256) (k0_off36 ⟨kq, hkq⟩) S1.size (k0_off36_inb ⟨kq, hkq⟩)).toLoadRect (harg3.unread x1) (Shape.Idx.first (numel1_S1.symm ▸ Nat.one_pos))))) :
    sout0_A_0 c i arg2 harg2 arg3 harg3 arg5 harg5 arg6 harg6 arg7 harg7 arg8 harg8 hc0 x0 x1 fh0 k0_hw1L k0_hw2L k0_hw3L k0_hw4L k0_hw5L k0_hw6L k0_hw7L k0_hw8L k0_hw9L k0_hw10L k0_hw11L k0_hw12L k0_hw13L k0_hw14L k0_hw15L k0_hw16L = fh0 := by
  unfold sout0_A_0
  rw [View.read_writes_eq_canon _ _ _ (fun y => scover0_A_0 c i arg2 harg2 arg3 harg3 arg5 harg5 arg6 harg6 arg7 harg7 arg8 harg8 hc0 x0 x1 fh0 k0_hw1L k0_hw2L k0_hw3L k0_hw4L k0_hw5L k0_hw6L k0_hw7L k0_hw8L k0_hw9L k0_hw10L k0_hw11L k0_hw12L k0_hw13L k0_hw14L k0_hw15L k0_hw16L y)]
  unfold kernelRun0_A
  dsimp only
  funext y
  have h := View.canon_cons_emb (Val := Elt F) (Rect.whole S100000x128)
    (ReadAs.same.apply (View.read (Elt F) (View.whole main_arg0) fh0)) [] y
  rwa [Rect.emb_whole_apply] at h

end AnyInstance

/-! ## At the exact extended reals -/

/-- A point that does not copy writes back `blockScore` of its blocks and the resident copy. -/
theorem out_later (c : Dev nD) (i : grid0.Coords) (arg2 : Memref sig .tc .smem S256 .i32) (harg2 : arg2.IsWhole) (arg3 : Memref sig .tc .smem S256 .i32) (harg3 : arg3.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (hc0 : ¬cond0_0 i) (x0 : Vec Ideal S256 .i32) (x1 : Vec Ideal S256 .i32) (xs0 : Vec Ideal S100000x128 .f32) (fh0 : HbBuf0 (F := Ideal) c hbM0_0) (k0_hw1L : (∀ (kq : ℕ) (hkq : kq < k0_t1_loop.trips), k0_chk1 (arg2.view.readAt (Elt Ideal) (Rect.unit (s := S256) (k0_off1 ⟨kq, hkq⟩) S1.size (k0_off1_inb ⟨kq, hkq⟩)).toLoadRect (harg2.unread x0) (Shape.Idx.first (numel1_S1.symm ▸ Nat.one_pos))))) (k0_hw2L : (∀ (kq : ℕ) (hkq : kq < k0_t1_loop.trips), k0_chk2 (arg3.view.readAt (Elt Ideal) (Rect.unit (s := S256) (k0_off1 ⟨kq, hkq⟩) S1.size (k0_off1_inb ⟨kq, hkq⟩)).toLoadRect (harg3.unread x1) (Shape.Idx.first (numel1_S1.symm ▸ Nat.one_pos))))) (k0_hw3L : (∀ (kq : ℕ) (hkq : kq < k0_t1_loop.trips), k0_chk3 (arg2.view.readAt (Elt Ideal) (Rect.unit (s := S256) (k0_off6 ⟨kq, hkq⟩) S1.size (k0_off6_inb ⟨kq, hkq⟩)).toLoadRect (harg2.unread x0) (Shape.Idx.first (numel1_S1.symm ▸ Nat.one_pos))))) (k0_hw4L : (∀ (kq : ℕ) (hkq : kq < k0_t1_loop.trips), k0_chk4 (arg3.view.readAt (Elt Ideal) (Rect.unit (s := S256) (k0_off6 ⟨kq, hkq⟩) S1.size (k0_off6_inb ⟨kq, hkq⟩)).toLoadRect (harg3.unread x1) (Shape.Idx.first (numel1_S1.symm ▸ Nat.one_pos))))) (k0_hw5L : (∀ (kq : ℕ) (hkq : kq < k0_t1_loop.trips), k0_chk5 (arg2.view.readAt (Elt Ideal) (Rect.unit (s := S256) (k0_off11 ⟨kq, hkq⟩) S1.size (k0_off11_inb ⟨kq, hkq⟩)).toLoadRect (harg2.unread x0) (Shape.Idx.first (numel1_S1.symm ▸ Nat.one_pos))))) (k0_hw6L : (∀ (kq : ℕ) (hkq : kq < k0_t1_loop.trips), k0_chk6 (arg3.view.readAt (Elt Ideal) (Rect.unit (s := S256) (k0_off11 ⟨kq, hkq⟩) S1.size (k0_off11_inb ⟨kq, hkq⟩)).toLoadRect (harg3.unread x1) (Shape.Idx.first (numel1_S1.symm ▸ Nat.one_pos))))) (k0_hw7L : (∀ (kq : ℕ) (hkq : kq < k0_t1_loop.trips), k0_chk7 (arg2.view.readAt (Elt Ideal) (Rect.unit (s := S256) (k0_off16 ⟨kq, hkq⟩) S1.size (k0_off16_inb ⟨kq, hkq⟩)).toLoadRect (harg2.unread x0) (Shape.Idx.first (numel1_S1.symm ▸ Nat.one_pos))))) (k0_hw8L : (∀ (kq : ℕ) (hkq : kq < k0_t1_loop.trips), k0_chk8 (arg3.view.readAt (Elt Ideal) (Rect.unit (s := S256) (k0_off16 ⟨kq, hkq⟩) S1.size (k0_off16_inb ⟨kq, hkq⟩)).toLoadRect (harg3.unread x1) (Shape.Idx.first (numel1_S1.symm ▸ Nat.one_pos))))) (k0_hw9L : (∀ (kq : ℕ) (hkq : kq < k0_t1_loop.trips), k0_chk9 (arg2.view.readAt (Elt Ideal) (Rect.unit (s := S256) (k0_off21 ⟨kq, hkq⟩) S1.size (k0_off21_inb ⟨kq, hkq⟩)).toLoadRect (harg2.unread x0) (Shape.Idx.first (numel1_S1.symm ▸ Nat.one_pos))))) (k0_hw10L : (∀ (kq : ℕ) (hkq : kq < k0_t1_loop.trips), k0_chk10 (arg3.view.readAt (Elt Ideal) (Rect.unit (s := S256) (k0_off21 ⟨kq, hkq⟩) S1.size (k0_off21_inb ⟨kq, hkq⟩)).toLoadRect (harg3.unread x1) (Shape.Idx.first (numel1_S1.symm ▸ Nat.one_pos))))) (k0_hw11L : (∀ (kq : ℕ) (hkq : kq < k0_t1_loop.trips), k0_chk11 (arg2.view.readAt (Elt Ideal) (Rect.unit (s := S256) (k0_off26 ⟨kq, hkq⟩) S1.size (k0_off26_inb ⟨kq, hkq⟩)).toLoadRect (harg2.unread x0) (Shape.Idx.first (numel1_S1.symm ▸ Nat.one_pos))))) (k0_hw12L : (∀ (kq : ℕ) (hkq : kq < k0_t1_loop.trips), k0_chk12 (arg3.view.readAt (Elt Ideal) (Rect.unit (s := S256) (k0_off26 ⟨kq, hkq⟩) S1.size (k0_off26_inb ⟨kq, hkq⟩)).toLoadRect (harg3.unread x1) (Shape.Idx.first (numel1_S1.symm ▸ Nat.one_pos))))) (k0_hw13L : (∀ (kq : ℕ) (hkq : kq < k0_t1_loop.trips), k0_chk13 (arg2.view.readAt (Elt Ideal) (Rect.unit (s := S256) (k0_off31 ⟨kq, hkq⟩) S1.size (k0_off31_inb ⟨kq, hkq⟩)).toLoadRect (harg2.unread x0) (Shape.Idx.first (numel1_S1.symm ▸ Nat.one_pos))))) (k0_hw14L : (∀ (kq : ℕ) (hkq : kq < k0_t1_loop.trips), k0_chk14 (arg3.view.readAt (Elt Ideal) (Rect.unit (s := S256) (k0_off31 ⟨kq, hkq⟩) S1.size (k0_off31_inb ⟨kq, hkq⟩)).toLoadRect (harg3.unread x1) (Shape.Idx.first (numel1_S1.symm ▸ Nat.one_pos))))) (k0_hw15L : (∀ (kq : ℕ) (hkq : kq < k0_t1_loop.trips), k0_chk15 (arg2.view.readAt (Elt Ideal) (Rect.unit (s := S256) (k0_off36 ⟨kq, hkq⟩) S1.size (k0_off36_inb ⟨kq, hkq⟩)).toLoadRect (harg2.unread x0) (Shape.Idx.first (numel1_S1.symm ▸ Nat.one_pos))))) (k0_hw16L : (∀ (kq : ℕ) (hkq : kq < k0_t1_loop.trips), k0_chk16 (arg3.view.readAt (Elt Ideal) (Rect.unit (s := S256) (k0_off36 ⟨kq, hkq⟩) S1.size (k0_off36_inb ⟨kq, hkq⟩)).toLoadRect (harg3.unread x1) (Shape.Idx.first (numel1_S1.symm ▸ Nat.one_pos))))) :
    out0_B_2 (F := Ideal) c i arg2 harg2 arg3 harg3 arg5 harg5 arg6 harg6 arg7 harg7 arg8 harg8 hc0 x0 x1 xs0 fh0 k0_hw1L k0_hw2L k0_hw3L k0_hw4L k0_hw5L k0_hw6L k0_hw7L k0_hw8L k0_hw9L k0_hw10L k0_hw11L k0_hw12L k0_hw13L k0_hw14L k0_hw15L k0_hw16L = blockScore x0 x1 xs0 :=
  (out_later_pay c i arg2 harg2 arg3 harg3 arg5 harg5 arg6 harg6 arg7 harg7 arg8 harg8 hc0 x0 x1 xs0 fh0 k0_hw1L k0_hw2L k0_hw3L k0_hw4L k0_hw5L k0_hw6L k0_hw7L k0_hw8L k0_hw9L k0_hw10L k0_hw11L k0_hw12L k0_hw13L k0_hw14L k0_hw15L k0_hw16L).trans
    (pay_rows arg2 harg2 arg3 harg3 x0 x1 arg6 (harg6.unread xs0) xs0 (harg6.read_unread xs0))

/-- A copying point writes back `blockScore` of its blocks and the table. -/
theorem out_first (c : Dev nD) (i : grid0.Coords) (arg2 : Memref sig .tc .smem S256 .i32) (harg2 : arg2.IsWhole) (arg3 : Memref sig .tc .smem S256 .i32) (harg3 : arg3.IsWhole) (arg5 : Memref sig .tc .vmem S256 .f32) (harg5 : arg5.IsWhole) (arg6 : Memref sig .tc .vmem S100000x128 .f32) (harg6 : arg6.IsWhole) (arg7 : Memref sig .tc .vmem S256x128 .f32) (harg7 : arg7.IsWhole) (arg8 : Memref sig .tc .vmem S256x128 .f32) (harg8 : arg8.IsWhole) (hc0 : cond0_0 i) (x0 : Vec Ideal S256 .i32) (x1 : Vec Ideal S256 .i32) (fh0 : HbBuf0 (F := Ideal) c hbM0_0) (k0_hw1L : (∀ (kq : ℕ) (hkq : kq < k0_t1_loop.trips), k0_chk1 (arg2.view.readAt (Elt Ideal) (Rect.unit (s := S256) (k0_off1 ⟨kq, hkq⟩) S1.size (k0_off1_inb ⟨kq, hkq⟩)).toLoadRect (harg2.unread x0) (Shape.Idx.first (numel1_S1.symm ▸ Nat.one_pos))))) (k0_hw2L : (∀ (kq : ℕ) (hkq : kq < k0_t1_loop.trips), k0_chk2 (arg3.view.readAt (Elt Ideal) (Rect.unit (s := S256) (k0_off1 ⟨kq, hkq⟩) S1.size (k0_off1_inb ⟨kq, hkq⟩)).toLoadRect (harg3.unread x1) (Shape.Idx.first (numel1_S1.symm ▸ Nat.one_pos))))) (k0_hw3L : (∀ (kq : ℕ) (hkq : kq < k0_t1_loop.trips), k0_chk3 (arg2.view.readAt (Elt Ideal) (Rect.unit (s := S256) (k0_off6 ⟨kq, hkq⟩) S1.size (k0_off6_inb ⟨kq, hkq⟩)).toLoadRect (harg2.unread x0) (Shape.Idx.first (numel1_S1.symm ▸ Nat.one_pos))))) (k0_hw4L : (∀ (kq : ℕ) (hkq : kq < k0_t1_loop.trips), k0_chk4 (arg3.view.readAt (Elt Ideal) (Rect.unit (s := S256) (k0_off6 ⟨kq, hkq⟩) S1.size (k0_off6_inb ⟨kq, hkq⟩)).toLoadRect (harg3.unread x1) (Shape.Idx.first (numel1_S1.symm ▸ Nat.one_pos))))) (k0_hw5L : (∀ (kq : ℕ) (hkq : kq < k0_t1_loop.trips), k0_chk5 (arg2.view.readAt (Elt Ideal) (Rect.unit (s := S256) (k0_off11 ⟨kq, hkq⟩) S1.size (k0_off11_inb ⟨kq, hkq⟩)).toLoadRect (harg2.unread x0) (Shape.Idx.first (numel1_S1.symm ▸ Nat.one_pos))))) (k0_hw6L : (∀ (kq : ℕ) (hkq : kq < k0_t1_loop.trips), k0_chk6 (arg3.view.readAt (Elt Ideal) (Rect.unit (s := S256) (k0_off11 ⟨kq, hkq⟩) S1.size (k0_off11_inb ⟨kq, hkq⟩)).toLoadRect (harg3.unread x1) (Shape.Idx.first (numel1_S1.symm ▸ Nat.one_pos))))) (k0_hw7L : (∀ (kq : ℕ) (hkq : kq < k0_t1_loop.trips), k0_chk7 (arg2.view.readAt (Elt Ideal) (Rect.unit (s := S256) (k0_off16 ⟨kq, hkq⟩) S1.size (k0_off16_inb ⟨kq, hkq⟩)).toLoadRect (harg2.unread x0) (Shape.Idx.first (numel1_S1.symm ▸ Nat.one_pos))))) (k0_hw8L : (∀ (kq : ℕ) (hkq : kq < k0_t1_loop.trips), k0_chk8 (arg3.view.readAt (Elt Ideal) (Rect.unit (s := S256) (k0_off16 ⟨kq, hkq⟩) S1.size (k0_off16_inb ⟨kq, hkq⟩)).toLoadRect (harg3.unread x1) (Shape.Idx.first (numel1_S1.symm ▸ Nat.one_pos))))) (k0_hw9L : (∀ (kq : ℕ) (hkq : kq < k0_t1_loop.trips), k0_chk9 (arg2.view.readAt (Elt Ideal) (Rect.unit (s := S256) (k0_off21 ⟨kq, hkq⟩) S1.size (k0_off21_inb ⟨kq, hkq⟩)).toLoadRect (harg2.unread x0) (Shape.Idx.first (numel1_S1.symm ▸ Nat.one_pos))))) (k0_hw10L : (∀ (kq : ℕ) (hkq : kq < k0_t1_loop.trips), k0_chk10 (arg3.view.readAt (Elt Ideal) (Rect.unit (s := S256) (k0_off21 ⟨kq, hkq⟩) S1.size (k0_off21_inb ⟨kq, hkq⟩)).toLoadRect (harg3.unread x1) (Shape.Idx.first (numel1_S1.symm ▸ Nat.one_pos))))) (k0_hw11L : (∀ (kq : ℕ) (hkq : kq < k0_t1_loop.trips), k0_chk11 (arg2.view.readAt (Elt Ideal) (Rect.unit (s := S256) (k0_off26 ⟨kq, hkq⟩) S1.size (k0_off26_inb ⟨kq, hkq⟩)).toLoadRect (harg2.unread x0) (Shape.Idx.first (numel1_S1.symm ▸ Nat.one_pos))))) (k0_hw12L : (∀ (kq : ℕ) (hkq : kq < k0_t1_loop.trips), k0_chk12 (arg3.view.readAt (Elt Ideal) (Rect.unit (s := S256) (k0_off26 ⟨kq, hkq⟩) S1.size (k0_off26_inb ⟨kq, hkq⟩)).toLoadRect (harg3.unread x1) (Shape.Idx.first (numel1_S1.symm ▸ Nat.one_pos))))) (k0_hw13L : (∀ (kq : ℕ) (hkq : kq < k0_t1_loop.trips), k0_chk13 (arg2.view.readAt (Elt Ideal) (Rect.unit (s := S256) (k0_off31 ⟨kq, hkq⟩) S1.size (k0_off31_inb ⟨kq, hkq⟩)).toLoadRect (harg2.unread x0) (Shape.Idx.first (numel1_S1.symm ▸ Nat.one_pos))))) (k0_hw14L : (∀ (kq : ℕ) (hkq : kq < k0_t1_loop.trips), k0_chk14 (arg3.view.readAt (Elt Ideal) (Rect.unit (s := S256) (k0_off31 ⟨kq, hkq⟩) S1.size (k0_off31_inb ⟨kq, hkq⟩)).toLoadRect (harg3.unread x1) (Shape.Idx.first (numel1_S1.symm ▸ Nat.one_pos))))) (k0_hw15L : (∀ (kq : ℕ) (hkq : kq < k0_t1_loop.trips), k0_chk15 (arg2.view.readAt (Elt Ideal) (Rect.unit (s := S256) (k0_off36 ⟨kq, hkq⟩) S1.size (k0_off36_inb ⟨kq, hkq⟩)).toLoadRect (harg2.unread x0) (Shape.Idx.first (numel1_S1.symm ▸ Nat.one_pos))))) (k0_hw16L : (∀ (kq : ℕ) (hkq : kq < k0_t1_loop.trips), k0_chk16 (arg3.view.readAt (Elt Ideal) (Rect.unit (s := S256) (k0_off36 ⟨kq, hkq⟩) S1.size (k0_off36_inb ⟨kq, hkq⟩)).toLoadRect (harg3.unread x1) (Shape.Idx.first (numel1_S1.symm ▸ Nat.one_pos))))) :
    out0_A_2 (F := Ideal) c i arg2 harg2 arg3 harg3 arg5 harg5 arg6 harg6 arg7 harg7 arg8 harg8 hc0 x0 x1 fh0 k0_hw1L k0_hw2L k0_hw3L k0_hw4L k0_hw5L k0_hw6L k0_hw7L k0_hw8L k0_hw9L k0_hw10L k0_hw11L k0_hw12L k0_hw13L k0_hw14L k0_hw15L k0_hw16L = blockScore x0 x1 fh0 :=
  (out_first_pay c i arg2 harg2 arg3 harg3 arg5 harg5 arg6 harg6 arg7 harg7 arg8 harg8 hc0 x0 x1 fh0 k0_hw1L k0_hw2L k0_hw3L k0_hw4L k0_hw5L k0_hw6L k0_hw7L k0_hw8L k0_hw9L k0_hw10L k0_hw11L k0_hw12L k0_hw13L k0_hw14L k0_hw15L k0_hw16L).trans
    (pay_rows arg2 harg2 arg3 harg3 x0 x1 arg6 (copied c arg6 fh0) fh0 (copied_read c arg6 fh0))

variable (m : (ℓ : Loc nD τ sig) → Buf (Elt Ideal) ℓ)

/-- The point's block of source words, its block of destination words, and the table, at their literal types. -/
abbrev sblk (c : Dev nD) (t : Fin cfg0.N) : Vec Ideal S256 .i32 := iblk m c 0 t
abbrev dblk (c : Dev nD) (t : Fin cfg0.N) : Vec Ideal S256 .i32 := iblk m c 1 t
abbrev tbl (c : Dev nD) : Vec Ideal S100000x128 .f32 := V m c main_arg0

/-- A copying point: the block of scores over the table, and the table in the resident copy. -/
theorem first_at (hH : Hyps m) (c : Dev nD) (t : Fin cfg0.N) (h0 : t.val % 3125 = 0) :
    outsAt0 m hH c t.val t.isLt = (blockScore (sblk m c t) (dblk m c t) (tbl m c), tbl m c) := by
  rw [outsAt0_A m hH c t h0]
  have e1 := out_first c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (sblk m c t) (dblk m c t) (tbl m c) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t)
  have e2 := copy_first (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (sblk m c t) (dblk m c t) (tbl m c) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t)
  exact congrArg₂ Prod.mk e1 e2

/-- Any other point, when the point before left the table in the resident copy: the same. -/
theorem later_at (hH : Hyps m) (c : Dev nD) (t : Fin cfg0.N) (h0 : ¬t.val % 3125 = 0)
    (hprev : (outsAt0 m hH c (t.val - 1) (Nat.lt_of_le_of_lt (Nat.sub_le _ _) t.isLt)).2 = tbl m c) :
    outsAt0 m hH c t.val t.isLt = (blockScore (sblk m c t) (dblk m c t) (tbl m c), tbl m c) := by
  rw [outsAt0_B m hH c t h0]
  refine Prod.ext ((out_later c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hc => h0 ((hcond0_0 t).mp hc)) (sblk m c t) (dblk m c t) (outsAt0 m hH c (t.val - 1) (Nat.lt_of_le_of_lt (Nat.sub_le _ _) t.isLt)).2 (tbl m c) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t)).trans
    (congrArg (blockScore (sblk m c t) (dblk m c t)) hprev)) ?_
  exact hprev

/-- AFTER EVERY POINT the output block is `blockScore` of the point's two index blocks and the table, and the resident
    copy holds the table: by induction on the point (a copying point reloads the table, any other keeps it). -/
theorem outs_eq (hH : Hyps m) (c : Dev nD) (n : ℕ) (h : n < cfg0.N) :
    outsAt0 m hH c n h = (blockScore (sblk m c ⟨n, h⟩) (dblk m c ⟨n, h⟩) (tbl m c), tbl m c) := by
  induction n with
  | zero => exact first_at m hH c ⟨0, h⟩ rfl
  | succ n ihn =>
    by_cases h0 : (n + 1) % 3125 = 0
    · exact first_at m hH c ⟨n + 1, h⟩ h0
    · exact later_at m hH c ⟨n + 1, h⟩ h0 (congrArg Prod.snd (ihn (Nat.lt_of_succ_lt h)))

/-- The output block after point `t`. -/
theorem outs_fst (hH : Hyps m) (c : Dev nD) (t : Fin cfg0.N) :
    (outsAt0 m hH c t.val t.isLt).1 = blockScore (iblk m c 0 t) (iblk m c 1 t) (V m c main_arg0) :=
  congrArg Prod.fst (outs_eq m hH c t.val t.isLt)

end Cert.KernelIdeal.Point

end
-- ==== Proof.KFinal.lean ====
/-
  The kernel's result array.

  The grid has 6250 points. Point `t` holds words `256 t, …, 256 t + 255` of each of the two index vectors and writes
  back, as block `t` of the `[1600000]` result of the region, the 256 scores of those edges: the three windows move
  together, block index `t` at point `t`. Position `i` of the result lies in the block of point `i / 256`, and every
  point writes its block back, so after the last point the region's result holds at every `e` the score of edge `e`
  over the arrays as the region found them. The one operation after the region lays that vector out as the column
  `[1600000, 1]`, whose entry `(e, 0)` is position `e`. So every run ends with the result at the array of edge scores
  of the three argument arrays, and with the arguments as they were: none is written.
-/
import proofs.«419394_j13511967113601_3_alg».proof.Proof.KPoint
import Idealize.ShloMosaic.Lib.Pipeline.Value
import Idealize.ShloMosaic.Lib.StableHlo.Run
import Idealize.ShloMosaic.Lib.ValueIdx

noncomputable section

open scoped BigOperators

namespace Cert.KernelIdeal.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.EdgeScore

variable (m : (ℓ : Loc nD τ sig) → Buf (Elt Ideal) ℓ) (ρ : Dev nD → PrngReg)

/-! ## Where a block lies in its array -/

/-- At point `t` each of the three windows is on block `t` of its array (decided over the 6250 grid points). -/
theorem block_index : ∀ t : Fin cfg0.N, win0_0.index t (0 : Fin 1) = t.val ∧ win0_1.index t (0 : Fin 1) = t.val
    ∧ win0_2.index t (0 : Fin 1) = t.val :=
  (by decide +kernel : ∀ t : Fin grid0.N, _)

theorem point_lt (t : Fin cfg0.N) : t.val < 6250 := lt_of_lt_of_eq t.isLt (show cfg0.N = 6250 from N_0)

/-- Position `j` of point `t`'s block is position `256 t + j` of the array. -/
abbrev at256 (t : Fin cfg0.N) (j : Fin 256) : Fin 1600000 :=
  ⟨256 * t.val + j.val, by have := point_lt t; have := j.isLt; omega⟩

/-- The source-word block of point `t` reads the source vector at `256 t + j`. -/
theorem src_block (c : Dev nD) (t : Fin cfg0.N) (y : S256.Idx) :
    iblk m c 0 t y = V m c main_arg1 (ix1 (at256 t (y 0))) := by
  unfold iblk
  rw [View.read_apply]
  show V m c main_arg1 _ = V m c main_arg1 _
  refine congrArg (V m c main_arg1) (funext fun a => Fin.ext ?_)
  match a with
  | ⟨0, _⟩ =>
    show win0_0.index t (0 : Fin 1) * 256 + 1 * (y 0).val = 256 * t.val + (y 0).val
    rw [(block_index t).1]; omega

/-- The destination-word block of point `t` reads the destination vector at `256 t + j`. -/
theorem dst_block (c : Dev nD) (t : Fin cfg0.N) (y : S256.Idx) :
    iblk m c 1 t y = V m c main_arg2 (ix1 (at256 t (y 0))) := by
  unfold iblk
  rw [View.read_apply]
  show V m c main_arg2 _ = V m c main_arg2 _
  refine congrArg (V m c main_arg2) (funext fun a => Fin.ext ?_)
  match a with
  | ⟨0, _⟩ =>
    show win0_1.index t (0 : Fin 1) * 256 + 1 * (y 0).val = 256 * t.val + (y 0).val
    rw [(block_index t).2.1]; omega

/-- Position `j` of the result's block at point `t` is position `256 t + j` of the result. -/
theorem out_position (t : Fin cfg0.N) (y : S256.Idx) :
    ((cfg0.win 2).blk t).view.emb y = ix1 (at256 t (y 0)) := by
  funext a
  refine Fin.ext ?_
  match a with
  | ⟨0, _⟩ =>
    show win0_2.index t (0 : Fin 1) * 256 + 1 * (y 0).val = 256 * t.val + (y 0).val
    rw [(block_index t).2.2]; omega

/-! ## The array the region leaves -/

/-- The array of scores: at `e`, the score of edge `e` over the arrays as the region finds them. -/
def regionScores (c : Dev nD) : Buf (Elt Ideal) ((c : Thread nD τ).loc main_v0) :=
  fun (i : S1600000.Idx) => score (V m c main_arg0) (V m c main_arg1) (V m c main_arg2) (i 0)

theorem regionScores_apply (c : Dev nD) (e : Fin 1600000) :
    regionScores m c (ix1 e) = score (V m c main_arg0) (V m c main_arg1) (V m c main_arg2) e := rfl

/-- A block of scores whose index words at `j` are the vectors' words at edge `e` holds, at `j`, the score of edge `e`. -/
theorem blockScore_at (s d : Blk.Idx → BitVec 32) (S D : Edges.Idx → BitVec 32) (h : Tbl.Idx → EReal) (y : Blk.Idx)
    (e : Fin 1600000) (hs : s (ix1 (y 0)) = S (ix1 e)) (hd : d (ix1 (y 0)) = D (ix1 e)) :
    blockScore s d h y = score h S D e := by
  unfold blockScore score
  rw [hs, hd]

/-- WHAT POINT `t` WRITES BACK is block `t` of the array of scores. -/
theorem written_back (hH : Hyps m) (c : Dev nD) (t : Fin cfg0.N) :
    (GenP.dats m hH 0 c).flushed 2 t = ((cfg0.win 2).blk t).view.read (Elt Ideal) (regionScores m c) := by
  show (cfg0.win 2).cut (grid0.coords t) ((GenP.dats m hH 0 c).after 2 t) = _
  rw [GenP.after0_2, Point.outs_fst m hH c t]
  refine funext fun (y : S256.Idx) => ?_
  rw [View.read_apply]
  show blockScore (iblk m c 0 t) (iblk m c 1 t) (V m c main_arg0) y = regionScores m c (((cfg0.win 2).blk t).view.emb y)
  rw [out_position t y, regionScores_apply]
  exact blockScore_at _ _ _ _ _ y _ ((src_block m c t (ix1 (y 0))).trans rfl) ((dst_block m c t (ix1 (y 0))).trans rfl)

/-- Every position of the result is in the block of point `i / 256`, which is written back. -/
theorem covered (i : S1600000.Idx) :
    ∃ t : Fin cfg0.N, (cfg0.win 2).flush t = true ∧ i ∈ ((cfg0.win 2).blk t).view.set := by
  have hi : (i 0).val < 1600000 := (i 0).isLt
  have hN : cfg0.N = 6250 := N_0
  let t : Fin cfg0.N := ⟨(i 0).val / 256, by rw [hN]; omega⟩
  have ht : t.val = (i 0).val / 256 := rfl
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 1) * 256 ≤ (i 0).val ∧ (i 0).val < win0_2.index t (0 : Fin 1) * 256 + 256
    rw [(block_index t).2.2]; omega

/-- So after the last point the region's result is the array of scores. -/
theorem array_after (hH : Hyps m) (c : Dev nD) : (GenP.dats m hH 0 c).arrAt 2 cfg0.N = regionScores m c :=
  (GenP.dats m hH 0 c).arrAt_eq_of_cover 2 (regionScores m c) (fun t _ => written_back m hH c t) covered

/-! ## The column after the region -/

/-- The reshape `[1600000] → [1600000, 1]` reads, at `(e, q)`, position `e`: both are row-major position `e`. -/
theorem column_read {α : Type} (x : S1600000.Idx → α) (h : S1600000.ShapeCasts S1600000x1) (e : Fin 1600000) (q : Fin 1) :
    shapeCast S1600000x1 x h (ix2 e q) = x (ix1 e) := by
  refine shapeCast_apply x h (ix2 e q) (ix1 e) ?_
  rw [Shape.rowMajor_val_one, Shape.rowMajor_val_two]
  show e.val = e.val * 1 + q.val
  have := q.isLt; omega

/-- The result after the operation that follows the region: the edge scores of the argument arrays, as a column. -/
theorem column_after (hH : Hyps m) (c : Dev nD) :
    Pipeline.afterTail₀ cfgs (GenP.dats m hH) 0 (V0 m) [hostOps1] c main_v1
      = scores (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v1) = _
  after_results
  have hA : Pipeline.withArrays (cfgs 0).spec c (V0 m c) (fun w => (GenP.dats m hH 0 c).arrAt w (cfgs 0).N)
      (Proc.devRef .tc main_v0) = regionScores m c :=
    (Pipeline.withArrays_arr spec0 launch0.win.arr_inj c _ _ 2).trans (array_after m hH c)
  refine funext fun (i : S1600000x1.Idx) => ?_
  obtain ⟨e, q, rfl⟩ : ∃ (e : Fin 1600000) (q : Fin 1), i = ix2 e q := ⟨i 0, i 1, eq_ix2 i⟩
  show shapeCast S1600000x1 (Pipeline.withArrays (cfgs 0).spec c (V0 m c)
      (fun w => (GenP.dats m hH 0 c).arrAt w (cfgs 0).N) (Proc.devRef .tc main_v0)) _ (ix2 e q) = _
  rw [hA, column_read, regionScores_apply]
  rfl

/-! ## The run -/

/-- THE KERNEL'S RUN, READ: every weakly fair execution of @main ends with the result at the edge scores of the
    argument arrays, and the three arguments unchanged. -/
theorem run (hH : Hyps m) :
    θ_run (defs (F := Ideal)) (onTc (τ := τ) (main (F := Ideal))) ⟨m, fun _ => 0, ρ⟩ (fun r => ∀ c : Dev nD,
      r.2.mem ((c.tc : Thread nD τ).loc main_v1)
          = scores (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 (Pipeline.mem_restRefs_of main_v1 (by decide) (by decide))).trans (column_after m hH c),
     ((h c).2 main_arg0 (Pipeline.mem_restRefs_of main_arg0 (by decide) (by decide))).trans
       (W_main_arg0 m (GenP.dats m hH) c),
     ((h c).1 0).trans (((GenP.dats m hH 0 c).arrAt_in 0 rfl _).trans ((GenP.A_eq m hH c 0).trans (V_main_arg1 m c))),
     ((h c).1 1).trans (((GenP.dats m hH 0 c).arrAt_in 1 rfl _).trans ((GenP.A_eq m hH c 1).trans (V_main_arg2 m c)))⟩)
    (GenP.run_main m ρ hH)

end Cert.KernelIdeal.Final

end
-- ==== Proof.lean ====
/-
  The edge-score kernel against its reference: the five claims.

  For a table `h : [100000, 128]` and index vectors `src dst : [1600000]` the score of edge `e` is
  `∑ k < 128, h[src e, k] · h[dst e, k]`. The precondition says every table entry is finite and every index word
  `w` satisfies `0 ≤ w < 100000` read signed, hence `w < 100000` read unsigned.

  * The two frames of the kernel (its words as printed, and read over the extended reals). The body assumes of each
    index word it loads that the row it names lies inside the table; every loaded word is an entry of an index array,
    and under the precondition every such entry is below 100000, so the assumptions hold at every grid point and the
    kernel runs to its end with its three argument arrays unchanged.
  * The frame of the reference: its run, with the result forgotten.
  * The idealization rewrote no operation, so there is nothing to preserve.
  * The value claim, over the extended reals. The kernel copies row `src e` and row `dst e` of the table, multiplies
    them entry by entry and sums the 128 products; the reference gathers the same two rows — the wrap of a negative
    index and the clamp of a start index both leave a word below 100000 —, multiplies and sums along the row from
    zero. Once every index word is in range both are the same finite sum of the same products, the score array, so
    from memories that agree on the arguments the two results are equal element by element.
-/
import proofs.«419394_j13511967113601_3_alg».proof.Defs
import proofs.«419394_j13511967113601_3_alg».proof.Proof.Gen.Kernel
import proofs.«419394_j13511967113601_3_alg».proof.Proof.Gen.Kernel.Skeleton
import proofs.«419394_j13511967113601_3_alg».proof.Proof.Gen.Kernel.Loops
import proofs.«419394_j13511967113601_3_alg».proof.Proof.Gen.Kernel.Launch
import proofs.«419394_j13511967113601_3_alg».proof.Proof.Gen.Kernel.Points
import proofs.«419394_j13511967113601_3_alg».proof.Proof.KernelFrame
import proofs.«419394_j13511967113601_3_alg».proof.Proof.Gen.KernelIdeal
import proofs.«419394_j13511967113601_3_alg».proof.Proof.Gen.KernelIdeal.Skeleton
import proofs.«419394_j13511967113601_3_alg».proof.Proof.Gen.KernelIdeal.Loops
import proofs.«419394_j13511967113601_3_alg».proof.Proof.Gen.KernelIdeal.Launch
import proofs.«419394_j13511967113601_3_alg».proof.Proof.Gen.KernelIdeal.Points
import proofs.«419394_j13511967113601_3_alg».proof.Proof.KernelIdealFrame
import proofs.«419394_j13511967113601_3_alg».proof.Proof.Gen.ReferenceIdeal
import proofs.«419394_j13511967113601_3_alg».proof.Proof.Gen.ReferenceIdeal.Run
import proofs.«419394_j13511967113601_3_alg».proof.Proof.Gen.ReferenceIdeal.Read
import proofs.«419394_j13511967113601_3_alg».proof.Proof.Gen.Pre_finite_inputs
import proofs.«419394_j13511967113601_3_alg».proof.Proof.KernelHyps
import proofs.«419394_j13511967113601_3_alg».proof.Proof.KernelIdealHyps
import proofs.«419394_j13511967113601_3_alg».proof.Proof.RefValue
import proofs.«419394_j13511967113601_3_alg».proof.Proof.KFinal
import Idealize.ShloMosaic.Adequacy
import Idealize.ShloMosaic.Init

noncomputable section

namespace Cert.Proof

open Idealize.ShloMosaic Idealize.ShloMosaic.TcCoe Idealize.SL.Sem

/-- The kernel as printed runs and leaves its arguments: the body's assumptions follow from the range of the words. -/
theorem frame_Kernel : Cert.frame_Kernel := fun m ρ h =>
  Cert.Kernel.GenP.frame m ρ (Cert.Kernel.HypsOfPre.hyps_of_pre m h)

/-- The same over the extended reals. -/
theorem frame_KernelIdeal : Cert.frame_KernelIdeal := fun m ρ h =>
  Cert.KernelIdeal.GenP.frame m ρ (Cert.KernelIdeal.HypsOfPre.hyps_of_pre m h)

/-- The reference runs and leaves its arguments: its run with the result forgotten. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Both programs end with the score array of the kernel's arguments. The kernel's result is that array by its run;
    the reference's result is the score array of ITS arguments, which are the kernel's, and the index words are in
    range because the kernel's memory satisfies the precondition. -/
theorem algebraic : Cert.algebraic_KernelIdeal_ReferenceIdeal := by
  intro m ρ m' ρ' hpre hagree
  obtain ⟨hs, hd⟩ := Cert.KernelIdeal.HypsOfPre.range_of_pre m hpre
  refine ⟨_, Cert.KernelIdeal.Final.run m ρ (Cert.KernelIdeal.HypsOfPre.hyps_of_pre m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _ (hs c) (hd c)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
